-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S3072x1024 .f32) (main_arg5 : FVec F S3072 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024 .f32) (main_arg2 : FVec F S1024x1024 .f32) (main_arg3 : FVec F S1024 .f32) (main_arg4 : FVec F S3072x1024 .f32) (main_arg5 : FVec F S3072 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S1024x3072 : Shape := ⟨2, ![1024, 3072]⟩
abbrev S1x1024 : Shape := ⟨2, ![1, 1024]⟩
abbrev S1x3072 : Shape := ⟨2, ![1, 3072]⟩
abbrev S2x2048x3072 : Shape := ⟨3, ![2, 2048, 3072]⟩
abbrev S1x512x1024 : Shape := ⟨3, ![1, 512, 1024]⟩
abbrev S1x512x3072 : Shape := ⟨3, ![1, 512, 3072]⟩
abbrev S512x1024 : Shape := ⟨2, ![512, 1024]⟩
abbrev S512x3072 : Shape := ⟨2, ![512, 3072]⟩
abbrev S1x128x1024 : Shape := ⟨3, ![1, 128, 1024]⟩
abbrev S1x2048x1024 : Shape := ⟨3, ![1, 2048, 1024]⟩
abbrev S128x1024 : Shape := ⟨2, ![128, 1024]⟩
abbrev S1x128x64 : Shape := ⟨3, ![1, 128, 64]⟩
abbrev S128x64 : Shape := ⟨2, ![128, 64]⟩
abbrev S1x2048x64 : Shape := ⟨3, ![1, 2048, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩

abbrev nBuf : Space → Nat
  | .hbm => 20
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x3072, .f32⟩
  | .hbm, ⟨11, _⟩ => ⟨S1024x3072, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x3072, .f32⟩
  | .hbm, ⟨17, _⟩ => ⟨S1x1024, .f32⟩
  | .hbm, ⟨18, _⟩ => ⟨S2x2048x3072, .bf16⟩
  | .hbm, ⟨19, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x3072, .bf16⟩
  | .local _ .vmem, ⟨6, _⟩ => ⟨S1x3072, .f32⟩
  | .local _ .vmem, ⟨7, _⟩ => ⟨S1x512x3072, .bf16⟩
  | .local _ .vmem, ⟨8, _⟩ => ⟨S1x512x3072, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1024x1024, .bf16⟩
  | .local _ .vmem, ⟨14, _⟩ => ⟨S1x1024, .f32⟩
  | .local _ .vmem, ⟨15, _⟩ => ⟨S1x128x1024, .f32⟩
  | .local _ .vmem, ⟨16, _⟩ => ⟨S1x128x1024, .f32⟩
  | .local _ .vmem, ⟨17, _⟩ => ⟨S128x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S1024x1024_S1024x1024_1_0 : S1024x1024.Transposes [1, 0] S1024x1024
  bitsLt_bf16_f32 : FTy.bits .bf16 < FTy.bits .f32
  transposes_S3072x1024_S1024x3072_1_0 : S3072x1024.Transposes [1, 0] S1024x3072
  shapeCasts_S1024_S1x1024 : S1024.ShapeCasts S1x1024
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  inb_S1x128x1024_S1x128x64_0_0_0 : ∀ a, (![0, 0, 0] : Fin 3 → Nat) a + S1x128x64.size a ≤ S1x128x1024.size a
  h_S1x128x64 : 0 < S1x128x64.numel
  shapeCasts_S1x128x64_S128x64 : S1x128x64.ShapeCasts S128x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S128x2048_S128 : S128x2048.Reduces [1] S128
  shapeCasts_S128_S128x1 : S128.ShapeCasts S128x1
  broadcasts_S128x1_S128x2048 : S128x1.Broadcasts S128x2048
  broadcasts_S128x1_S128x64 : S128x1.Broadcasts S128x64
  inb_S128x1024_S128x64_0_0 : ∀ a, (![0, 0] : Fin 2 → Nat) a + S128x64.size a ≤ S128x1024.size a
  h_S128x64 : 0 < S128x64.numel
  shapeCasts_S128x64_S128x64 : S128x64.ShapeCasts S128x64
  inb_S1x128x1024_S1x128x64_0_0_64 : ∀ a, (![0, 0, 64] : Fin 3 → Nat) a + S1x128x64.size a ≤ S1x128x1024.size a
  inb_S1x2048x1024_S1x2048x64_0_0_64 : ∀ a, (![0, 0, 64] : Fin 3 → Nat) a + S1x2048x64.size a ≤ S1x2048x1024.size a
  inb_S128x1024_S128x64_0_64 : ∀ a, (![0, 64] : Fin 2 → Nat) a + S128x64.size a ≤ S128x1024.size a
  inb_S1x128x1024_S1x128x64_0_0_128 : ∀ a, (![0, 0, 128] : Fin 3 → Nat) a + S1x128x64.size a ≤ S1x128x1024.size a
  inb_S1x2048x1024_S1x2048x64_0_0_128 : ∀ a, (![0, 0, 128] : Fin 3 → Nat) a + S1x2048x64.size a ≤ S1x2048x1024.size a
  inb_S128x1024_S128x64_0_128 : ∀ a, (![0, 128] : Fin 2 → Nat) a + S128x64.size a ≤ S128x1024.size a
  inb_S1x128x1024_S1x128x64_0_0_192 : ∀ a, (![0, 0, 192] : Fin 3 → Nat) a + S1x128x64.size a ≤ S1x128x1024.size a
  inb_S1x2048x1024_S1x2048x64_0_0_192 : ∀ a, (![0, 0, 192] : Fin 3 → Nat) a + S1x2048x64.size a ≤ S1x2048x1024.size a
  inb_S128x1024_S128x64_0_192 : ∀ a, (![0, 192] : Fin 2 → Nat) a + S128x64.size a ≤ S128x1024.size a
  inb_S1x128x1024_S1x128x64_0_0_256 : ∀ a, (![0, 0, 256] : Fin 3 → Nat) a + S1x128x64.size a ≤ S1x128x1024.size a
  inb_S1x2048x1024_S1x2048x64_0_0_256 : ∀ a, (![0, 0, 256] : Fin 3 → Nat) a + S1x2048x64.size a ≤ S1x2048x1024.size a
  inb_S128x1024_S128x64_0_256 : ∀ a, (![0, 256] : Fin 2 → Nat) a + S128x64.size a ≤ S128x1024.size a
  inb_S1x128x1024_S1x128x64_0_0_320 : ∀ a, (![0, 0, 320] : Fin 3 → Nat) a + S1x128x64.size a ≤ S1x128x1024.size a
  inb_S1x2048x1024_S1x2048x64_0_0_320 : ∀ a, (![0, 0, 320] : Fin 3 → Nat) a + S1x2048x64.size a ≤ S1x2048x1024.size a
  inb_S128x1024_S128x64_0_320 : ∀ a, (![0, 320] : Fin 2 → Nat) a + S128x64.size a ≤ S128x1024.size a
  inb_S1x128x1024_S1x128x64_0_0_384 : ∀ a, (![0, 0, 384] : Fin 3 → Nat) a + S1x128x64.size a ≤ S1x128x1024.size a
  inb_S1x2048x1024_S1x2048x64_0_0_384 : ∀ a, (![0, 0, 384] : Fin 3 → Nat) a + S1x2048x64.size a ≤ S1x2048x1024.size a
  inb_S128x1024_S128x64_0_384 : ∀ a, (![0, 384] : Fin 2 → Nat) a + S128x64.size a ≤ S128x1024.size a
  inb_S1x128x1024_S1x128x64_0_0_448 : ∀ a, (![0, 0, 448] : Fin 3 → Nat) a + S1x128x64.size a ≤ S1x128x1024.size a
  inb_S1x2048x1024_S1x2048x64_0_0_448 : ∀ a, (![0, 0, 448] : Fin 3 → Nat) a + S1x2048x64.size a ≤ S1x2048x1024.size a
  inb_S128x1024_S128x64_0_448 : ∀ a, (![0, 448] : Fin 2 → Nat) a + S128x64.size a ≤ S128x1024.size a
  inb_S1x128x1024_S1x128x64_0_0_512 : ∀ a, (![0, 0, 512] : Fin 3 → Nat) a + S1x128x64.size a ≤ S1x128x1024.size a
  inb_S1x2048x1024_S1x2048x64_0_0_512 : ∀ a, (![0, 0, 512] : Fin 3 → Nat) a + S1x2048x64.size a ≤ S1x2048x1024.size a
  inb_S128x1024_S128x64_0_512 : ∀ a, (![0, 512] : Fin 2 → Nat) a + S128x64.size a ≤ S128x1024.size a
  inb_S1x128x1024_S1x128x64_0_0_576 : ∀ a, (![0, 0, 576] : Fin 3 → Nat) a + S1x128x64.size a ≤ S1x128x1024.size a
  inb_S1x2048x1024_S1x2048x64_0_0_576 : ∀ a, (![0, 0, 576] : Fin 3 → Nat) a + S1x2048x64.size a ≤ S1x2048x1024.size a
  inb_S128x1024_S128x64_0_576 : ∀ a, (![0, 576] : Fin 2 → Nat) a + S128x64.size a ≤ S128x1024.size a
  inb_S1x128x1024_S1x128x64_0_0_640 : ∀ a, (![0, 0, 640] : Fin 3 → Nat) a + S1x128x64.size a ≤ S1x128x1024.size a
  inb_S1x2048x1024_S1x2048x64_0_0_640 : ∀ a, (![0, 0, 640] : Fin 3 → Nat) a + S1x2048x64.size a ≤ S1x2048x1024.size a
  inb_S128x1024_S128x64_0_640 : ∀ a, (![0, 640] : Fin 2 → Nat) a + S128x64.size a ≤ S128x1024.size a
  inb_S1x128x1024_S1x128x64_0_0_704 : ∀ a, (![0, 0, 704] : Fin 3 → Nat) a + S1x128x64.size a ≤ S1x128x1024.size a
  inb_S1x2048x1024_S1x2048x64_0_0_704 : ∀ a, (![0, 0, 704] : Fin 3 → Nat) a + S1x2048x64.size a ≤ S1x2048x1024.size a
  inb_S128x1024_S128x64_0_704 : ∀ a, (![0, 704] : Fin 2 → Nat) a + S128x64.size a ≤ S128x1024.size a
  inb_S1x128x1024_S1x128x64_0_0_768 : ∀ a, (![0, 0, 768] : Fin 3 → Nat) a + S1x128x64.size a ≤ S1x128x1024.size a
  inb_S1x2048x1024_S1x2048x64_0_0_768 : ∀ a, (![0, 0, 768] : Fin 3 → Nat) a + S1x2048x64.size a ≤ S1x2048x1024.size a
  inb_S128x1024_S128x64_0_768 : ∀ a, (![0, 768] : Fin 2 → Nat) a + S128x64.size a ≤ S128x1024.size a
  inb_S1x128x1024_S1x128x64_0_0_832 : ∀ a, (![0, 0, 832] : Fin 3 → Nat) a + S1x128x64.size a ≤ S1x128x1024.size a
  inb_S1x2048x1024_S1x2048x64_0_0_832 : ∀ a, (![0, 0, 832] : Fin 3 → Nat) a + S1x2048x64.size a ≤ S1x2048x1024.size a
  inb_S128x1024_S128x64_0_832 : ∀ a, (![0, 832] : Fin 2 → Nat) a + S128x64.size a ≤ S128x1024.size a
  inb_S1x128x1024_S1x128x64_0_0_896 : ∀ a, (![0, 0, 896] : Fin 3 → Nat) a + S1x128x64.size a ≤ S1x128x1024.size a
  inb_S1x2048x1024_S1x2048x64_0_0_896 : ∀ a, (![0, 0, 896] : Fin 3 → Nat) a + S1x2048x64.size a ≤ S1x2048x1024.size a
  inb_S128x1024_S128x64_0_896 : ∀ a, (![0, 896] : Fin 2 → Nat) a + S128x64.size a ≤ S128x1024.size a
  inb_S1x128x1024_S1x128x64_0_0_960 : ∀ a, (![0, 0, 960] : Fin 3 → Nat) a + S1x128x64.size a ≤ S1x128x1024.size a
  inb_S1x2048x1024_S1x2048x64_0_0_960 : ∀ a, (![0, 0, 960] : Fin 3 → Nat) a + S1x2048x64.size a ≤ S1x2048x1024.size a
  inb_S128x1024_S128x64_0_960 : ∀ a, (![0, 960] : Fin 2 → Nat) a + S128x64.size a ≤ S128x1024.size a
  inb_S128x1024_S128x1024_0_0 : ∀ a, (![0, 0] : Fin 2 → Nat) a + S128x1024.size a ≤ S128x1024.size a
  h_S128x1024 : 0 < S128x1024.numel
  broadcasts_S1x1024_S128x1024 : S1x1024.Broadcasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  dot_S512x1024_S1024x1024_S512x1024_1_0_0_1_n_n_wf : DotDims.WF S512x1024 S1024x1024 S512x1024 [1] [0] [0] [1] [] []
  dot_S512x1024_S1024x3072_S512x3072_1_0_0_1_n_n_wf : DotDims.WF S512x1024 S1024x3072 S512x3072 [1] [0] [0] [1] [] []
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x3072.size a ≤ S2x2048x3072.size a
  hwx0_6 : ∀ i : grid0.Coords, EltTy.bits .bf16 = 32 ∨ (Rect.block (s := S2x2048x3072) S1x512x3072.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S2x2048x3072.size a
  hwx1_0 : ∀ i : grid1.Coords, EltTy.bits .bf16 = 32 ∨ (Rect.block (s := S2x2048x3072) S1x128x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x3072.size a
  hwx1_1 : ∀ i : grid1.Coords, EltTy.bits .bf16 = 32 ∨ (Rect.block (s := S2x2048x3072) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x3072.size a
  hwx1_2 : ∀ i : grid1.Coords, EltTy.bits .bf16 = 32 ∨ (Rect.block (s := S2x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x1024.size a ≤ S2x2048x1024.size a
  hwx1_5 : ∀ i : grid1.Coords, EltTy.bits .f32 = 32 ∨ (Rect.block (s := S2x2048x1024) S1x128x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x512x3072.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S1x1x1024 : Shape := ⟨3, ![1, 1, 1024]⟩
abbrev S_ : Shape := ⟨0, ![]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S2x2048x1024, .f32⟩
  | .hbm, ⟨9, _⟩ => ⟨S1x1x1024, .f32⟩
  | .hbm, ⟨10, _⟩ => ⟨S2x2048x1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x3072, .f32⟩
  | .hbm, ⟨20, _⟩ => ⟨S1x1x3072, .f32⟩
  | .hbm, ⟨21, _⟩ => ⟨S2x2048x3072, .f32⟩
  | .hbm, ⟨22, _⟩ => ⟨S2x2048x3072, .f32⟩
  | .hbm, ⟨23, _⟩ => ⟨S2x2048x3x16x64, .f32⟩
  | .hbm, ⟨24, _⟩ => ⟨S3x2x16x2048x64, .f32⟩
  | .hbm, ⟨25, _⟩ => ⟨S1x2x16x2048x64, .f32⟩
  | .hbm, ⟨26, _⟩ => ⟨S2x16x2048x64, .f32⟩
  | .hbm, ⟨27, _⟩ => ⟨S1x2x16x2048x64, .f32⟩
  | .hbm, ⟨28, _⟩ => ⟨S2x16x2048x64, .f32⟩
  | .hbm, ⟨29, _⟩ => ⟨S1x2x16x2048x64, .f32⟩
  | .hbm, ⟨30, _⟩ => ⟨S2x16x2048x64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S_, .f32⟩
  | .hbm, ⟨41, _⟩ => ⟨S2x16x2048, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S2x16x2048x1, .f32⟩
  | .hbm, ⟨50, _⟩ => ⟨S2x16x2048x2048, .f32⟩
  | .hbm, ⟨51, _⟩ => ⟨S2x16x2048x2048, .f32⟩
  | .hbm, ⟨52, _⟩ => ⟨S2x16x2048x64, .f32⟩
  | .hbm, ⟨53, _⟩ => ⟨S2x2048x16x64, .f32⟩
  | .hbm, ⟨54, _⟩ => ⟨S2x2048x1024, .f32⟩
  | .hbm, ⟨55, _⟩ => ⟨S2x2048x1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  bcast_S_S2x2048x1024 : S_.BroadcastsInDim S2x2048x1024 (![] : Fin 0 → Fin S2x2048x1024.rank)
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Body0.lean ====
/-
  The first kernel's body as one step on whole staging buffers: from the six input blocks (rows of x, theta, Wg^T, bg,
  Wqkv^T, bqkv) it leaves in the output buffer the one stored value, the fused gauge mix and q | k | v projection of
  the rows, and leaves the inputs as they were. The output buffer's earlier contents are read once and discarded.
-/
import proofs.«401440_j23210003267797_3_alg».proof.Proof.Gen.Kernel.Launch
import proofs.«401440_j23210003267797_3_alg».proof.Proof.Gen.Kernel.Skeleton
import proofs.«401440_j23210003267797_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the store take the whole buffer -/

abbrev rx : Rect S1x512x1024 := Rect.unit (s := S1x512x1024) ![0, 0, 0] S1x512x1024.size inb_S1x512x1024_S1x512x1024_0_0_0
abbrev rrow : Rect S1x1024 := Rect.unit (s := S1x1024) ![0, 0] S1x1024.size inb_S1x1024_S1x1024_0_0
abbrev rwg : Rect S1024x1024 := Rect.unit (s := S1024x1024) ![0, 0] S1024x1024.size inb_S1024x1024_S1024x1024_0_0
abbrev rwq : Rect S1024x3072 := Rect.unit (s := S1024x3072) ![0, 0] S1024x3072.size inb_S1024x3072_S1024x3072_0_0
abbrev rbq : Rect S1x3072 := Rect.unit (s := S1x3072) ![0, 0] S1x3072.size inb_S1x3072_S1x3072_0_0
abbrev rqkv : Rect S1x512x3072 := Rect.unit (s := S1x512x3072) ![0, 0, 0] S1x512x3072.size inb_S1x512x3072_S1x512x3072_0_0_0

/-- What the body leaves in the output buffer, from the input blocks: x0 the rows of x, x1 theta, x2 Wg^T, x3 bg,
    x4 Wqkv^T, x5 bqkv. -/
def out0 (x0 : Vec F S1x512x1024 .f32) (x1 : Vec F S1x1024 .f32) (x2 : Vec F S1024x1024 .bf16) (x3 : Vec F S1x1024 .f32)
    (x4 : Vec F S1024x3072 .bf16) (x5 : Vec F S1x3072 .f32) : Vec F S1x512x3072 .bf16 :=
  View.canon [⟨rqkv, k0_pay1 (View.ld x0 rx) (View.ld x2 rwg) (View.ld x3 rrow) (View.ld x1 rrow) (View.ld x4 rwq) (View.ld x5 rbq)⟩]

/-- The one store covers the buffer. -/
theorem cover0 (p0 : Vec F S1x512x3072 .bf16) (y : S1x512x3072.Idx) :
    ∃ pc ∈ ([⟨rqkv, p0⟩] : List (View.Piece (Elt F) S1x512x3072 .bf16)), y ∈ pc.1.set :=
  View.cover_of_tiled [⟨rqkv, p0⟩] S1x512x3072.size (by rfl) y

set_option maxHeartbeats 1000000 in
/-- The body on whole staging buffers: inputs at x0 … x5, the output at anything; it ends with the inputs as they were
    and the output at out0 of them. -/
theorem sound_kernel0 (c : Dev nD) (E : Set ℕ) (i : grid0.Coords)
    (arg2 : Memref sig .tc .vmem S1x512x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x3072 .bf16) (harg6 : arg6.IsWhole) (arg7 : Memref sig .tc .vmem S1x3072 .f32) (harg7 : arg7.IsWhole)
    (arg8 : Memref sig .tc .vmem S1x512x3072 .bf16) (harg8 : arg8.IsWhole)
    (x0 : Vec F S1x512x1024 .f32) (x1 : Vec F S1x1024 .f32) (x2 : Vec F S1024x1024 .bf16) (x3 : Vec F S1x1024 .f32)
    (x4 : Vec F S1024x3072 .bf16) (x5 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0 x0 x1 x2 x3 x4 x5)) -∗ K ⟨⟩))
      ⊢ wp frame (wpE (defs₀ (F := F)) Variants.none c none) E (cc0_proj_kernel i arg2 harg2 arg3 harg3 arg4 harg4 arg5 harg5 arg6 harg6 arg7 harg7 arg8 harg8) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

end Cert.Kernel.Fr

end
-- ==== Proof.K.Body1.lean ====
/-
  The second kernel's body as one step on whole staging buffers. For each of the sixteen heads it loads the head's
  64 columns of the query rows, of the keys and of the values, and stores the head's attention output into the same
  64 columns of a scratch accumulator; the sixteen stores tile the accumulator, which is then read back whole,
  multiplied by Wproj^T, offset by bproj and stored into the output buffer. The accumulator's and the output's
  earlier contents are read and discarded, so both may start at anything.
-/
import proofs.«401440_j23210003267797_3_alg».proof.Proof.Gen.Kernel.Launch
import proofs.«401440_j23210003267797_3_alg».proof.Proof.Gen.Kernel.Skeleton
import proofs.«401440_j23210003267797_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rq0 : Rect S1x128x1024 := Rect.unit (s := S1x128x1024) ![0, 0, 0] S1x128x64.size inb_S1x128x1024_S1x128x64_0_0_0
abbrev rk0 : Rect S1x2048x1024 := Rect.unit (s := S1x2048x1024) ![0, 0, 0] S1x2048x64.size inb_S1x2048x1024_S1x2048x64_0_0_0
abbrev rs0 : Rect S128x1024 := Rect.unit (s := S128x1024) ![0, 0] S128x64.size inb_S128x1024_S128x64_0_0
abbrev rq1 : Rect S1x128x1024 := Rect.unit (s := S1x128x1024) ![0, 0, 64] S1x128x64.size inb_S1x128x1024_S1x128x64_0_0_64
abbrev rk1 : Rect S1x2048x1024 := Rect.unit (s := S1x2048x1024) ![0, 0, 64] S1x2048x64.size inb_S1x2048x1024_S1x2048x64_0_0_64
abbrev rs1 : Rect S128x1024 := Rect.unit (s := S128x1024) ![0, 64] S128x64.size inb_S128x1024_S128x64_0_64
abbrev rq2 : Rect S1x128x1024 := Rect.unit (s := S1x128x1024) ![0, 0, 128] S1x128x64.size inb_S1x128x1024_S1x128x64_0_0_128
abbrev rk2 : Rect S1x2048x1024 := Rect.unit (s := S1x2048x1024) ![0, 0, 128] S1x2048x64.size inb_S1x2048x1024_S1x2048x64_0_0_128
abbrev rs2 : Rect S128x1024 := Rect.unit (s := S128x1024) ![0, 128] S128x64.size inb_S128x1024_S128x64_0_128
abbrev rq3 : Rect S1x128x1024 := Rect.unit (s := S1x128x1024) ![0, 0, 192] S1x128x64.size inb_S1x128x1024_S1x128x64_0_0_192
abbrev rk3 : Rect S1x2048x1024 := Rect.unit (s := S1x2048x1024) ![0, 0, 192] S1x2048x64.size inb_S1x2048x1024_S1x2048x64_0_0_192
abbrev rs3 : Rect S128x1024 := Rect.unit (s := S128x1024) ![0, 192] S128x64.size inb_S128x1024_S128x64_0_192
abbrev rq4 : Rect S1x128x1024 := Rect.unit (s := S1x128x1024) ![0, 0, 256] S1x128x64.size inb_S1x128x1024_S1x128x64_0_0_256
abbrev rk4 : Rect S1x2048x1024 := Rect.unit (s := S1x2048x1024) ![0, 0, 256] S1x2048x64.size inb_S1x2048x1024_S1x2048x64_0_0_256
abbrev rs4 : Rect S128x1024 := Rect.unit (s := S128x1024) ![0, 256] S128x64.size inb_S128x1024_S128x64_0_256
abbrev rq5 : Rect S1x128x1024 := Rect.unit (s := S1x128x1024) ![0, 0, 320] S1x128x64.size inb_S1x128x1024_S1x128x64_0_0_320
abbrev rk5 : Rect S1x2048x1024 := Rect.unit (s := S1x2048x1024) ![0, 0, 320] S1x2048x64.size inb_S1x2048x1024_S1x2048x64_0_0_320
abbrev rs5 : Rect S128x1024 := Rect.unit (s := S128x1024) ![0, 320] S128x64.size inb_S128x1024_S128x64_0_320
abbrev rq6 : Rect S1x128x1024 := Rect.unit (s := S1x128x1024) ![0, 0, 384] S1x128x64.size inb_S1x128x1024_S1x128x64_0_0_384
abbrev rk6 : Rect S1x2048x1024 := Rect.unit (s := S1x2048x1024) ![0, 0, 384] S1x2048x64.size inb_S1x2048x1024_S1x2048x64_0_0_384
abbrev rs6 : Rect S128x1024 := Rect.unit (s := S128x1024) ![0, 384] S128x64.size inb_S128x1024_S128x64_0_384
abbrev rq7 : Rect S1x128x1024 := Rect.unit (s := S1x128x1024) ![0, 0, 448] S1x128x64.size inb_S1x128x1024_S1x128x64_0_0_448
abbrev rk7 : Rect S1x2048x1024 := Rect.unit (s := S1x2048x1024) ![0, 0, 448] S1x2048x64.size inb_S1x2048x1024_S1x2048x64_0_0_448
abbrev rs7 : Rect S128x1024 := Rect.unit (s := S128x1024) ![0, 448] S128x64.size inb_S128x1024_S128x64_0_448
abbrev rq8 : Rect S1x128x1024 := Rect.unit (s := S1x128x1024) ![0, 0, 512] S1x128x64.size inb_S1x128x1024_S1x128x64_0_0_512
abbrev rk8 : Rect S1x2048x1024 := Rect.unit (s := S1x2048x1024) ![0, 0, 512] S1x2048x64.size inb_S1x2048x1024_S1x2048x64_0_0_512
abbrev rs8 : Rect S128x1024 := Rect.unit (s := S128x1024) ![0, 512] S128x64.size inb_S128x1024_S128x64_0_512
abbrev rq9 : Rect S1x128x1024 := Rect.unit (s := S1x128x1024) ![0, 0, 576] S1x128x64.size inb_S1x128x1024_S1x128x64_0_0_576
abbrev rk9 : Rect S1x2048x1024 := Rect.unit (s := S1x2048x1024) ![0, 0, 576] S1x2048x64.size inb_S1x2048x1024_S1x2048x64_0_0_576
abbrev rs9 : Rect S128x1024 := Rect.unit (s := S128x1024) ![0, 576] S128x64.size inb_S128x1024_S128x64_0_576
abbrev rq10 : Rect S1x128x1024 := Rect.unit (s := S1x128x1024) ![0, 0, 640] S1x128x64.size inb_S1x128x1024_S1x128x64_0_0_640
abbrev rk10 : Rect S1x2048x1024 := Rect.unit (s := S1x2048x1024) ![0, 0, 640] S1x2048x64.size inb_S1x2048x1024_S1x2048x64_0_0_640
abbrev rs10 : Rect S128x1024 := Rect.unit (s := S128x1024) ![0, 640] S128x64.size inb_S128x1024_S128x64_0_640
abbrev rq11 : Rect S1x128x1024 := Rect.unit (s := S1x128x1024) ![0, 0, 704] S1x128x64.size inb_S1x128x1024_S1x128x64_0_0_704
abbrev rk11 : Rect S1x2048x1024 := Rect.unit (s := S1x2048x1024) ![0, 0, 704] S1x2048x64.size inb_S1x2048x1024_S1x2048x64_0_0_704
abbrev rs11 : Rect S128x1024 := Rect.unit (s := S128x1024) ![0, 704] S128x64.size inb_S128x1024_S128x64_0_704
abbrev rq12 : Rect S1x128x1024 := Rect.unit (s := S1x128x1024) ![0, 0, 768] S1x128x64.size inb_S1x128x1024_S1x128x64_0_0_768
abbrev rk12 : Rect S1x2048x1024 := Rect.unit (s := S1x2048x1024) ![0, 0, 768] S1x2048x64.size inb_S1x2048x1024_S1x2048x64_0_0_768
abbrev rs12 : Rect S128x1024 := Rect.unit (s := S128x1024) ![0, 768] S128x64.size inb_S128x1024_S128x64_0_768
abbrev rq13 : Rect S1x128x1024 := Rect.unit (s := S1x128x1024) ![0, 0, 832] S1x128x64.size inb_S1x128x1024_S1x128x64_0_0_832
abbrev rk13 : Rect S1x2048x1024 := Rect.unit (s := S1x2048x1024) ![0, 0, 832] S1x2048x64.size inb_S1x2048x1024_S1x2048x64_0_0_832
abbrev rs13 : Rect S128x1024 := Rect.unit (s := S128x1024) ![0, 832] S128x64.size inb_S128x1024_S128x64_0_832
abbrev rq14 : Rect S1x128x1024 := Rect.unit (s := S1x128x1024) ![0, 0, 896] S1x128x64.size inb_S1x128x1024_S1x128x64_0_0_896
abbrev rk14 : Rect S1x2048x1024 := Rect.unit (s := S1x2048x1024) ![0, 0, 896] S1x2048x64.size inb_S1x2048x1024_S1x2048x64_0_0_896
abbrev rs14 : Rect S128x1024 := Rect.unit (s := S128x1024) ![0, 896] S128x64.size inb_S128x1024_S128x64_0_896
abbrev rq15 : Rect S1x128x1024 := Rect.unit (s := S1x128x1024) ![0, 0, 960] S1x128x64.size inb_S1x128x1024_S1x128x64_0_0_960
abbrev rk15 : Rect S1x2048x1024 := Rect.unit (s := S1x2048x1024) ![0, 0, 960] S1x2048x64.size inb_S1x2048x1024_S1x2048x64_0_0_960
abbrev rs15 : Rect S128x1024 := Rect.unit (s := S128x1024) ![0, 960] S128x64.size inb_S128x1024_S128x64_0_960

abbrev racc : Rect S128x1024 := Rect.unit (s := S128x1024) ![0, 0] S128x1024.size inb_S128x1024_S128x1024_0_0
abbrev rwp : Rect S1024x1024 := Rect.unit (s := S1024x1024) ![0, 0] S1024x1024.size inb_S1024x1024_S1024x1024_0_0
abbrev rbp : Rect S1x1024 := Rect.unit (s := S1x1024) ![0, 0] S1x1024.size inb_S1x1024_S1x1024_0_0
abbrev ro : Rect S1x128x1024 := Rect.unit (s := S1x128x1024) ![0, 0, 0] S1x128x1024.size inb_S1x128x1024_S1x128x1024_0_0_0

/-! ## What each head stores: x0 the query rows' block, x1 the keys' block, x2 the values' block -/

/-- Head 0: the value stored into columns 0 … 63 of the accumulator. -/
def head0 (x0 : Vec F S1x128x1024 .bf16) (x1 x2 : Vec F S1x2048x1024 .bf16) : FVec F S128x64 .f32 :=
  k1_pay2 (View.ld x0 rq0) (View.ld x1 rk0) (View.ld x2 rk0)
/-- Head 1: the value stored into columns 64 … 127 of the accumulator. -/
def head1 (x0 : Vec F S1x128x1024 .bf16) (x1 x2 : Vec F S1x2048x1024 .bf16) : FVec F S128x64 .f32 :=
  k1_pay5 (k1_pay3 (View.ld x2 rk1)) (k1_pay4 (View.ld x0 rq1) (View.ld x1 rk1)) (Scalar.ofBits .f32 0x3E000000#32)
/-- Head 2: the value stored into columns 128 … 191 of the accumulator. -/
def head2 (x0 : Vec F S1x128x1024 .bf16) (x1 x2 : Vec F S1x2048x1024 .bf16) : FVec F S128x64 .f32 :=
  k1_pay7 (k1_pay6 (View.ld x0 rq2) (View.ld x1 rk2) (View.ld x2 rk2))
/-- Head 3: the value stored into columns 192 … 255 of the accumulator. -/
def head3 (x0 : Vec F S1x128x1024 .bf16) (x1 x2 : Vec F S1x2048x1024 .bf16) : FVec F S128x64 .f32 :=
  k1_pay8 (View.ld x0 rq3) (View.ld x1 rk3) (View.ld x2 rk3)
/-- Head 4: the value stored into columns 256 … 319 of the accumulator. -/
def head4 (x0 : Vec F S1x128x1024 .bf16) (x1 x2 : Vec F S1x2048x1024 .bf16) : FVec F S128x64 .f32 :=
  k1_pay11 (k1_pay9 (View.ld x2 rk4)) (k1_pay10 (View.ld x0 rq4) (View.ld x1 rk4)) (Scalar.ofBits .f32 0x3E000000#32)
/-- Head 5: the value stored into columns 320 … 383 of the accumulator. -/
def head5 (x0 : Vec F S1x128x1024 .bf16) (x1 x2 : Vec F S1x2048x1024 .bf16) : FVec F S128x64 .f32 :=
  k1_pay13 (k1_pay12 (View.ld x0 rq5) (View.ld x1 rk5) (View.ld x2 rk5))
/-- Head 6: the value stored into columns 384 … 447 of the accumulator. -/
def head6 (x0 : Vec F S1x128x1024 .bf16) (x1 x2 : Vec F S1x2048x1024 .bf16) : FVec F S128x64 .f32 :=
  k1_pay14 (View.ld x0 rq6) (View.ld x1 rk6) (View.ld x2 rk6)
/-- Head 7: the value stored into columns 448 … 511 of the accumulator. -/
def head7 (x0 : Vec F S1x128x1024 .bf16) (x1 x2 : Vec F S1x2048x1024 .bf16) : FVec F S128x64 .f32 :=
  k1_pay17 (k1_pay15 (View.ld x2 rk7)) (k1_pay16 (View.ld x0 rq7) (View.ld x1 rk7)) (Scalar.ofBits .f32 0x3E000000#32)
/-- Head 8: the value stored into columns 512 … 575 of the accumulator. -/
def head8 (x0 : Vec F S1x128x1024 .bf16) (x1 x2 : Vec F S1x2048x1024 .bf16) : FVec F S128x64 .f32 :=
  k1_pay19 (k1_pay18 (View.ld x0 rq8) (View.ld x1 rk8) (View.ld x2 rk8))
/-- Head 9: the value stored into columns 576 … 639 of the accumulator. -/
def head9 (x0 : Vec F S1x128x1024 .bf16) (x1 x2 : Vec F S1x2048x1024 .bf16) : FVec F S128x64 .f32 :=
  k1_pay20 (View.ld x0 rq9) (View.ld x1 rk9) (View.ld x2 rk9)
/-- Head 10: the value stored into columns 640 … 703 of the accumulator. -/
def head10 (x0 : Vec F S1x128x1024 .bf16) (x1 x2 : Vec F S1x2048x1024 .bf16) : FVec F S128x64 .f32 :=
  k1_pay23 (k1_pay21 (View.ld x2 rk10)) (k1_pay22 (View.ld x0 rq10) (View.ld x1 rk10)) (Scalar.ofBits .f32 0x3E000000#32)
/-- Head 11: the value stored into columns 704 … 767 of the accumulator. -/
def head11 (x0 : Vec F S1x128x1024 .bf16) (x1 x2 : Vec F S1x2048x1024 .bf16) : FVec F S128x64 .f32 :=
  k1_pay25 (k1_pay24 (View.ld x0 rq11) (View.ld x1 rk11) (View.ld x2 rk11))
/-- Head 12: the value stored into columns 768 … 831 of the accumulator. -/
def head12 (x0 : Vec F S1x128x1024 .bf16) (x1 x2 : Vec F S1x2048x1024 .bf16) : FVec F S128x64 .f32 :=
  k1_pay26 (View.ld x0 rq12) (View.ld x1 rk12) (View.ld x2 rk12)
/-- Head 13: the value stored into columns 832 … 895 of the accumulator. -/
def head13 (x0 : Vec F S1x128x1024 .bf16) (x1 x2 : Vec F S1x2048x1024 .bf16) : FVec F S128x64 .f32 :=
  k1_pay29 (k1_pay27 (View.ld x2 rk13)) (k1_pay28 (View.ld x0 rq13) (View.ld x1 rk13)) (Scalar.ofBits .f32 0x3E000000#32)
/-- Head 14: the value stored into columns 896 … 959 of the accumulator. -/
def head14 (x0 : Vec F S1x128x1024 .bf16) (x1 x2 : Vec F S1x2048x1024 .bf16) : FVec F S128x64 .f32 :=
  k1_pay31 (k1_pay30 (View.ld x0 rq14) (View.ld x1 rk14) (View.ld x2 rk14))
/-- Head 15: the value stored into columns 960 … 1023 of the accumulator. -/
def head15 (x0 : Vec F S1x128x1024 .bf16) (x1 x2 : Vec F S1x2048x1024 .bf16) : FVec F S128x64 .f32 :=
  k1_pay32 (View.ld x0 rq15) (View.ld x1 rk15) (View.ld x2 rk15)

/-- The sixteen stores into the accumulator, last first. -/
def accPieces (x0 : Vec F S1x128x1024 .bf16) (x1 x2 : Vec F S1x2048x1024 .bf16) : List (View.Piece (Elt F) S128x1024 .f32) :=
  [⟨rs15, head15 x0 x1 x2⟩,
   ⟨rs14, head14 x0 x1 x2⟩,
   ⟨rs13, head13 x0 x1 x2⟩,
   ⟨rs12, head12 x0 x1 x2⟩,
   ⟨rs11, head11 x0 x1 x2⟩,
   ⟨rs10, head10 x0 x1 x2⟩,
   ⟨rs9, head9 x0 x1 x2⟩,
   ⟨rs8, head8 x0 x1 x2⟩,
   ⟨rs7, head7 x0 x1 x2⟩,
   ⟨rs6, head6 x0 x1 x2⟩,
   ⟨rs5, head5 x0 x1 x2⟩,
   ⟨rs4, head4 x0 x1 x2⟩,
   ⟨rs3, head3 x0 x1 x2⟩,
   ⟨rs2, head2 x0 x1 x2⟩,
   ⟨rs1, head1 x0 x1 x2⟩,
   ⟨rs0, head0 x0 x1 x2⟩]

/-- The accumulator after the sixteen stores. -/
def acc1 (x0 : Vec F S1x128x1024 .bf16) (x1 x2 : Vec F S1x2048x1024 .bf16) : Vec F S128x1024 .f32 :=
  View.canon (accPieces x0 x1 x2)

/-- What the body leaves in the output buffer: x3 Wproj^T, x4 bproj. -/
def out1 (x0 : Vec F S1x128x1024 .bf16) (x1 x2 : Vec F S1x2048x1024 .bf16) (x3 : Vec F S1024x1024 .bf16) (x4 : Vec F S1x1024 .f32) :
    Vec F S1x128x1024 .f32 :=
  View.canon [⟨ro, k1_pay1 (k1_pay33 (View.ld (acc1 x0 x1 x2) racc) (View.ld x3 rwp) (View.ld x4 rbp))⟩]

/-- The one store covers the output buffer. -/
theorem cover1 (p0 : Vec F S1x128x1024 .f32) (y : S1x128x1024.Idx) :
    ∃ pc ∈ ([⟨ro, p0⟩] : List (View.Piece (Elt F) S1x128x1024 .f32)), y ∈ pc.1.set :=
  View.cover_of_tiled [⟨ro, p0⟩] S1x128x1024.size (by rfl) y

set_option maxHeartbeats 4000000 in
/-- The body on whole staging buffers: inputs at x0 … x4, the output and the accumulator at anything; it ends with the
    inputs as they were, the output at out1 of them and the accumulator at something. -/
theorem sound_kernel1 (c : Dev nD) (E : Set ℕ) (i : grid1.Coords)
    (arg2 : Memref sig .tc .vmem S1x128x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x128x1024 .f32) (harg7 : arg7.IsWhole)
    (arg8 : Memref sig .tc .vmem S128x1024 .f32) (harg8 : arg8.IsWhole)
    (x0 : Vec F S1x128x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1 x0 x1 x2 x3 x4) ∗ (∃ d, owns (c : Thread nD τ) arg8 fullShare d)) -∗ K ⟨⟩))
      ⊢ wp frame (wpE (defs₀ (F := F)) Variants.none c none) E (cc1_attn_proj_kernel i arg2 harg2 arg3 harg3 arg4 harg4 arg5 harg5 arg6 harg6 arg7 harg7 arg8 harg8) K := by
  simp only [cc1_attn_proj_kernel_eq_skeleton]; unfold cc1_attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover1 _)]
    sl_unfold_words
    rw [View.readCov_eq_canon']
    rfl
  iexists _, _; isplitr
  swap; · iexact H6
  ipureintro; rfl

end Cert.Kernel.Fr

end
-- ==== Proof.K.Dat.lean ====
/-
  The proof data of the two kernel regions, at a parameter V: the buffers' contents when a region is entered.
  A window's block at a grid point is read off its array as the region finds it; an input's staging buffer holds
  that block whenever the body runs; after the body an input's buffer is unchanged and the output's holds the body's
  one stored value of the input blocks. The second region reads one array through three windows (the query rows,
  the keys, the values), so it holds that array in three shares; its scratch accumulator is rewritten whole at
  every point, so the region's invariant says nothing about it.
-/
import proofs.«401440_j23210003267797_3_alg».proof.Proof.K.Body0
import proofs.«401440_j23210003267797_3_alg».proof.Proof.K.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The three shares the q | k | v array is held in, one per window that reads it. -/
def qShare : Fin cfg1.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q := qShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The second kernel's body with its accumulator operand the core's scratch buffer, held whole at anything. -/
theorem sound_kernel1_scratch (c : Dev nD) (E : Set ℕ) (i : grid1.Coords)
    (arg2 : Memref sig .tc .vmem S1x128x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x128x1024 .f32) (harg7 : arg7.IsWhole)
    (x0 : Vec F S1x128x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ f : Buf (Elt F) ((c : Thread nD τ).loc cc1_scratch0), ((c : Thread nD τ).loc cc1_scratch0) ↦{fullShare} f)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1 x0 x1 x2 x3 x4)
            ∗ (∃ f : Buf (Elt F) ((c : Thread nD τ).loc cc1_scratch0), ((c : Thread nD τ).loc cc1_scratch0) ↦{fullShare} f)) -∗ K ⟨⟩))
      ⊢ wp frame (wpE (defs₀ (F := F)) Variants.none c none) E (cc1_attn_proj_kernel i arg2 harg2 arg3 harg3 arg4 harg4 arg5 harg5 arg6 harg6 arg7 harg7 (Memref.whole cc1_scratch0) (Memref.isWhole_whole _)) K := by
  have h := sound_kernel1 c E i arg2 harg2 arg3 harg3 arg4 harg4 arg5 harg5 arg6 harg6 arg7 harg7 (Memref.whole cc1_scratch0) (Memref.isWhole_whole _) x0 x1 x2 x3 x4 K
  simp only [owns_whole] at h
  exact h

/-- The body at any point: the scratch accumulator is taken out of the invariant's scoped rest, at whatever it
    holds, and put back at whatever the body left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨R0, R1, R2, R3, R4, R5, R6, R7, R8, ⟨%fs, Rs⟩⟩, Hp⟩, Ho, ⟨%d0, H0⟩, ⟨%d1, H1⟩, ⟨%d2, H2⟩, ⟨%d3, H3⟩, ⟨%d4, H4⟩, ⟨%d5, H5⟩⟩
  iapply (sound_kernel1_scratch c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Rs]
  · iexists fs; iexact Rs
  iintro ⟨H0, H1, H2, H3, H4, H5, ⟨%ds, Rs⟩⟩
  isplitl [R0 R1 R2 R3 R4 R5 R6 R7 R8 Rs Hp]
  · isplitr [Hp]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexists ds; iexact Rs
    iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.K.Run.lean ====
/-
  The two kernel regions as segments of the program's run, and the run.

  Between the host operations, the first region and the second region each core holds every unscoped buffer at a
  known valuation: the launch contents, then what the host operations leave, then that with the q | k | v array at
  what the first region's write-backs leave, then that with the result array at what the second region's leave.
  The first region splits its seven arrays out of the buffers and puts them back. The second region reads the
  q | k | v array through three windows: its buffer is split into three shares on entry and the shares are joined
  again on exit, all three holding the contents they were handed.
-/
import proofs.«401440_j23210003267797_3_alg».proof.Proof.K.Dat
import proofs.«401440_j23210003267797_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between the segments -/

/-- The contents the first region is entered with. -/
abbrev E1 : (c : Dev nD) → (b : Ref sig .tc) → Buf (Elt F) ((c : Thread nD τ).loc b) := fun c b => Gen.V1 m c b
/-- What the first region leaves in the q | k | v array. -/
def A0 (c : Dev nD) : Buf (Elt F) ((c : Thread nD τ).loc main_v10) := (dat0 (E1 m) c).arrAt 6 cfg0.N
/-- The valuation after the first region. -/
abbrev U2 (c : Dev nD) : Valuation τ sig (Elt F) := Function.update (Gen.V1 m c) main_v10 (A0 m c)
/-- The contents the second region is entered with. -/
abbrev E2 : (c : Dev nD) → (b : Ref sig .tc) → Buf (Elt F) ((c : Thread nD τ).loc b) := fun c b => U2 m c b
/-- What the second region leaves in the result array. -/
def A1 (c : Dev nD) : Buf (Elt F) ((c : Thread nD τ).loc main_v11) := (dat1 (E2 m) c).arrAt 5 cfg1.N
/-- The valuation after the second region. -/
abbrev U3 (c : Dev nD) : Valuation τ sig (Elt F) := Function.update (U2 m c) main_v11 (A1 m c)

/-- What the regions leave, as the unknowns the valuations between the segments are written over. -/
def outs : Gen.Outs (F := F) := fun J r c => if J = 2 then U2 m c r else U3 m c r

theorem V2_eq (c : Dev nD) : Gen.V2 m (outs m) c = U2 m c := by
  show Function.update (Gen.V1 m c) main_v10 (outs m 2 main_v10 c) = U2 m c
  unfold outs; rw [if_pos rfl]; unfold U2; rw [Function.update_self]

theorem V3_eq (c : Dev nD) : Gen.V3 m (outs m) c = U3 m c := by
  show Function.update (Gen.V2 m (outs m) c) main_v11 (outs m 3 main_v11 c) = U3 m c
  rw [V2_eq]; unfold outs; rw [if_neg (by decide)]; unfold U3; rw [Function.update_self]

/-- The result array at the end. -/
theorem V3_v11 (c : Dev nD) : Gen.V3 m (outs m) c main_v11 = A1 m c := by
  rw [V3_eq]; unfold U3; rw [Function.update_self]

/-- The q | k | v array the second region is entered with is what the first left. -/
theorem E2_v10 (c : Dev nD) : E2 m c main_v10 = A0 m c := by
  unfold E2 U2; rw [Function.update_self]

/-- Off the q | k | v array the second region is entered with what the host operations left. -/
theorem E2_of_ne (c : Dev nD) (r : Ref sig .tc) (h : r ≠ main_v10) : E2 m c r = Gen.V1 m c r := by
  unfold E2 U2
  rw [Function.update_of_ne (StableHlo.devRef_ne_of_ne h : (Proc.devRef .tc r : DevRef τ sig) ≠ Proc.devRef .tc main_v10)]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    none. -/
abbrev R (c : Dev nD) : sProp 𝕄 := iprop((∃ r, prngReg c r) ∗ ∃ W, owes (c : Thread nD τ) (0 : CellTallies nD τ sig Unit) W)

/-- At the first region's exit each of its arrays holds what the pipeline leaves, -/
theorem hF0 (c : Dev nD) : ∀ w : Fin cfg0.W, (dat0 (E1 m) c).arrAt w cfg0.N = Gen.V2 m (outs m) c (Pipeline.arrRef spec0 w)
  | ⟨0, _⟩ => ((dat0 (E1 m) c).arrAt_in 0 rfl _).trans ((A_eq0 (E1 m) c 0).trans (Gen.V2_of m (outs m) c main_arg0 (by decide)).symm)
  | ⟨1, _⟩ => ((dat0 (E1 m) c).arrAt_in 1 rfl _).trans ((A_eq0 (E1 m) c 1).trans (Gen.V2_of m (outs m) c main_v6 (by decide)).symm)
  | ⟨2, _⟩ => ((dat0 (E1 m) c).arrAt_in 2 rfl _).trans ((A_eq0 (E1 m) c 2).trans (Gen.V2_of m (outs m) c main_v1 (by decide)).symm)
  | ⟨3, _⟩ => ((dat0 (E1 m) c).arrAt_in 3 rfl _).trans ((A_eq0 (E1 m) c 3).trans (Gen.V2_of m (outs m) c main_v7 (by decide)).symm)
  | ⟨4, _⟩ => ((dat0 (E1 m) c).arrAt_in 4 rfl _).trans ((A_eq0 (E1 m) c 4).trans (Gen.V2_of m (outs m) c main_v3 (by decide)).symm)
  | ⟨5, _⟩ => ((dat0 (E1 m) c).arrAt_in 5 rfl _).trans ((A_eq0 (E1 m) c 5).trans (Gen.V2_of m (outs m) c main_v8 (by decide)).symm)
  | ⟨6, _⟩ => by
    show A0 m c = Gen.V2 m (outs m) c main_v10
    rw [V2_eq]; unfold U2; rw [Function.update_self]
  | ⟨_ + 7, h⟩ => absurd h (Nat.not_lt.2 (Nat.le_add_left _ _))

/-- and every other buffer what it held at entry. -/
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rw [List.mem_singleton] at h; subst h
    exact Finset.mem_image.mpr ⟨6, Finset.mem_univ _, rfl⟩)

set_option backward.isDefEq.respectTransparency.types false in
/-- The first region over the thread state: entered from every unscoped buffer at what the host operations left,
    left at that with the q | k | v array at what the write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: one buffer in three shares -/

section Shared

variable (V : (c : Dev nD) → (b : Ref sig .tc) → Buf (Elt F) ((c : Thread nD τ).loc b))

/-- The four buffers behind the second region's six windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v5) ↦{fullShare} W main_v5)
          ∗ (((c : Thread nD τ).loc main_v9) ↦{fullShare} W main_v9) ∗ (((c : Thread nD τ).loc main_v11) ↦{fullShare} W main_v11)) := by
  unfold Pipeline.arrBufs
  exact BI.bigSep_eq_bigSepL_of_eq [main_v10, main_v5, main_v9, main_v11] (by decide) (by decide) _

/-- The six windows' arrays at their shares: the q | k | v array's buffer three times, the others once. -/
theorem arrays1_eq (c : Dev nD) (Fw : (w : Fin cfg1.W) → Buf (Elt F) ((cfg1.win w).arr.view.loc (c : Thread nD τ))) :
    (dat1 V c).arrays Fw
      = iprop((((c : Thread nD τ).loc main_v10) ↦{fullShare.left} Fw 0) ∗ (((c : Thread nD τ).loc main_v10) ↦{fullShare.right.left} Fw 1)
          ∗ (((c : Thread nD τ).loc main_v10) ↦{fullShare.right.right} Fw 2) ∗ (((c : Thread nD τ).loc main_v5) ↦{fullShare} Fw 3)
          ∗ (((c : Thread nD τ).loc main_v9) ↦{fullShare} Fw 4) ∗ (((c : Thread nD τ).loc main_v11) ↦{fullShare} Fw 5)) := by
  unfold Dat.arrays
  rw [bigSep_W1, (arr_whole1 0).set_eq_univ, (arr_whole1 3).set_eq_univ, (arr_whole1 4).set_eq_univ, (arr_whole1 5).set_eq_univ]
  rfl

/-- The four buffers whole make the six windows' arrays at the region's entry contents: the q | k | v array's buffer
    is split in two and its right half in two again. -/
theorem hsplit1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  iintro ⟨H10, H5, H9, H11⟩
  ihave H := (pointsTo_share (PosShare.mem_left_op_right fullShare)).1 $$ H10
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  isplitl [H5]; · iexact H5
  isplitl [H9]; · iexact H9
  iexact H11

/-- At the region's exit the three shares, each still at the contents it was handed, are the buffer whole again; the
    result array's buffer holds what the write-backs leave. -/
theorem hjoin1 (c : Dev nD) (W' : (b : Ref sig .tc) → Buf (Elt F) ((c : Thread nD τ).loc b))
    (h10 : W' main_v10 = V c main_v10) (h5 : W' main_v5 = V c main_v5) (h9 : W' main_v9 = V c main_v9)
    (h11 : W' main_v11 = (dat1 V c).arrAt 5 cfg1.N) :
    (dat1 V c).arrays ((dat1 V c).arrAt · cfg1.N)
      ⊢ (Pipeline.arrBufs (Ix := Unit) (Name := ℕ) (U := UR sig nD τ) (Lvl := ℕ) spec1 c W' : sProp 𝕄) := by
  rw [arrBufs1_eq, arrays1_eq, h10, h5, h9, h11,
    ((dat1 V c).arrAt_in 0 rfl _).trans (A_eq1 V c 0), ((dat1 V c).arrAt_in 1 rfl _).trans (A_eq1 V c 1),
    ((dat1 V c).arrAt_in 2 rfl _).trans (A_eq1 V c 2), ((dat1 V c).arrAt_in 3 rfl _).trans (A_eq1 V c 3),
    ((dat1 V c).arrAt_in 4 rfl _).trans (A_eq1 V c 4)]
  iintro ⟨Ha, Hb1, Hb2, H5, H9, H11⟩
  ihave Hb := (pointsTo_share (PosShare.mem_left_op_right fullShare.right)).2 $$ [Hb1 Hb2]
  · isplitl [Hb1] <;> iassumption
  ihave H10 := (pointsTo_share (PosShare.mem_left_op_right fullShare)).2 $$ [Ha Hb]
  · isplitl [Ha] <;> iassumption
  isplitl [H10]; · iexact H10
  isplitl [H5]; · iexact H5
  isplitl [H9]; · iexact H9
  iexact H11

end Shared

/-! ## The second region as a segment -/

/-- The contents after the second region, read at the core's references. -/
abbrev E3 : (c : Dev nD) → (b : Ref sig .tc) → Buf (Elt F) ((c : Thread nD τ).loc b) := fun c b => U3 m c b

theorem E3_of_ne (c : Dev nD) (r : Ref sig .tc) (h : r ≠ main_v11) : E3 m c r = E2 m c r := by
  unfold E3 U3
  rw [Function.update_of_ne (StableHlo.devRef_ne_of_ne h : (Proc.devRef .tc r : DevRef τ sig) ≠ Proc.devRef .tc main_v11)]

theorem E3_v11 (c : Dev nD) : E3 m c main_v11 = (dat1 (E2 m) c).arrAt 5 cfg1.N := by
  unfold E3 U3; rw [Function.update_self]; rfl

/-- The second region's arrays at exit and the buffers it never touched are every unscoped buffer at the last
    valuation. -/
theorem hexit1 (c : Dev nD) :
    iprop((dat1 (E2 m) c).arrays ((dat1 (E2 m) c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (U3 m c) : sProp 𝕄) := by
  rw [← Pipeline.unscopedBufs_held c (U3 m c), Pipeline.unscopedBufs_split₀ cfgs 1 winFacts₀1.arr_unscoped c (E3 m c)]
  refine sep_mono (hjoin1 (E2 m) c (E3 m c) (E3_of_ne m c main_v10 (by decide)) (E3_of_ne m c main_v5 (by decide))
    (E3_of_ne m c main_v9 (by decide)) (E3_v11 m c)) (Entails.of_eq ?_)
  unfold Pipeline.unscopedRest
  exact (bigSep_congr fun b hb => by
    rw [E3_of_ne m c b fun h => (Finset.mem_sdiff.mp hb).2 (by
      subst h; exact Finset.mem_image.mpr ⟨5, Finset.mem_univ _, rfl⟩)]).symm

/-- Every unscoped buffer at the second region's entry valuation is its arrays at their shares and the buffers it
    never touches. -/
theorem hentry1 (c : Dev nD) :
    (StableHlo.held (c : Thread nD τ) (Pipeline.ucRefs τ sig) (U2 m c) : sProp 𝕄)
      ⊢ iprop((dat1 (E2 m) c).arrays (dat1 (E2 m) c).A
        ∗ Pipeline.unscopedRest (Ix := Unit) (Name := ℕ) (U := UR sig nD τ) (Lvl := ℕ) spec1 c (E2 m c)) := by
  rw [← Pipeline.unscopedBufs_held c (U2 m c), Pipeline.unscopedBufs_split₀ cfgs 1 winFacts₀1.arr_unscoped c (E2 m c)]
  exact sep_mono (hsplit1 (E2 m) c) .rfl

set_option backward.isDefEq.respectTransparency.types false in
/-- The second region over the thread state. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := hentry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hexit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- What the launch deals a core makes the rest of its first thread state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- The launch element. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- The frame: every weakly fair execution terminates, nothing faulting, the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ)
    (fun c => by iintro ⟨-, HO⟩; iexact HO)
    (reg0 m) (fun c => .rfl) (fun c => .rfl)
    (reg1 m) (fun c => by rw [V2_eq]; exact .rfl) (fun c => by rw [V3_eq]; exact .rfl)

end Cert.Kernel.Fr

end
-- ==== Proof.KI.Body0.lean ====
/-
  The first kernel's body as one step on whole staging buffers: from the six input blocks (rows of x, theta, Wg^T, bg,
  Wqkv^T, bqkv) it leaves in the output buffer the one stored value, the fused gauge mix and q | k | v projection of
  the rows, and leaves the inputs as they were. The output buffer's earlier contents are read once and discarded.
-/
import proofs.«401440_j23210003267797_3_alg».proof.Proof.Gen.KernelIdeal.Launch
import proofs.«401440_j23210003267797_3_alg».proof.Proof.Gen.KernelIdeal.Skeleton
import proofs.«401440_j23210003267797_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the store take the whole buffer -/

abbrev rx : Rect S1x512x1024 := Rect.unit (s := S1x512x1024) ![0, 0, 0] S1x512x1024.size inb_S1x512x1024_S1x512x1024_0_0_0
abbrev rrow : Rect S1x1024 := Rect.unit (s := S1x1024) ![0, 0] S1x1024.size inb_S1x1024_S1x1024_0_0
abbrev rwg : Rect S1024x1024 := Rect.unit (s := S1024x1024) ![0, 0] S1024x1024.size inb_S1024x1024_S1024x1024_0_0
abbrev rwq : Rect S1024x3072 := Rect.unit (s := S1024x3072) ![0, 0] S1024x3072.size inb_S1024x3072_S1024x3072_0_0
abbrev rbq : Rect S1x3072 := Rect.unit (s := S1x3072) ![0, 0] S1x3072.size inb_S1x3072_S1x3072_0_0
abbrev rqkv : Rect S1x512x3072 := Rect.unit (s := S1x512x3072) ![0, 0, 0] S1x512x3072.size inb_S1x512x3072_S1x512x3072_0_0_0

/-- What the body leaves in the output buffer, from the input blocks: x0 the rows of x, x1 theta, x2 Wg^T, x3 bg,
    x4 Wqkv^T, x5 bqkv. -/
def out0 (x0 : Vec F S1x512x1024 .f32) (x1 : Vec F S1x1024 .f32) (x2 : Vec F S1024x1024 .bf16) (x3 : Vec F S1x1024 .f32)
    (x4 : Vec F S1024x3072 .bf16) (x5 : Vec F S1x3072 .f32) : Vec F S1x512x3072 .bf16 :=
  View.canon [⟨rqkv, k0_pay1 (View.ld x0 rx) (View.ld x2 rwg) (View.ld x3 rrow) (View.ld x1 rrow) (View.ld x4 rwq) (View.ld x5 rbq)⟩]

/-- The one store covers the buffer. -/
theorem cover0 (p0 : Vec F S1x512x3072 .bf16) (y : S1x512x3072.Idx) :
    ∃ pc ∈ ([⟨rqkv, p0⟩] : List (View.Piece (Elt F) S1x512x3072 .bf16)), y ∈ pc.1.set :=
  View.cover_of_tiled [⟨rqkv, p0⟩] S1x512x3072.size (by rfl) y

set_option maxHeartbeats 1000000 in
/-- The body on whole staging buffers: inputs at x0 … x5, the output at anything; it ends with the inputs as they were
    and the output at out0 of them. -/
theorem sound_kernel0 (c : Dev nD) (E : Set ℕ) (i : grid0.Coords)
    (arg2 : Memref sig .tc .vmem S1x512x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x3072 .bf16) (harg6 : arg6.IsWhole) (arg7 : Memref sig .tc .vmem S1x3072 .f32) (harg7 : arg7.IsWhole)
    (arg8 : Memref sig .tc .vmem S1x512x3072 .bf16) (harg8 : arg8.IsWhole)
    (x0 : Vec F S1x512x1024 .f32) (x1 : Vec F S1x1024 .f32) (x2 : Vec F S1024x1024 .bf16) (x3 : Vec F S1x1024 .f32)
    (x4 : Vec F S1024x3072 .bf16) (x5 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0 x0 x1 x2 x3 x4 x5)) -∗ K ⟨⟩))
      ⊢ wp frame (wpE (defs₀ (F := F)) Variants.none c none) E (cc0_proj_kernel i arg2 harg2 arg3 harg3 arg4 harg4 arg5 harg5 arg6 harg6 arg7 harg7 arg8 harg8) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

end Cert.KernelIdeal.Fr

end
-- ==== Proof.KI.Body1.lean ====
/-
  The second kernel's body as one step on whole staging buffers. For each of the sixteen heads it loads the head's
  64 columns of the query rows, of the keys and of the values, and stores the head's attention output into the same
  64 columns of a scratch accumulator; the sixteen stores tile the accumulator, which is then read back whole,
  multiplied by Wproj^T, offset by bproj and stored into the output buffer. The accumulator's and the output's
  earlier contents are read and discarded, so both may start at anything.
-/
import proofs.«401440_j23210003267797_3_alg».proof.Proof.Gen.KernelIdeal.Launch
import proofs.«401440_j23210003267797_3_alg».proof.Proof.Gen.KernelIdeal.Skeleton
import proofs.«401440_j23210003267797_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rq0 : Rect S1x128x1024 := Rect.unit (s := S1x128x1024) ![0, 0, 0] S1x128x64.size inb_S1x128x1024_S1x128x64_0_0_0
abbrev rk0 : Rect S1x2048x1024 := Rect.unit (s := S1x2048x1024) ![0, 0, 0] S1x2048x64.size inb_S1x2048x1024_S1x2048x64_0_0_0
abbrev rs0 : Rect S128x1024 := Rect.unit (s := S128x1024) ![0, 0] S128x64.size inb_S128x1024_S128x64_0_0
abbrev rq1 : Rect S1x128x1024 := Rect.unit (s := S1x128x1024) ![0, 0, 64] S1x128x64.size inb_S1x128x1024_S1x128x64_0_0_64
abbrev rk1 : Rect S1x2048x1024 := Rect.unit (s := S1x2048x1024) ![0, 0, 64] S1x2048x64.size inb_S1x2048x1024_S1x2048x64_0_0_64
abbrev rs1 : Rect S128x1024 := Rect.unit (s := S128x1024) ![0, 64] S128x64.size inb_S128x1024_S128x64_0_64
abbrev rq2 : Rect S1x128x1024 := Rect.unit (s := S1x128x1024) ![0, 0, 128] S1x128x64.size inb_S1x128x1024_S1x128x64_0_0_128
abbrev rk2 : Rect S1x2048x1024 := Rect.unit (s := S1x2048x1024) ![0, 0, 128] S1x2048x64.size inb_S1x2048x1024_S1x2048x64_0_0_128
abbrev rs2 : Rect S128x1024 := Rect.unit (s := S128x1024) ![0, 128] S128x64.size inb_S128x1024_S128x64_0_128
abbrev rq3 : Rect S1x128x1024 := Rect.unit (s := S1x128x1024) ![0, 0, 192] S1x128x64.size inb_S1x128x1024_S1x128x64_0_0_192
abbrev rk3 : Rect S1x2048x1024 := Rect.unit (s := S1x2048x1024) ![0, 0, 192] S1x2048x64.size inb_S1x2048x1024_S1x2048x64_0_0_192
abbrev rs3 : Rect S128x1024 := Rect.unit (s := S128x1024) ![0, 192] S128x64.size inb_S128x1024_S128x64_0_192
abbrev rq4 : Rect S1x128x1024 := Rect.unit (s := S1x128x1024) ![0, 0, 256] S1x128x64.size inb_S1x128x1024_S1x128x64_0_0_256
abbrev rk4 : Rect S1x2048x1024 := Rect.unit (s := S1x2048x1024) ![0, 0, 256] S1x2048x64.size inb_S1x2048x1024_S1x2048x64_0_0_256
abbrev rs4 : Rect S128x1024 := Rect.unit (s := S128x1024) ![0, 256] S128x64.size inb_S128x1024_S128x64_0_256
abbrev rq5 : Rect S1x128x1024 := Rect.unit (s := S1x128x1024) ![0, 0, 320] S1x128x64.size inb_S1x128x1024_S1x128x64_0_0_320
abbrev rk5 : Rect S1x2048x1024 := Rect.unit (s := S1x2048x1024) ![0, 0, 320] S1x2048x64.size inb_S1x2048x1024_S1x2048x64_0_0_320
abbrev rs5 : Rect S128x1024 := Rect.unit (s := S128x1024) ![0, 320] S128x64.size inb_S128x1024_S128x64_0_320
abbrev rq6 : Rect S1x128x1024 := Rect.unit (s := S1x128x1024) ![0, 0, 384] S1x128x64.size inb_S1x128x1024_S1x128x64_0_0_384
abbrev rk6 : Rect S1x2048x1024 := Rect.unit (s := S1x2048x1024) ![0, 0, 384] S1x2048x64.size inb_S1x2048x1024_S1x2048x64_0_0_384
abbrev rs6 : Rect S128x1024 := Rect.unit (s := S128x1024) ![0, 384] S128x64.size inb_S128x1024_S128x64_0_384
abbrev rq7 : Rect S1x128x1024 := Rect.unit (s := S1x128x1024) ![0, 0, 448] S1x128x64.size inb_S1x128x1024_S1x128x64_0_0_448
abbrev rk7 : Rect S1x2048x1024 := Rect.unit (s := S1x2048x1024) ![0, 0, 448] S1x2048x64.size inb_S1x2048x1024_S1x2048x64_0_0_448
abbrev rs7 : Rect S128x1024 := Rect.unit (s := S128x1024) ![0, 448] S128x64.size inb_S128x1024_S128x64_0_448
abbrev rq8 : Rect S1x128x1024 := Rect.unit (s := S1x128x1024) ![0, 0, 512] S1x128x64.size inb_S1x128x1024_S1x128x64_0_0_512
abbrev rk8 : Rect S1x2048x1024 := Rect.unit (s := S1x2048x1024) ![0, 0, 512] S1x2048x64.size inb_S1x2048x1024_S1x2048x64_0_0_512
abbrev rs8 : Rect S128x1024 := Rect.unit (s := S128x1024) ![0, 512] S128x64.size inb_S128x1024_S128x64_0_512
abbrev rq9 : Rect S1x128x1024 := Rect.unit (s := S1x128x1024) ![0, 0, 576] S1x128x64.size inb_S1x128x1024_S1x128x64_0_0_576
abbrev rk9 : Rect S1x2048x1024 := Rect.unit (s := S1x2048x1024) ![0, 0, 576] S1x2048x64.size inb_S1x2048x1024_S1x2048x64_0_0_576
abbrev rs9 : Rect S128x1024 := Rect.unit (s := S128x1024) ![0, 576] S128x64.size inb_S128x1024_S128x64_0_576
abbrev rq10 : Rect S1x128x1024 := Rect.unit (s := S1x128x1024) ![0, 0, 640] S1x128x64.size inb_S1x128x1024_S1x128x64_0_0_640
abbrev rk10 : Rect S1x2048x1024 := Rect.unit (s := S1x2048x1024) ![0, 0, 640] S1x2048x64.size inb_S1x2048x1024_S1x2048x64_0_0_640
abbrev rs10 : Rect S128x1024 := Rect.unit (s := S128x1024) ![0, 640] S128x64.size inb_S128x1024_S128x64_0_640
abbrev rq11 : Rect S1x128x1024 := Rect.unit (s := S1x128x1024) ![0, 0, 704] S1x128x64.size inb_S1x128x1024_S1x128x64_0_0_704
abbrev rk11 : Rect S1x2048x1024 := Rect.unit (s := S1x2048x1024) ![0, 0, 704] S1x2048x64.size inb_S1x2048x1024_S1x2048x64_0_0_704
abbrev rs11 : Rect S128x1024 := Rect.unit (s := S128x1024) ![0, 704] S128x64.size inb_S128x1024_S128x64_0_704
abbrev rq12 : Rect S1x128x1024 := Rect.unit (s := S1x128x1024) ![0, 0, 768] S1x128x64.size inb_S1x128x1024_S1x128x64_0_0_768
abbrev rk12 : Rect S1x2048x1024 := Rect.unit (s := S1x2048x1024) ![0, 0, 768] S1x2048x64.size inb_S1x2048x1024_S1x2048x64_0_0_768
abbrev rs12 : Rect S128x1024 := Rect.unit (s := S128x1024) ![0, 768] S128x64.size inb_S128x1024_S128x64_0_768
abbrev rq13 : Rect S1x128x1024 := Rect.unit (s := S1x128x1024) ![0, 0, 832] S1x128x64.size inb_S1x128x1024_S1x128x64_0_0_832
abbrev rk13 : Rect S1x2048x1024 := Rect.unit (s := S1x2048x1024) ![0, 0, 832] S1x2048x64.size inb_S1x2048x1024_S1x2048x64_0_0_832
abbrev rs13 : Rect S128x1024 := Rect.unit (s := S128x1024) ![0, 832] S128x64.size inb_S128x1024_S128x64_0_832
abbrev rq14 : Rect S1x128x1024 := Rect.unit (s := S1x128x1024) ![0, 0, 896] S1x128x64.size inb_S1x128x1024_S1x128x64_0_0_896
abbrev rk14 : Rect S1x2048x1024 := Rect.unit (s := S1x2048x1024) ![0, 0, 896] S1x2048x64.size inb_S1x2048x1024_S1x2048x64_0_0_896
abbrev rs14 : Rect S128x1024 := Rect.unit (s := S128x1024) ![0, 896] S128x64.size inb_S128x1024_S128x64_0_896
abbrev rq15 : Rect S1x128x1024 := Rect.unit (s := S1x128x1024) ![0, 0, 960] S1x128x64.size inb_S1x128x1024_S1x128x64_0_0_960
abbrev rk15 : Rect S1x2048x1024 := Rect.unit (s := S1x2048x1024) ![0, 0, 960] S1x2048x64.size inb_S1x2048x1024_S1x2048x64_0_0_960
abbrev rs15 : Rect S128x1024 := Rect.unit (s := S128x1024) ![0, 960] S128x64.size inb_S128x1024_S128x64_0_960

abbrev racc : Rect S128x1024 := Rect.unit (s := S128x1024) ![0, 0] S128x1024.size inb_S128x1024_S128x1024_0_0
abbrev rwp : Rect S1024x1024 := Rect.unit (s := S1024x1024) ![0, 0] S1024x1024.size inb_S1024x1024_S1024x1024_0_0
abbrev rbp : Rect S1x1024 := Rect.unit (s := S1x1024) ![0, 0] S1x1024.size inb_S1x1024_S1x1024_0_0
abbrev ro : Rect S1x128x1024 := Rect.unit (s := S1x128x1024) ![0, 0, 0] S1x128x1024.size inb_S1x128x1024_S1x128x1024_0_0_0

/-! ## What each head stores: x0 the query rows' block, x1 the keys' block, x2 the values' block -/

/-- Head 0: the value stored into columns 0 … 63 of the accumulator. -/
def head0 (x0 : Vec F S1x128x1024 .bf16) (x1 x2 : Vec F S1x2048x1024 .bf16) : FVec F S128x64 .f32 :=
  k1_pay2 (View.ld x0 rq0) (View.ld x1 rk0) (View.ld x2 rk0)
/-- Head 1: the value stored into columns 64 … 127 of the accumulator. -/
def head1 (x0 : Vec F S1x128x1024 .bf16) (x1 x2 : Vec F S1x2048x1024 .bf16) : FVec F S128x64 .f32 :=
  k1_pay5 (k1_pay3 (View.ld x2 rk1)) (k1_pay4 (View.ld x0 rq1) (View.ld x1 rk1)) (Scalar.ofBits .f32 0x3E000000#32)
/-- Head 2: the value stored into columns 128 … 191 of the accumulator. -/
def head2 (x0 : Vec F S1x128x1024 .bf16) (x1 x2 : Vec F S1x2048x1024 .bf16) : FVec F S128x64 .f32 :=
  k1_pay7 (k1_pay6 (View.ld x0 rq2) (View.ld x1 rk2) (View.ld x2 rk2))
/-- Head 3: the value stored into columns 192 … 255 of the accumulator. -/
def head3 (x0 : Vec F S1x128x1024 .bf16) (x1 x2 : Vec F S1x2048x1024 .bf16) : FVec F S128x64 .f32 :=
  k1_pay8 (View.ld x0 rq3) (View.ld x1 rk3) (View.ld x2 rk3)
/-- Head 4: the value stored into columns 256 … 319 of the accumulator. -/
def head4 (x0 : Vec F S1x128x1024 .bf16) (x1 x2 : Vec F S1x2048x1024 .bf16) : FVec F S128x64 .f32 :=
  k1_pay11 (k1_pay9 (View.ld x2 rk4)) (k1_pay10 (View.ld x0 rq4) (View.ld x1 rk4)) (Scalar.ofBits .f32 0x3E000000#32)
/-- Head 5: the value stored into columns 320 … 383 of the accumulator. -/
def head5 (x0 : Vec F S1x128x1024 .bf16) (x1 x2 : Vec F S1x2048x1024 .bf16) : FVec F S128x64 .f32 :=
  k1_pay13 (k1_pay12 (View.ld x0 rq5) (View.ld x1 rk5) (View.ld x2 rk5))
/-- Head 6: the value stored into columns 384 … 447 of the accumulator. -/
def head6 (x0 : Vec F S1x128x1024 .bf16) (x1 x2 : Vec F S1x2048x1024 .bf16) : FVec F S128x64 .f32 :=
  k1_pay14 (View.ld x0 rq6) (View.ld x1 rk6) (View.ld x2 rk6)
/-- Head 7: the value stored into columns 448 … 511 of the accumulator. -/
def head7 (x0 : Vec F S1x128x1024 .bf16) (x1 x2 : Vec F S1x2048x1024 .bf16) : FVec F S128x64 .f32 :=
  k1_pay17 (k1_pay15 (View.ld x2 rk7)) (k1_pay16 (View.ld x0 rq7) (View.ld x1 rk7)) (Scalar.ofBits .f32 0x3E000000#32)
/-- Head 8: the value stored into columns 512 … 575 of the accumulator. -/
def head8 (x0 : Vec F S1x128x1024 .bf16) (x1 x2 : Vec F S1x2048x1024 .bf16) : FVec F S128x64 .f32 :=
  k1_pay19 (k1_pay18 (View.ld x0 rq8) (View.ld x1 rk8) (View.ld x2 rk8))
/-- Head 9: the value stored into columns 576 … 639 of the accumulator. -/
def head9 (x0 : Vec F S1x128x1024 .bf16) (x1 x2 : Vec F S1x2048x1024 .bf16) : FVec F S128x64 .f32 :=
  k1_pay20 (View.ld x0 rq9) (View.ld x1 rk9) (View.ld x2 rk9)
/-- Head 10: the value stored into columns 640 … 703 of the accumulator. -/
def head10 (x0 : Vec F S1x128x1024 .bf16) (x1 x2 : Vec F S1x2048x1024 .bf16) : FVec F S128x64 .f32 :=
  k1_pay23 (k1_pay21 (View.ld x2 rk10)) (k1_pay22 (View.ld x0 rq10) (View.ld x1 rk10)) (Scalar.ofBits .f32 0x3E000000#32)
/-- Head 11: the value stored into columns 704 … 767 of the accumulator. -/
def head11 (x0 : Vec F S1x128x1024 .bf16) (x1 x2 : Vec F S1x2048x1024 .bf16) : FVec F S128x64 .f32 :=
  k1_pay25 (k1_pay24 (View.ld x0 rq11) (View.ld x1 rk11) (View.ld x2 rk11))
/-- Head 12: the value stored into columns 768 … 831 of the accumulator. -/
def head12 (x0 : Vec F S1x128x1024 .bf16) (x1 x2 : Vec F S1x2048x1024 .bf16) : FVec F S128x64 .f32 :=
  k1_pay26 (View.ld x0 rq12) (View.ld x1 rk12) (View.ld x2 rk12)
/-- Head 13: the value stored into columns 832 … 895 of the accumulator. -/
def head13 (x0 : Vec F S1x128x1024 .bf16) (x1 x2 : Vec F S1x2048x1024 .bf16) : FVec F S128x64 .f32 :=
  k1_pay29 (k1_pay27 (View.ld x2 rk13)) (k1_pay28 (View.ld x0 rq13) (View.ld x1 rk13)) (Scalar.ofBits .f32 0x3E000000#32)
/-- Head 14: the value stored into columns 896 … 959 of the accumulator. -/
def head14 (x0 : Vec F S1x128x1024 .bf16) (x1 x2 : Vec F S1x2048x1024 .bf16) : FVec F S128x64 .f32 :=
  k1_pay31 (k1_pay30 (View.ld x0 rq14) (View.ld x1 rk14) (View.ld x2 rk14))
/-- Head 15: the value stored into columns 960 … 1023 of the accumulator. -/
def head15 (x0 : Vec F S1x128x1024 .bf16) (x1 x2 : Vec F S1x2048x1024 .bf16) : FVec F S128x64 .f32 :=
  k1_pay32 (View.ld x0 rq15) (View.ld x1 rk15) (View.ld x2 rk15)

/-- The sixteen stores into the accumulator, last first. -/
def accPieces (x0 : Vec F S1x128x1024 .bf16) (x1 x2 : Vec F S1x2048x1024 .bf16) : List (View.Piece (Elt F) S128x1024 .f32) :=
  [⟨rs15, head15 x0 x1 x2⟩,
   ⟨rs14, head14 x0 x1 x2⟩,
   ⟨rs13, head13 x0 x1 x2⟩,
   ⟨rs12, head12 x0 x1 x2⟩,
   ⟨rs11, head11 x0 x1 x2⟩,
   ⟨rs10, head10 x0 x1 x2⟩,
   ⟨rs9, head9 x0 x1 x2⟩,
   ⟨rs8, head8 x0 x1 x2⟩,
   ⟨rs7, head7 x0 x1 x2⟩,
   ⟨rs6, head6 x0 x1 x2⟩,
   ⟨rs5, head5 x0 x1 x2⟩,
   ⟨rs4, head4 x0 x1 x2⟩,
   ⟨rs3, head3 x0 x1 x2⟩,
   ⟨rs2, head2 x0 x1 x2⟩,
   ⟨rs1, head1 x0 x1 x2⟩,
   ⟨rs0, head0 x0 x1 x2⟩]

/-- The accumulator after the sixteen stores. -/
def acc1 (x0 : Vec F S1x128x1024 .bf16) (x1 x2 : Vec F S1x2048x1024 .bf16) : Vec F S128x1024 .f32 :=
  View.canon (accPieces x0 x1 x2)

/-- What the body leaves in the output buffer: x3 Wproj^T, x4 bproj. -/
def out1 (x0 : Vec F S1x128x1024 .bf16) (x1 x2 : Vec F S1x2048x1024 .bf16) (x3 : Vec F S1024x1024 .bf16) (x4 : Vec F S1x1024 .f32) :
    Vec F S1x128x1024 .f32 :=
  View.canon [⟨ro, k1_pay1 (k1_pay33 (View.ld (acc1 x0 x1 x2) racc) (View.ld x3 rwp) (View.ld x4 rbp))⟩]

/-- The one store covers the output buffer. -/
theorem cover1 (p0 : Vec F S1x128x1024 .f32) (y : S1x128x1024.Idx) :
    ∃ pc ∈ ([⟨ro, p0⟩] : List (View.Piece (Elt F) S1x128x1024 .f32)), y ∈ pc.1.set :=
  View.cover_of_tiled [⟨ro, p0⟩] S1x128x1024.size (by rfl) y

set_option maxHeartbeats 4000000 in
/-- The body on whole staging buffers: inputs at x0 … x4, the output and the accumulator at anything; it ends with the
    inputs as they were, the output at out1 of them and the accumulator at something. -/
theorem sound_kernel1 (c : Dev nD) (E : Set ℕ) (i : grid1.Coords)
    (arg2 : Memref sig .tc .vmem S1x128x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x128x1024 .f32) (harg7 : arg7.IsWhole)
    (arg8 : Memref sig .tc .vmem S128x1024 .f32) (harg8 : arg8.IsWhole)
    (x0 : Vec F S1x128x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1 x0 x1 x2 x3 x4) ∗ (∃ d, owns (c : Thread nD τ) arg8 fullShare d)) -∗ K ⟨⟩))
      ⊢ wp frame (wpE (defs₀ (F := F)) Variants.none c none) E (cc1_attn_proj_kernel i arg2 harg2 arg3 harg3 arg4 harg4 arg5 harg5 arg6 harg6 arg7 harg7 arg8 harg8) K := by
  simp only [cc1_attn_proj_kernel_eq_skeleton]; unfold cc1_attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover1 _)]
    sl_unfold_words
    rw [View.readCov_eq_canon']
    rfl
  iexists _, _; isplitr
  swap; · iexact H6
  ipureintro; rfl

end Cert.KernelIdeal.Fr

end
-- ==== Proof.KI.Dat.lean ====
/-
  The proof data of the two kernel regions, at a parameter V: the buffers' contents when a region is entered.
  A window's block at a grid point is read off its array as the region finds it; an input's staging buffer holds
  that block whenever the body runs; after the body an input's buffer is unchanged and the output's holds the body's
  one stored value of the input blocks. The second region reads one array through three windows (the query rows,
  the keys, the values), so it holds that array in three shares; its scratch accumulator is rewritten whole at
  every point, so the region's invariant says nothing about it.
-/
import proofs.«401440_j23210003267797_3_alg».proof.Proof.KI.Body0
import proofs.«401440_j23210003267797_3_alg».proof.Proof.KI.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The three shares the q | k | v array is held in, one per window that reads it. -/
def qShare : Fin cfg1.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q := qShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The second kernel's body with its accumulator operand the core's scratch buffer, held whole at anything. -/
theorem sound_kernel1_scratch (c : Dev nD) (E : Set ℕ) (i : grid1.Coords)
    (arg2 : Memref sig .tc .vmem S1x128x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x128x1024 .f32) (harg7 : arg7.IsWhole)
    (x0 : Vec F S1x128x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ f : Buf (Elt F) ((c : Thread nD τ).loc cc1_scratch0), ((c : Thread nD τ).loc cc1_scratch0) ↦{fullShare} f)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1 x0 x1 x2 x3 x4)
            ∗ (∃ f : Buf (Elt F) ((c : Thread nD τ).loc cc1_scratch0), ((c : Thread nD τ).loc cc1_scratch0) ↦{fullShare} f)) -∗ K ⟨⟩))
      ⊢ wp frame (wpE (defs₀ (F := F)) Variants.none c none) E (cc1_attn_proj_kernel i arg2 harg2 arg3 harg3 arg4 harg4 arg5 harg5 arg6 harg6 arg7 harg7 (Memref.whole cc1_scratch0) (Memref.isWhole_whole _)) K := by
  have h := sound_kernel1 c E i arg2 harg2 arg3 harg3 arg4 harg4 arg5 harg5 arg6 harg6 arg7 harg7 (Memref.whole cc1_scratch0) (Memref.isWhole_whole _) x0 x1 x2 x3 x4 K
  simp only [owns_whole] at h
  exact h

/-- The body at any point: the scratch accumulator is taken out of the invariant's scoped rest, at whatever it
    holds, and put back at whatever the body left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨R0, R1, R2, R3, R4, R5, R6, R7, R8, ⟨%fs, Rs⟩⟩, Hp⟩, Ho, ⟨%d0, H0⟩, ⟨%d1, H1⟩, ⟨%d2, H2⟩, ⟨%d3, H3⟩, ⟨%d4, H4⟩, ⟨%d5, H5⟩⟩
  iapply (sound_kernel1_scratch c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Rs]
  · iexists fs; iexact Rs
  iintro ⟨H0, H1, H2, H3, H4, H5, ⟨%ds, Rs⟩⟩
  isplitl [R0 R1 R2 R3 R4 R5 R6 R7 R8 Rs Hp]
  · isplitr [Hp]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexists ds; iexact Rs
    iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KI.Run.lean ====
/-
  The two kernel regions as segments of the program's run, and the run.

  Between the host operations, the first region and the second region each core holds every unscoped buffer at a
  known valuation: the launch contents, then what the host operations leave, then that with the q | k | v array at
  what the first region's write-backs leave, then that with the result array at what the second region's leave.
  The first region splits its seven arrays out of the buffers and puts them back. The second region reads the
  q | k | v array through three windows: its buffer is split into three shares on entry and the shares are joined
  again on exit, all three holding the contents they were handed.
-/
import proofs.«401440_j23210003267797_3_alg».proof.Proof.KI.Dat
import proofs.«401440_j23210003267797_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between the segments -/

/-- The contents the first region is entered with. -/
abbrev E1 : (c : Dev nD) → (b : Ref sig .tc) → Buf (Elt F) ((c : Thread nD τ).loc b) := fun c b => Gen.V1 m c b
/-- What the first region leaves in the q | k | v array. -/
def A0 (c : Dev nD) : Buf (Elt F) ((c : Thread nD τ).loc main_v10) := (dat0 (E1 m) c).arrAt 6 cfg0.N
/-- The valuation after the first region. -/
abbrev U2 (c : Dev nD) : Valuation τ sig (Elt F) := Function.update (Gen.V1 m c) main_v10 (A0 m c)
/-- The contents the second region is entered with. -/
abbrev E2 : (c : Dev nD) → (b : Ref sig .tc) → Buf (Elt F) ((c : Thread nD τ).loc b) := fun c b => U2 m c b
/-- What the second region leaves in the result array. -/
def A1 (c : Dev nD) : Buf (Elt F) ((c : Thread nD τ).loc main_v11) := (dat1 (E2 m) c).arrAt 5 cfg1.N
/-- The valuation after the second region. -/
abbrev U3 (c : Dev nD) : Valuation τ sig (Elt F) := Function.update (U2 m c) main_v11 (A1 m c)

/-- What the regions leave, as the unknowns the valuations between the segments are written over. -/
def outs : Gen.Outs (F := F) := fun J r c => if J = 2 then U2 m c r else U3 m c r

theorem V2_eq (c : Dev nD) : Gen.V2 m (outs m) c = U2 m c := by
  show Function.update (Gen.V1 m c) main_v10 (outs m 2 main_v10 c) = U2 m c
  unfold outs; rw [if_pos rfl]; unfold U2; rw [Function.update_self]

theorem V3_eq (c : Dev nD) : Gen.V3 m (outs m) c = U3 m c := by
  show Function.update (Gen.V2 m (outs m) c) main_v11 (outs m 3 main_v11 c) = U3 m c
  rw [V2_eq]; unfold outs; rw [if_neg (by decide)]; unfold U3; rw [Function.update_self]

/-- The result array at the end. -/
theorem V3_v11 (c : Dev nD) : Gen.V3 m (outs m) c main_v11 = A1 m c := by
  rw [V3_eq]; unfold U3; rw [Function.update_self]

/-- The q | k | v array the second region is entered with is what the first left. -/
theorem E2_v10 (c : Dev nD) : E2 m c main_v10 = A0 m c := by
  unfold E2 U2; rw [Function.update_self]

/-- Off the q | k | v array the second region is entered with what the host operations left. -/
theorem E2_of_ne (c : Dev nD) (r : Ref sig .tc) (h : r ≠ main_v10) : E2 m c r = Gen.V1 m c r := by
  unfold E2 U2
  rw [Function.update_of_ne (StableHlo.devRef_ne_of_ne h : (Proc.devRef .tc r : DevRef τ sig) ≠ Proc.devRef .tc main_v10)]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    none. -/
abbrev R (c : Dev nD) : sProp 𝕄 := iprop((∃ r, prngReg c r) ∗ ∃ W, owes (c : Thread nD τ) (0 : CellTallies nD τ sig Unit) W)

/-- At the first region's exit each of its arrays holds what the pipeline leaves, -/
theorem hF0 (c : Dev nD) : ∀ w : Fin cfg0.W, (dat0 (E1 m) c).arrAt w cfg0.N = Gen.V2 m (outs m) c (Pipeline.arrRef spec0 w)
  | ⟨0, _⟩ => ((dat0 (E1 m) c).arrAt_in 0 rfl _).trans ((A_eq0 (E1 m) c 0).trans (Gen.V2_of m (outs m) c main_arg0 (by decide)).symm)
  | ⟨1, _⟩ => ((dat0 (E1 m) c).arrAt_in 1 rfl _).trans ((A_eq0 (E1 m) c 1).trans (Gen.V2_of m (outs m) c main_v6 (by decide)).symm)
  | ⟨2, _⟩ => ((dat0 (E1 m) c).arrAt_in 2 rfl _).trans ((A_eq0 (E1 m) c 2).trans (Gen.V2_of m (outs m) c main_v1 (by decide)).symm)
  | ⟨3, _⟩ => ((dat0 (E1 m) c).arrAt_in 3 rfl _).trans ((A_eq0 (E1 m) c 3).trans (Gen.V2_of m (outs m) c main_v7 (by decide)).symm)
  | ⟨4, _⟩ => ((dat0 (E1 m) c).arrAt_in 4 rfl _).trans ((A_eq0 (E1 m) c 4).trans (Gen.V2_of m (outs m) c main_v3 (by decide)).symm)
  | ⟨5, _⟩ => ((dat0 (E1 m) c).arrAt_in 5 rfl _).trans ((A_eq0 (E1 m) c 5).trans (Gen.V2_of m (outs m) c main_v8 (by decide)).symm)
  | ⟨6, _⟩ => by
    show A0 m c = Gen.V2 m (outs m) c main_v10
    rw [V2_eq]; unfold U2; rw [Function.update_self]
  | ⟨_ + 7, h⟩ => absurd h (Nat.not_lt.2 (Nat.le_add_left _ _))

/-- and every other buffer what it held at entry. -/
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rw [List.mem_singleton] at h; subst h
    exact Finset.mem_image.mpr ⟨6, Finset.mem_univ _, rfl⟩)

set_option backward.isDefEq.respectTransparency.types false in
/-- The first region over the thread state: entered from every unscoped buffer at what the host operations left,
    left at that with the q | k | v array at what the write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: one buffer in three shares -/

section Shared

variable (V : (c : Dev nD) → (b : Ref sig .tc) → Buf (Elt F) ((c : Thread nD τ).loc b))

/-- The four buffers behind the second region's six windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v5) ↦{fullShare} W main_v5)
          ∗ (((c : Thread nD τ).loc main_v9) ↦{fullShare} W main_v9) ∗ (((c : Thread nD τ).loc main_v11) ↦{fullShare} W main_v11)) := by
  unfold Pipeline.arrBufs
  exact BI.bigSep_eq_bigSepL_of_eq [main_v10, main_v5, main_v9, main_v11] (by decide) (by decide) _

/-- The six windows' arrays at their shares: the q | k | v array's buffer three times, the others once. -/
theorem arrays1_eq (c : Dev nD) (Fw : (w : Fin cfg1.W) → Buf (Elt F) ((cfg1.win w).arr.view.loc (c : Thread nD τ))) :
    (dat1 V c).arrays Fw
      = iprop((((c : Thread nD τ).loc main_v10) ↦{fullShare.left} Fw 0) ∗ (((c : Thread nD τ).loc main_v10) ↦{fullShare.right.left} Fw 1)
          ∗ (((c : Thread nD τ).loc main_v10) ↦{fullShare.right.right} Fw 2) ∗ (((c : Thread nD τ).loc main_v5) ↦{fullShare} Fw 3)
          ∗ (((c : Thread nD τ).loc main_v9) ↦{fullShare} Fw 4) ∗ (((c : Thread nD τ).loc main_v11) ↦{fullShare} Fw 5)) := by
  unfold Dat.arrays
  rw [bigSep_W1, (arr_whole1 0).set_eq_univ, (arr_whole1 3).set_eq_univ, (arr_whole1 4).set_eq_univ, (arr_whole1 5).set_eq_univ]
  rfl

/-- The four buffers whole make the six windows' arrays at the region's entry contents: the q | k | v array's buffer
    is split in two and its right half in two again. -/
theorem hsplit1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  iintro ⟨H10, H5, H9, H11⟩
  ihave H := (pointsTo_share (PosShare.mem_left_op_right fullShare)).1 $$ H10
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  isplitl [H5]; · iexact H5
  isplitl [H9]; · iexact H9
  iexact H11

/-- At the region's exit the three shares, each still at the contents it was handed, are the buffer whole again; the
    result array's buffer holds what the write-backs leave. -/
theorem hjoin1 (c : Dev nD) (W' : (b : Ref sig .tc) → Buf (Elt F) ((c : Thread nD τ).loc b))
    (h10 : W' main_v10 = V c main_v10) (h5 : W' main_v5 = V c main_v5) (h9 : W' main_v9 = V c main_v9)
    (h11 : W' main_v11 = (dat1 V c).arrAt 5 cfg1.N) :
    (dat1 V c).arrays ((dat1 V c).arrAt · cfg1.N)
      ⊢ (Pipeline.arrBufs (Ix := Unit) (Name := ℕ) (U := UR sig nD τ) (Lvl := ℕ) spec1 c W' : sProp 𝕄) := by
  rw [arrBufs1_eq, arrays1_eq, h10, h5, h9, h11,
    ((dat1 V c).arrAt_in 0 rfl _).trans (A_eq1 V c 0), ((dat1 V c).arrAt_in 1 rfl _).trans (A_eq1 V c 1),
    ((dat1 V c).arrAt_in 2 rfl _).trans (A_eq1 V c 2), ((dat1 V c).arrAt_in 3 rfl _).trans (A_eq1 V c 3),
    ((dat1 V c).arrAt_in 4 rfl _).trans (A_eq1 V c 4)]
  iintro ⟨Ha, Hb1, Hb2, H5, H9, H11⟩
  ihave Hb := (pointsTo_share (PosShare.mem_left_op_right fullShare.right)).2 $$ [Hb1 Hb2]
  · isplitl [Hb1] <;> iassumption
  ihave H10 := (pointsTo_share (PosShare.mem_left_op_right fullShare)).2 $$ [Ha Hb]
  · isplitl [Ha] <;> iassumption
  isplitl [H10]; · iexact H10
  isplitl [H5]; · iexact H5
  isplitl [H9]; · iexact H9
  iexact H11

end Shared

/-! ## The second region as a segment -/

/-- The contents after the second region, read at the core's references. -/
abbrev E3 : (c : Dev nD) → (b : Ref sig .tc) → Buf (Elt F) ((c : Thread nD τ).loc b) := fun c b => U3 m c b

theorem E3_of_ne (c : Dev nD) (r : Ref sig .tc) (h : r ≠ main_v11) : E3 m c r = E2 m c r := by
  unfold E3 U3
  rw [Function.update_of_ne (StableHlo.devRef_ne_of_ne h : (Proc.devRef .tc r : DevRef τ sig) ≠ Proc.devRef .tc main_v11)]

theorem E3_v11 (c : Dev nD) : E3 m c main_v11 = (dat1 (E2 m) c).arrAt 5 cfg1.N := by
  unfold E3 U3; rw [Function.update_self]; rfl

/-- The second region's arrays at exit and the buffers it never touched are every unscoped buffer at the last
    valuation. -/
theorem hexit1 (c : Dev nD) :
    iprop((dat1 (E2 m) c).arrays ((dat1 (E2 m) c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (U3 m c) : sProp 𝕄) := by
  rw [← Pipeline.unscopedBufs_held c (U3 m c), Pipeline.unscopedBufs_split₀ cfgs 1 winFacts₀1.arr_unscoped c (E3 m c)]
  refine sep_mono (hjoin1 (E2 m) c (E3 m c) (E3_of_ne m c main_v10 (by decide)) (E3_of_ne m c main_v5 (by decide))
    (E3_of_ne m c main_v9 (by decide)) (E3_v11 m c)) (Entails.of_eq ?_)
  unfold Pipeline.unscopedRest
  exact (bigSep_congr fun b hb => by
    rw [E3_of_ne m c b fun h => (Finset.mem_sdiff.mp hb).2 (by
      subst h; exact Finset.mem_image.mpr ⟨5, Finset.mem_univ _, rfl⟩)]).symm

/-- Every unscoped buffer at the second region's entry valuation is its arrays at their shares and the buffers it
    never touches. -/
theorem hentry1 (c : Dev nD) :
    (StableHlo.held (c : Thread nD τ) (Pipeline.ucRefs τ sig) (U2 m c) : sProp 𝕄)
      ⊢ iprop((dat1 (E2 m) c).arrays (dat1 (E2 m) c).A
        ∗ Pipeline.unscopedRest (Ix := Unit) (Name := ℕ) (U := UR sig nD τ) (Lvl := ℕ) spec1 c (E2 m c)) := by
  rw [← Pipeline.unscopedBufs_held c (U2 m c), Pipeline.unscopedBufs_split₀ cfgs 1 winFacts₀1.arr_unscoped c (E2 m c)]
  exact sep_mono (hsplit1 (E2 m) c) .rfl

set_option backward.isDefEq.respectTransparency.types false in
/-- The second region over the thread state. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := hentry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hexit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- What the launch deals a core makes the rest of its first thread state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- The launch element. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- The frame: every weakly fair execution terminates, nothing faulting, the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ)
    (fun c => by iintro ⟨-, HO⟩; iexact HO)
    (reg0 m) (fun c => .rfl) (fun c => .rfl)
    (reg1 m) (fun c => by rw [V2_eq]; exact .rfl) (fun c => by rw [V3_eq]; exact .rfl)

end Cert.KernelIdeal.Fr

end
-- ==== Proof.KI.RunV.lean ====
/-
  The run once more, this time reading the result array too: every weakly fair execution terminates, nothing
  faulting, with the result array at what the second region's write-backs leave and the arguments as launched.
-/
import proofs.«401440_j23210003267797_3_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v11) = A1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m) () cellOf_inj emb₁ defs₀ 𝒱₀ L lv m ρ main
    (Gen.segs m 𝒱₀ L lv (fun _ c => R c) () (pdats m) (reg0 m) (reg1 m))
    (fun c Q => by
      rewrite [Gen.main_chain c, Seg.run_eq_chain,
        show (Gen.segs m 𝒱₀ L lv (fun _ c => R c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V3 m (outs m) c))
    (hch := fun c => ⟨.rfl, .rfl,
      (show (iprop(StableHlo.held (c : Thread nD τ) (Pipeline.ucRefs τ sig) (Gen.V2 m (outs m) c) ∗ R c) : sProp 𝕄) ⊢ iprop(StableHlo.held (c : Thread nD τ) (Pipeline.ucRefs τ sig) (U2 m c) ∗ R c) from by
        rw [V2_eq]),
      (show (iprop(StableHlo.held (c : Thread nD τ) (Pipeline.ucRefs τ sig) (U3 m c) ∗ R c) : sProp 𝕄)
          ⊢ iprop(StableHlo.held (c : Thread nD τ) (Pipeline.ucRefs τ sig) (Gen.V3 m (outs m) c) ∗ ∃ W, owes (c : Thread nD τ) (0 : CellTallies nD τ sig Unit) W) from by
        rw [V3_eq]; exact sep_mono .rfl (by iintro ⟨-, HO⟩; iexact HO))⟩)
    (hinit := ?_) (QY := fun c s => s.mem ((c.tc : Thread nD τ).loc main_v11) = A1 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: each core's unscoped buffers at the launch contents, its generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result array and each argument's buffer read off the last valuation
    unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (V3_v11 m c),
        (h (Proc.devRef .tc main_arg0) (Finset.mem_filter.mpr ⟨StableHlo.devRef_mem_tcRefs main_arg0, by decide⟩)).trans (Gen.V3_main_arg0 m (outs m) c),
        (h (Proc.devRef .tc main_arg1) (Finset.mem_filter.mpr ⟨StableHlo.devRef_mem_tcRefs main_arg1, by decide⟩)).trans (Gen.V3_main_arg1 m (outs m) c),
        (h (Proc.devRef .tc main_arg2) (Finset.mem_filter.mpr ⟨StableHlo.devRef_mem_tcRefs main_arg2, by decide⟩)).trans (Gen.V3_main_arg2 m (outs m) c),
        (h (Proc.devRef .tc main_arg3) (Finset.mem_filter.mpr ⟨StableHlo.devRef_mem_tcRefs main_arg3, by decide⟩)).trans (Gen.V3_main_arg3 m (outs m) c),
        (h (Proc.devRef .tc main_arg4) (Finset.mem_filter.mpr ⟨StableHlo.devRef_mem_tcRefs main_arg4, by decide⟩)).trans (Gen.V3_main_arg4 m (outs m) c),
        (h (Proc.devRef .tc main_arg5) (Finset.mem_filter.mpr ⟨StableHlo.devRef_mem_tcRefs main_arg5, by decide⟩)).trans (Gen.V3_main_arg5 m (outs m) c),
        (h (Proc.devRef .tc main_arg6) (Finset.mem_filter.mpr ⟨StableHlo.devRef_mem_tcRefs main_arg6, by decide⟩)).trans (Gen.V3_main_arg6 m (outs m) c),
        (h (Proc.devRef .tc main_arg7) (Finset.mem_filter.mpr ⟨StableHlo.devRef_mem_tcRefs main_arg7, by decide⟩)).trans (Gen.V3_main_arg7 m (outs m) c)⟩
    · iexact HSI

end Cert.KernelIdeal.Fr

end
-- ==== Proof.Spec.lean ====
/-
  The mathematics both programs compute, over the extended reals, index by index.

  From x : [2,2048,1024], theta, Wg, bg, Wqkv : [3072,1024], bqkv, Wproj, bproj:
    gauge  g(b,n,c)   = x(b,n,c) + 0.1 * ((sum_k x(b,n,k) * Wg(c,k) + bg(c)) * theta(c))
    qkv    Q(b,n,j)   = sum_c g(b,n,c) * Wqkv(j,c) + bqkv(j)                      (j < 3072 = 3 * 16 * 64)
    score  s(b,h,n,m) = (sum_d Q(b,n,64h+d) * Q(b,m,1024+64h+d)) * (1/8)
    e(b,h,n,m)        = exp (s(b,h,n,m) - max_m s(b,h,n,m)),   L(b,h,n) = sum_m e(b,h,n,m)
    attention, normalised AFTER the weighted sum  (sum_m e * V) / L      (the kernel's order)
    attention, normalised BEFORE the weighted sum sum_m (e / L) * V      (the reference's order)
    out    y(b,n,j)   = sum_c att(b,n,c) * Wproj(j,c) + bproj(j)
  The two orders agree when every entry of Q is a real number (then L is a positive real), which holds when every
  input entry is a real number.
-/
import Idealize.ShloMosaic.PureOps.Ideal
import Idealize.ShloMosaic.Lib.ValueIdx

noncomputable section

open scoped BigOperators

namespace Cert.Spec

open Idealize.ShloMosaic Idealize.ShloMosaic.ValueIdx

abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The f32 word nearest to one tenth, as the real number it denotes. -/
def tenth : EReal := Ideal.ofBits .f32 0x3DCCCCCD#32
/-- The f32 word of one eighth, 1 / sqrt 64. -/
def eighth : EReal := Ideal.ofBits .f32 0x3E000000#32

/-- An array all of whose entries are real numbers. -/
def IsReal {ι : Type} (f : ι → EReal) : Prop := ∀ i, ∃ r : ℝ, f i = (r : EReal)

/-- The gauge-mixed input. -/
def gauge (x : Arr3 2 2048 1024) (th : Arr1 1024) (Wg : Arr2 1024 1024) (bg : Arr1 1024)
    (b : Fin 2) (n : Fin 2048) (c : Fin 1024) : EReal :=
  x (ix3 b n c) + tenth * (((∑ k : Fin 1024, x (ix3 b n k) * Wg (ix2 c k)) + bg (ix1 c)) * th (ix1 c))

/-- The fused q | k | v projection. -/
def qkv (x : Arr3 2 2048 1024) (th : Arr1 1024) (Wg : Arr2 1024 1024) (bg : Arr1 1024) (Wq : Arr2 3072 1024) (bq : Arr1 3072)
    (b : Fin 2) (n : Fin 2048) (j : Fin 3072) : EReal :=
  (∑ c : Fin 1024, gauge x th Wg bg b n c * Wq (ix2 j c)) + bq (ix1 j)

/-- Column of part p (0 = q, 1 = k, 2 = v), head h, lane d in the 3072 columns. -/
def col (p : Fin 3) (h : Fin 16) (d : Fin 64) : Fin 3072 := ⟨1024 * p.val + 64 * h.val + d.val, by omega⟩

section Attention

variable (Q : Fin 2 → Fin 2048 → Fin 3072 → EReal)

def score (b : Fin 2) (h : Fin 16) (n m : Fin 2048) : EReal :=
  (∑ d : Fin 64, Q b n (col 0 h d) * Q b m (col 1 h d)) * eighth

def rowmax (b : Fin 2) (h : Fin 16) (n : Fin 2048) : EReal :=
  (Finset.univ : Finset (Fin 2048)).fold max ⊥ (fun m => score Q b h n m)

def ex (b : Fin 2) (h : Fin 16) (n m : Fin 2048) : EReal :=
  Ideal.exp (score Q b h n m - rowmax Q b h n)

def den (b : Fin 2) (h : Fin 16) (n : Fin 2048) : EReal := ∑ m : Fin 2048, ex Q b h n m

/-- Normalised after the weighted sum. -/
def attK (b : Fin 2) (n : Fin 2048) (h : Fin 16) (d : Fin 64) : EReal :=
  Ideal.div (∑ m : Fin 2048, ex Q b h n m * Q b m (col 2 h d)) (den Q b h n)

/-- Normalised before the weighted sum. -/
def attR (b : Fin 2) (n : Fin 2048) (h : Fin 16) (d : Fin 64) : EReal :=
  ∑ m : Fin 2048, Ideal.div (ex Q b h n m) (den Q b h n) * Q b m (col 2 h d)

end Attention

/-- The output projection of the heads laid side by side (column c is head c / 64, lane c % 64). -/
def proj (O : Fin 2 → Fin 2048 → Fin 16 → Fin 64 → EReal) (Wp : Arr2 1024 1024) (bp : Arr1 1024)
    (b : Fin 2) (n : Fin 2048) (j : Fin 1024) : EReal :=
  (∑ c : Fin 1024, O b n ⟨c.val / 64, by omega⟩ ⟨c.val % 64, Nat.mod_lt _ (by decide)⟩ * Wp (ix2 j c)) + bp (ix1 j)

/-- The q | k | v array [2,2048,3072]. -/
def qkvArr (x : Arr3 2 2048 1024) (th : Arr1 1024) (Wg : Arr2 1024 1024) (bg : Arr1 1024) (Wq : Arr2 3072 1024) (bq : Arr1 3072) :
    Arr3 2 2048 3072 :=
  fun i => qkv x th Wg bg Wq bq ⟨(i 0).val, (i 0).isLt⟩ ⟨(i 1).val, (i 1).isLt⟩ ⟨(i 2).val, (i 2).isLt⟩

/-- An array [2,2048,3072] read by coordinates. -/
def ofArr (A : Arr3 2 2048 3072) : Fin 2 → Fin 2048 → Fin 3072 → EReal := fun b n j => A (ix3 b n j)

/-- The second kernel's result from the q | k | v array it is handed. -/
def attnOutK (A : Arr3 2 2048 3072) (Wp : Arr2 1024 1024) (bp : Arr1 1024) : Arr3 2 2048 1024 :=
  fun i => proj (attK (ofArr A)) Wp bp ⟨(i 0).val, (i 0).isLt⟩ ⟨(i 1).val, (i 1).isLt⟩ ⟨(i 2).val, (i 2).isLt⟩

/-- The whole result, the kernel's order. -/
def outK (x : Arr3 2 2048 1024) (th : Arr1 1024) (Wg : Arr2 1024 1024) (bg : Arr1 1024) (Wq : Arr2 3072 1024) (bq : Arr1 3072)
    (Wp : Arr2 1024 1024) (bp : Arr1 1024) : Arr3 2 2048 1024 :=
  attnOutK (qkvArr x th Wg bg Wq bq) Wp bp

/-- The whole result, the reference's order. -/
def outR (x : Arr3 2 2048 1024) (th : Arr1 1024) (Wg : Arr2 1024 1024) (bg : Arr1 1024) (Wq : Arr2 3072 1024) (bq : Arr1 3072)
    (Wp : Arr2 1024 1024) (bp : Arr1 1024) : Arr3 2 2048 1024 :=
  fun i => proj (attR (qkv x th Wg bg Wq bq)) Wp bp ⟨(i 0).val, (i 0).isLt⟩ ⟨(i 1).val, (i 1).isLt⟩ ⟨(i 2).val, (i 2).isLt⟩

end Cert.Spec

end
-- ==== Proof.SpecK.lean ====
/-
  The two kernel regions' results as whole-array functions of the arrays each region is handed, row by row.

  Region 0 is handed x, theta and the two biases as one-row matrices, and the weights transposed; one output row
  depends on one row of x. Region 1 is handed the q | k | v array and, of one batch entry, reads one query row, all
  key rows and all value rows; one output row depends on those, on Wproj^T and on bproj.
-/
import proofs.«401440_j23210003267797_3_alg».proof.Proof.Spec

noncomputable section

open scoped BigOperators

namespace Cert.Spec

open Idealize.ShloMosaic Idealize.ShloMosaic.ValueIdx

/-- One row of q | k | v from one row of x: TH, BG, BQ the row-shaped theta, bg, bqkv; WGT, WQT the transposed weights. -/
def qkvRow (xr : Fin 1024 → EReal) (TH : Arr2 1 1024) (WGT : Arr2 1024 1024) (BG : Arr2 1 1024) (WQT : Arr2 1024 3072) (BQ : Arr2 1 3072)
    (j : Fin 3072) : EReal :=
  (∑ c : Fin 1024, (xr c + tenth * (((∑ k : Fin 1024, xr k * WGT (ix2 k c)) + BG (ix2 0 c)) * TH (ix2 0 c))) * WQT (ix2 c j)) + BQ (ix2 0 j)

/-- Region 0's result array. -/
def G0 (X : Arr3 2 2048 1024) (TH : Arr2 1 1024) (WGT : Arr2 1024 1024) (BG : Arr2 1 1024) (WQT : Arr2 1024 3072) (BQ : Arr2 1 3072) :
    Arr3 2 2048 3072 :=
  fun i => qkvRow (fun k => X (ix3 ⟨(i 0).val, (i 0).isLt⟩ ⟨(i 1).val, (i 1).isLt⟩ k)) TH WGT BG WQT BQ ⟨(i 2).val, (i 2).isLt⟩

/-- Column of head h, lane d among a part's 1024 columns. -/
def hcol (h : Fin 16) (d : Fin 64) : Fin 1024 := ⟨64 * h.val + d.val, by omega⟩

/-- One head's attention output for one query row qr against the key rows Kb and value rows Vb (1024 columns each),
    normalised after the weighted sum. -/
def attRow (qr : Fin 1024 → EReal) (Kb Vb : Fin 2048 → Fin 1024 → EReal) (h : Fin 16) (d : Fin 64) : EReal :=
  Ideal.div
    (∑ m : Fin 2048,
      Ideal.exp ((∑ d' : Fin 64, qr (hcol h d') * Kb m (hcol h d')) * eighth
          - (Finset.univ : Finset (Fin 2048)).fold max ⊥ (fun m' => (∑ d' : Fin 64, qr (hcol h d') * Kb m' (hcol h d')) * eighth))
        * Vb m (hcol h d))
    (∑ m : Fin 2048,
      Ideal.exp ((∑ d' : Fin 64, qr (hcol h d') * Kb m (hcol h d')) * eighth
          - (Finset.univ : Finset (Fin 2048)).fold max ⊥ (fun m' => (∑ d' : Fin 64, qr (hcol h d') * Kb m' (hcol h d')) * eighth)))

/-- One output row: the sixteen heads side by side, times Wproj^T, plus bproj. -/
def outRow (qr : Fin 1024 → EReal) (Kb Vb : Fin 2048 → Fin 1024 → EReal) (WPT : Arr2 1024 1024) (BP : Arr2 1 1024) (j : Fin 1024) : EReal :=
  (∑ c : Fin 1024, attRow qr Kb Vb ⟨c.val / 64, by omega⟩ ⟨c.val % 64, Nat.mod_lt _ (by decide)⟩ * WPT (ix2 c j)) + BP (ix2 0 j)

/-- Region 1's result array from the q | k | v array A. -/
def G1 (A : Arr3 2 2048 3072) (WPT : Arr2 1024 1024) (BP : Arr2 1 1024) : Arr3 2 2048 1024 :=
  fun i => outRow (fun c => A (ix3 ⟨(i 0).val, (i 0).isLt⟩ ⟨(i 1).val, (i 1).isLt⟩ ⟨c.val, by omega⟩))
    (fun m c => A (ix3 ⟨(i 0).val, (i 0).isLt⟩ m ⟨1024 + c.val, by omega⟩))
    (fun m c => A (ix3 ⟨(i 0).val, (i 0).isLt⟩ m ⟨2048 + c.val, by omega⟩)) WPT BP ⟨(i 2).val, (i 2).isLt⟩

/-- A vector as a one-row matrix. -/
def asRow {n : Nat} (v : Arr1 n) : Arr2 1 n := fun i => v (ix1 ⟨(i 1).val, (i 1).isLt⟩)
/-- A matrix transposed. -/
def tr {a b : Nat} (M : Arr2 a b) : Arr2 b a := fun i => M (ix2 ⟨(i 1).val, (i 1).isLt⟩ ⟨(i 0).val, (i 0).isLt⟩)

/-- Region 0 on the reshaped and transposed parameters computes the q | k | v array. -/
theorem G0_eq (x : Arr3 2 2048 1024) (th : Arr1 1024) (Wg : Arr2 1024 1024) (bg : Arr1 1024) (Wq : Arr2 3072 1024) (bq : Arr1 3072) :
    G0 x (asRow th) (tr Wg) (asRow bg) (tr Wq) (asRow bq) = qkvArr x th Wg bg Wq bq := by
  funext i
  rfl

/-- A query row's column of head h, lane d is column (0, h, d) of the q | k | v array. -/
theorem qcol_eq (A : Arr3 2 2048 3072) (b : Fin 2) (n : Fin 2048) (h : Fin 16) (d : Fin 64) (pf : (hcol h d).val < 3072) :
    A (ix3 b n ⟨(hcol h d).val, pf⟩) = ofArr A b n (col 0 h d) :=
  congrArg (fun t => A (ix3 b n t)) (Fin.ext (by
    show 64 * h.val + d.val = 1024 * 0 + 64 * h.val + d.val
    omega))

/-- A key row's column of head h, lane d is column (1, h, d) of the q | k | v array. -/
theorem kcol_eq (A : Arr3 2 2048 3072) (b : Fin 2) (m : Fin 2048) (h : Fin 16) (d : Fin 64) (pf : 1024 + (hcol h d).val < 3072) :
    A (ix3 b m ⟨1024 + (hcol h d).val, pf⟩) = ofArr A b m (col 1 h d) :=
  congrArg (fun t => A (ix3 b m t)) (Fin.ext (by
    show 1024 + (64 * h.val + d.val) = 1024 * 1 + 64 * h.val + d.val
    omega))

/-- A value row's column of head h, lane d is column (2, h, d) of the q | k | v array. -/
theorem vcol_eq (A : Arr3 2 2048 3072) (b : Fin 2) (m : Fin 2048) (h : Fin 16) (d : Fin 64) (pf : 2048 + (hcol h d).val < 3072) :
    A (ix3 b m ⟨2048 + (hcol h d).val, pf⟩) = ofArr A b m (col 2 h d) :=
  congrArg (fun t => A (ix3 b m t)) (Fin.ext (by
    show 2048 + (64 * h.val + d.val) = 1024 * 2 + 64 * h.val + d.val
    omega))

/-- One head's attention for one query row, read off the q | k | v array, is the specification's. -/
theorem attRow_eq (A : Arr3 2 2048 3072) (b : Fin 2) (n : Fin 2048) (h : Fin 16) (d : Fin 64) :
    attRow (fun c => A (ix3 b n ⟨c.val, by omega⟩)) (fun m c => A (ix3 b m ⟨1024 + c.val, by omega⟩))
      (fun m c => A (ix3 b m ⟨2048 + c.val, by omega⟩)) h d = attK (ofArr A) b n h d := by
  unfold attRow attK den ex rowmax score
  simp only [qcol_eq, kcol_eq, vcol_eq]

/-- Region 1 on the transposed projection and the reshaped bias computes the kernel-order result. -/
theorem G1_eq (A : Arr3 2 2048 3072) (Wp : Arr2 1024 1024) (bp : Arr1 1024) :
    G1 A (tr Wp) (asRow bp) = attnOutK A Wp bp := by
  funext i
  unfold G1 attnOutK outRow proj
  simp only [attRow_eq]
  rfl

end Cert.Spec

end
-- ==== Proof.KI.Val0.lean ====
/-
  The first kernel's stored value read at an index, over the extended reals: row r, column j of the block it leaves is
  the q | k | v row of row r of the x block (the matrix products as sums over the contracted index, the zero
  accumulators dropped, the format changes the identity).
-/
import proofs.«401440_j23210003267797_3_alg».proof.Proof.KI.Body0
import proofs.«401440_j23210003267797_3_alg».proof.Proof.SpecK
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ### The first matrix product: rows of x against Wg^T -/

theorem lhs_g_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_g_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_g_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_g_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Row r, column c of the product into a zero accumulator is the sum over the contracted index. -/
theorem matmul_g_apply (a : FVec Ideal S512x1024 .bf16) (w : FVec Ideal S1024x1024 .bf16) (r : Fin 512) (c : Fin 1024) :
    matmul dot_S512x1024_S1024x1024_S512x1024_1_0_0_1_n_n none a w (constant (F := Ideal) S512x1024 .f32 0x00000000#32) (ix2 r c)
      = ∑ k : Fin 1024, a (ix2 r k) * w (ix2 k c) := by
  refine (Ideal.matmul_constant_zero_apply dot_S512x1024_S1024x1024_S512x1024_1_0_0_1_n_n none a w (ix2 r c)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r c) ((ValueIdx.contrEquiv1 dot_S512x1024_S1024x1024_S512x1024_1_0_0_1_n_n 1024 rfl rfl).symm k) = ix2 r k := funext fun ax => Fin.ext (by
    match ax with
    | ⟨0, _⟩ => exact lhs_g_0 _ _
    | ⟨1, _⟩ => exact (lhs_g_1 _ _).trans hk)
  have er : dot_S512x1024_S1024x1024_S512x1024_1_0_0_1_n_n.rhsIdx (ix2 r c) ((ValueIdx.contrEquiv1 dot_S512x1024_S1024x1024_S512x1024_1_0_0_1_n_n 1024 rfl rfl).symm k) = ix2 k c := funext fun ax => Fin.ext (by
    match ax with
    | ⟨0, _⟩ => exact (rhs_g_0 _ _).trans hk
    | ⟨1, _⟩ => exact rhs_g_1 _ _)
  rw [el, er]

/-! ### The second matrix product: rows of the gauge-mixed input against Wqkv^T -/

theorem lhs_p_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_p_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_p_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_p_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Row r, column j of the product into a zero accumulator is the sum over the contracted index. -/
theorem matmul_p_apply (a : FVec Ideal S512x1024 .bf16) (w : FVec Ideal S1024x3072 .bf16) (r : Fin 512) (j : Fin 3072) :
    matmul dot_S512x1024_S1024x3072_S512x3072_1_0_0_1_n_n none a w (constant (F := Ideal) S512x3072 .f32 0x00000000#32) (ix2 r j)
      = ∑ c : Fin 1024, a (ix2 r c) * w (ix2 c j) := by
  refine (Ideal.matmul_constant_zero_apply dot_S512x1024_S1024x3072_S512x3072_1_0_0_1_n_n none a w (ix2 r j)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r j) ((ValueIdx.contrEquiv1 dot_S512x1024_S1024x3072_S512x3072_1_0_0_1_n_n 1024 rfl rfl).symm k) = ix2 r k := funext fun ax => Fin.ext (by
    match ax with
    | ⟨0, _⟩ => exact lhs_p_0 _ _
    | ⟨1, _⟩ => exact (lhs_p_1 _ _).trans hk)
  have er : dot_S512x1024_S1024x3072_S512x3072_1_0_0_1_n_n.rhsIdx (ix2 r j) ((ValueIdx.contrEquiv1 dot_S512x1024_S1024x3072_S512x3072_1_0_0_1_n_n 1024 rfl rfl).symm k) = ix2 k j := funext fun ax => Fin.ext (by
    match ax with
    | ⟨0, _⟩ => exact (rhs_p_0 _ _).trans hk
    | ⟨1, _⟩ => exact rhs_p_1 _ _)
  rw [el, er]

/-! ### The stored value at an index -/

/-- The body's arithmetic at (0, r, j): the casts that drop or add the leading unit axis read the same entry, the
    format changes are the identity, the one-row vectors are read at their column, and each matrix product is its sum. -/
theorem k0_pay1_apply (v0 : Vec Ideal S1x512x1024 .f32) (v3 : Vec Ideal S1024x1024 .bf16) (v6 : Vec Ideal S1x1024 .f32) (v10 : Vec Ideal S1x1024 .f32)
    (v18 : Vec Ideal S1024x3072 .bf16) (v21 : Vec Ideal S1x3072 .f32) (r : Fin 512) (j : Fin 3072) :
    k0_pay1 (F := Ideal) v0 v3 v6 v10 v18 v21 (ix3 0 r j)
      = Cert.Spec.qkvRow (fun k => v0 (ix3 0 r k)) v10 v3 v6 v18 v21 j := by
  unfold k0_pay1
  refine (shapeCast_ab_1ab_apply _ _ 0 r j).trans ?_
  simp only [truncf_apply, addf_apply, mulf_apply, broadcast_apply, matmul_p_apply, matmul_g_apply,
    broadcastTo_1b_ab_apply, shapeCast_self, shapeCast_1ab_ab_apply]
  rfl

theorem out0_apply (x0 : Vec Ideal S1x512x1024 .f32) (x1 : Vec Ideal S1x1024 .f32) (x2 : Vec Ideal S1024x1024 .bf16) (x3 : Vec Ideal S1x1024 .f32)
    (x4 : Vec Ideal S1024x3072 .bf16) (x5 : Vec Ideal S1x3072 .f32) (r : Fin 512) (j : Fin 3072) :
    out0 (F := Ideal) x0 x1 x2 x3 x4 x5 (ix3 0 r j)
      = Cert.Spec.qkvRow (fun k => x0 (ix3 0 r k)) x1 x2 x3 x4 x5 j := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold out0
  rw [View.canon_unit_zero hz3]
  simp only [View.ld_unit_zero (S := S1x512x1024) hz3, View.ld_unit_zero (S := S1x1024) hz2,
    View.ld_unit_zero (S := S1024x1024) hz2, View.ld_unit_zero (S := S1024x3072) hz2, View.ld_unit_zero (S := S1x3072) hz2]
  exact k0_pay1_apply x0 x2 x3 x1 x4 x5 r j

end Cert.KernelIdeal.Fr

end
-- ==== Proof.KI.Arr0.lean ====
/-
  From blocks to the array, region 0: after its eight grid points the q | k | v array holds, at every index, the
  q | k | v row function of the arrays the region was entered with. Grid point t = 4 b + i writes back the block of
  rows 512 i … 512 i + 511 of batch entry b; the blocks cover the array.
-/
import proofs.«401440_j23210003267797_3_alg».proof.Proof.KI.Dat
import proofs.«401440_j23210003267797_3_alg».proof.Proof.KI.Val0
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the eight grid points: the output block and the x block of point t sit at
    (t / 4, t % 4, 0); the five parameter windows always at their one block. -/
theorem idx_facts0 : ∀ t : Fin cfg0.N,
    win0_6.index t (0 : Fin 3) = t.val / 4 ∧ win0_6.index t (1 : Fin 3) = t.val % 4 ∧ win0_6.index t (2 : Fin 3) = 0
    ∧ win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! A parameter window's one block is its whole array. -/

theorem iblk0_1_eq (c : Dev nD) (t : Fin cfg0.N) :
    (iblk0 V c 1 t : Vec Ideal S1x1024 .f32) = (V c main_v6 : S1x1024.Idx → EReal) := by
  obtain ⟨-, -, -, -, -, -, e0, e1, -⟩ := idx_facts0 t
  funext y
  unfold iblk0
  rw [View.read_apply]
  show V c main_v6 _ = V c main_v6 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem iblk0_2_eq (c : Dev nD) (t : Fin cfg0.N) :
    (iblk0 V c 2 t : Vec Ideal S1024x1024 .bf16) = (V c main_v1 : S1024x1024.Idx → EReal) := by
  obtain ⟨-, -, -, -, -, -, -, -, e0, e1, -⟩ := idx_facts0 t
  funext y
  unfold iblk0
  rw [View.read_apply]
  show V c main_v1 _ = V c main_v1 _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

theorem iblk0_3_eq (c : Dev nD) (t : Fin cfg0.N) :
    (iblk0 V c 3 t : Vec Ideal S1x1024 .f32) = (V c main_v7 : S1x1024.Idx → EReal) := by
  obtain ⟨-, -, -, -, -, -, -, -, -, -, e0, e1, -⟩ := idx_facts0 t
  funext y
  unfold iblk0
  rw [View.read_apply]
  show V c main_v7 _ = V c main_v7 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

theorem iblk0_4_eq (c : Dev nD) (t : Fin cfg0.N) :
    (iblk0 V c 4 t : Vec Ideal S1024x3072 .bf16) = (V c main_v3 : S1024x3072.Idx → EReal) := by
  obtain ⟨-, -, -, -, -, -, -, -, -, -, -, -, e0, e1, -⟩ := idx_facts0 t
  funext y
  unfold iblk0
  rw [View.read_apply]
  show V c main_v3 _ = V c main_v3 _
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 3072 + 1 * (y 1).val = (y 1).val; rw [e1]; omega

theorem iblk0_5_eq (c : Dev nD) (t : Fin cfg0.N) :
    (iblk0 V c 5 t : Vec Ideal S1x3072 .f32) = (V c main_v8 : S1x3072.Idx → EReal) := by
  obtain ⟨-, -, -, -, -, -, -, -, -, -, -, -, -, -, e0, e1⟩ := idx_facts0 t
  funext y
  unfold iblk0
  rw [View.read_apply]
  show V c main_v8 _ = V c main_v8 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 3072 + 1 * (y 1).val = (y 1).val; rw [e1]; omega

/-- The x block of point t is rows 512 (t % 4) … of batch entry t / 4. -/
theorem iblk0_0_apply (c : Dev nD) (t : Fin cfg0.N) (x : S1x512x1024.Idx) (k : S2x2048x1024.Idx)
    (hk0 : (k 0).val = t.val / 4 + (x 0).val) (hk1 : (k 1).val = 512 * (t.val % 4) + (x 1).val) (hk2 : (k 2).val = (x 2).val) :
    (iblk0 V c 0 t : Vec Ideal S1x512x1024 .f32) x = (V c main_arg0 : S2x2048x1024.Idx → EReal) k := by
  obtain ⟨-, -, -, e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 512 + 1 * (x 1).val = (k 1).val; rw [e1, hk1]; omega
  | ⟨2, _⟩ => show win0_0.index t (2 : Fin 3) * 1024 + 1 * (x 2).val = (k 2).val; rw [e2, hk2]; omega

/-- The stored block at any of its indices. -/
theorem out0_at (x0 : Vec Ideal S1x512x1024 .f32) (x1 : Vec Ideal S1x1024 .f32) (x2 : Vec Ideal S1024x1024 .bf16) (x3 : Vec Ideal S1x1024 .f32)
    (x4 : Vec Ideal S1024x3072 .bf16) (x5 : Vec Ideal S1x3072 .f32) (y : S1x512x3072.Idx) :
    out0 (F := Ideal) x0 x1 x2 x3 x4 x5 y
      = Cert.Spec.qkvRow (fun k => x0 (ix3 0 (y 1) k)) x1 x2 x3 x4 x5 (y 2) := by
  have hy : y = ix3 0 (y 1) (y 2) := by
    have h0 : (y 0).val < 1 := (y 0).isLt
    funext a
    match a with
    | ⟨0, _⟩ => exact Fin.ext (by show (y 0).val = 0; omega)
    | ⟨1, _⟩ => rfl
    | ⟨2, _⟩ => rfl
  rw [hy]
  exact out0_apply x0 x1 x2 x3 x4 x5 (y 1) (y 2)

/-- The row function at equal arguments. -/
theorem qkvRow_congr {xr xr' : Fin 1024 → EReal} {TH TH' : Cert.Spec.Arr2 1 1024} {WGT WGT' : Cert.Spec.Arr2 1024 1024}
    {BG BG' : Cert.Spec.Arr2 1 1024} {WQT WQT' : Cert.Spec.Arr2 1024 3072} {BQ BQ' : Cert.Spec.Arr2 1 3072} {j j' : Fin 3072}
    (h0 : xr = xr') (h1 : TH = TH') (h2 : WGT = WGT') (h3 : BG = BG') (h4 : WQT = WQT') (h5 : BQ = BQ') (hj : j = j') :
    Cert.Spec.qkvRow xr TH WGT BG WQT BQ j = Cert.Spec.qkvRow xr' TH' WGT' BG' WQT' BQ' j' := by
  subst h0 h1 h2 h3 h4 h5 hj; rfl

/-- What point t writes back is its block of the q | k | v array of the arrays the region was entered with. -/
theorem flushed0_eq (c : Dev nD) (t : Fin cfg0.N) :
    (dat0 (F := Ideal) V c).flushed 6 t
      = ((cfg0.win 6).blk t).view.read (Elt Ideal)
          (Cert.Spec.G0 (V c main_arg0) (V c main_v6) (V c main_v1) (V c main_v7) (V c main_v3) (V c main_v8)) := by
  show (cfg0.win 6).cut (grid0.coords t) ((dat0 V c).after 6 t) = _
  rw [after0_6]
  obtain ⟨e0, e1, e2, -⟩ := idx_facts0 t
  funext y
  rw [View.read_apply]
  refine (out0_at _ _ _ _ _ _ _).trans ?_
  show Cert.Spec.qkvRow _ _ _ _ _ _ _ = Cert.Spec.G0 _ _ _ _ _ _ (((cfg0.win 6).blk t).view.emb y)
  unfold Cert.Spec.G0
  have hy0 : (y 0).val < 1 := (y 0).isLt
  refine qkvRow_congr (funext fun k => ?_) (iblk0_1_eq V c t) (iblk0_2_eq V c t) (iblk0_3_eq V c t) (iblk0_4_eq V c t)
    (iblk0_5_eq V c t) (Fin.ext ?_)
  · refine iblk0_0_apply V c t _ _ ?_ ?_ rfl
    · show win0_6.index t (0 : Fin 3) * 1 + 1 * (y 0).val = t.val / 4 + 0
      rw [e0]; omega
    · show win0_6.index t (1 : Fin 3) * 512 + 1 * (y 1).val = 512 * (t.val % 4) + (y 1).val
      rw [e1]; omega
  · show (y 2).val = win0_6.index t (2 : Fin 3) * 3072 + 1 * (y 2).val
    rw [e2]; omega

/-- An index of the array is in point t's block iff each coordinate is in the block's range on its axis. -/
theorem mem_blk0 (t : Fin cfg0.N) (i : S2x2048x3072.Idx) :
    i ∈ ((cfg0.win 6).blk t).view.set ↔ ∀ a : Fin 3, win0_6.index t a * S1x512x3072.size a ≤ (i a).val
      ∧ (i a).val < win0_6.index t a * S1x512x3072.size a + S1x512x3072.size a := by
  show i ∈ ((View.whole main_v10).slice (win0_6.rect t)).set ↔ _
  rw [View.set_slice_whole, Rect.mem_set_unit]
  exact Iff.rfl

/-- Row n of batch entry b lies in the block of point 4 b + n / 512. -/
theorem blocks_cover0 (i : S2x2048x3072.Idx) :
    ∃ t : Fin cfg0.N, (cfg0.win 6).flush t = true ∧ i ∈ ((cfg0.win 6).blk t).view.set := by
  have hN : grid0.N = 8 := N_0
  have h0 : (i 0).val < 2 := (i 0).isLt
  have h1 : (i 1).val < 2048 := (i 1).isLt
  have h2 : (i 2).val < 3072 := (i 2).isLt
  have hlt : 4 * (i 0).val + (i 1).val / 512 < grid0.N := by omega
  obtain ⟨e0, e1, e2, -⟩ := idx_facts0 ⟨4 * (i 0).val + (i 1).val / 512, hlt⟩
  refine ⟨⟨4 * (i 0).val + (i 1).val / 512, hlt⟩, flush0_6 _, ?_⟩
  rw [mem_blk0]
  intro a
  match a with
  | ⟨0, _⟩ =>
    show win0_6.index ⟨4 * (i 0).val + (i 1).val / 512, hlt⟩ (0 : Fin 3) * 1 ≤ (i 0).val
      ∧ (i 0).val < win0_6.index ⟨4 * (i 0).val + (i 1).val / 512, hlt⟩ (0 : Fin 3) * 1 + 1
    rw [e0]; show (4 * (i 0).val + (i 1).val / 512) / 4 * 1 ≤ _ ∧ _ < (4 * (i 0).val + (i 1).val / 512) / 4 * 1 + 1; omega
  | ⟨1, _⟩ =>
    show win0_6.index ⟨4 * (i 0).val + (i 1).val / 512, hlt⟩ (1 : Fin 3) * 512 ≤ (i 1).val
      ∧ (i 1).val < win0_6.index ⟨4 * (i 0).val + (i 1).val / 512, hlt⟩ (1 : Fin 3) * 512 + 512
    rw [e1]; show (4 * (i 0).val + (i 1).val / 512) % 4 * 512 ≤ _ ∧ _ < (4 * (i 0).val + (i 1).val / 512) % 4 * 512 + 512; omega
  | ⟨2, _⟩ =>
    show win0_6.index ⟨4 * (i 0).val + (i 1).val / 512, hlt⟩ (2 : Fin 3) * 3072 ≤ (i 2).val
      ∧ (i 2).val < win0_6.index ⟨4 * (i 0).val + (i 1).val / 512, hlt⟩ (2 : Fin 3) * 3072 + 3072
    rw [e2]; omega

/-- The array after the region: the q | k | v array of the arrays it was entered with. -/
theorem final0 (c : Dev nD) :
    (dat0 (F := Ideal) V c).arrAt 6 cfg0.N
      = Cert.Spec.G0 (V c main_arg0) (V c main_v6) (V c main_v1) (V c main_v7) (V c main_v3) (V c main_v8) :=
  (dat0 (F := Ideal) V c).arrAt_eq_of_cover 6
    (Cert.Spec.G0 (V c main_arg0) (V c main_v6) (V c main_v1) (V c main_v7) (V c main_v3) (V c main_v8))
    (fun t _ => flushed0_eq V c t) blocks_cover0

end Cert.KernelIdeal.Fr

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.KI.Val1.lean ====
/-
  The second kernel's stored value read at an index, over the extended reals: row r, column j of the block it leaves is
  the output row of query row r of the q block against the key and value blocks: each head's 64 accumulator columns
  are that head's attention output, the sixteen stores tiling the accumulator.

  Each head computes, from its 64 columns of the query rows Q, of the keys K and of the values V: the scores
  S = (Q K^T) / 8, their row maxima M, the weights P = exp (S - M), the row sums L of P, and (P V) / L. Read at
  (r, d) that is the quotient of sum_m exp (s_m - max_m s_m) * V(m, d) by sum_m exp (s_m - max_m s_m) with
  s_m = (sum_d' Q(r, d') K(m, d')) / 8. The sixteen heads' blocks sit side by side in the accumulator, so column c of
  the accumulator is lane c % 64 of head c / 64; the output is the accumulator times Wproj^T plus bproj.
-/
import proofs.«401440_j23210003267797_3_alg».proof.Proof.KI.Body1
import proofs.«401440_j23210003267797_3_alg».proof.Proof.SpecK
import proofs.«401440_j23210003267797_3_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

namespace V1

/-! ## The three contractions read at an index -/

theorem dQK_lhs_n (i : S128x2048.Idx) (q : dot_S128x64_S2048x64_S128x2048_1_1_0_0_n_n.contr.Idx) :
    (dot_S128x64_S2048x64_S128x2048_1_1_0_0_n_n.lhsIdx i q 0).val = (i 0).val := by
  unfold DotDims.lhsIdx
  rw [dif_neg (show ¬(0 : Fin S128x64.rank) ∈ dot_S128x64_S2048x64_S128x2048_1_1_0_0_n_n.lhsBatch by decide),
    dif_pos (show (0 : Fin S128x64.rank) ∈ dot_S128x64_S2048x64_S128x2048_1_1_0_0_n_n.lhsNonContracting by decide)]
  rfl
theorem dQK_lhs_c (i : S128x2048.Idx) (q : dot_S128x64_S2048x64_S128x2048_1_1_0_0_n_n.contr.Idx) :
    (dot_S128x64_S2048x64_S128x2048_1_1_0_0_n_n.lhsIdx i q 1).val = (q ⟨0, by decide⟩).val :=
  dot_S128x64_S2048x64_S128x2048_1_1_0_0_n_n.lhsIdx_val_of_single rfl i q
theorem dQK_rhs_n (i : S128x2048.Idx) (q : dot_S128x64_S2048x64_S128x2048_1_1_0_0_n_n.contr.Idx) :
    (dot_S128x64_S2048x64_S128x2048_1_1_0_0_n_n.rhsIdx i q 0).val = (i 1).val := by
  unfold DotDims.rhsIdx
  rw [dif_neg (show ¬(0 : Fin S2048x64.rank) ∈ dot_S128x64_S2048x64_S128x2048_1_1_0_0_n_n.rhsBatch by decide),
    dif_pos (show (0 : Fin S2048x64.rank) ∈ dot_S128x64_S2048x64_S128x2048_1_1_0_0_n_n.rhsNonContracting by decide)]
  rfl
theorem dQK_rhs_c (i : S128x2048.Idx) (q : dot_S128x64_S2048x64_S128x2048_1_1_0_0_n_n.contr.Idx) :
    (dot_S128x64_S2048x64_S128x2048_1_1_0_0_n_n.rhsIdx i q 1).val = (q ⟨0, by decide⟩).val :=
  dot_S128x64_S2048x64_S128x2048_1_1_0_0_n_n.rhsIdx_val_of_single rfl i q

/-- Rows of the first operand against rows of the second: entry (r, m) is the sum over the 64 lanes. -/
theorem mmQK_apply (A : FVec Ideal S128x64 .bf16) (B : FVec Ideal S2048x64 .bf16) (r : Fin 128) (m : Fin 2048) :
    matmul dot_S128x64_S2048x64_S128x2048_1_1_0_0_n_n none A B (constant S128x2048 .f32 0x00000000#32) (ix2 r m)
      = ∑ d : Fin 64, A (ix2 r d) * B (ix2 m d) := by
  refine (Ideal.matmul_constant_zero_apply dot_S128x64_S2048x64_S128x2048_1_1_0_0_n_n none A B (ix2 r m)).trans ?_
  rw [← Equiv.sum_comp (contrEquiv1 dot_S128x64_S2048x64_S128x2048_1_1_0_0_n_n 64 rfl rfl).symm]
  refine Finset.sum_congr rfl fun k _ => ?_
  have hk := contrEquiv1_symm_val dot_S128x64_S2048x64_S128x2048_1_1_0_0_n_n 64 rfl rfl k
  have el : dot_S128x64_S2048x64_S128x2048_1_1_0_0_n_n.lhsIdx (ix2 r m) ((contrEquiv1 dot_S128x64_S2048x64_S128x2048_1_1_0_0_n_n 64 rfl rfl).symm k) = ix2 r k := funext fun a => Fin.ext (by
    match a with
    | ⟨0, _⟩ => exact dQK_lhs_n _ _
    | ⟨1, _⟩ => exact (dQK_lhs_c _ _).trans hk)
  have er : dot_S128x64_S2048x64_S128x2048_1_1_0_0_n_n.rhsIdx (ix2 r m) ((contrEquiv1 dot_S128x64_S2048x64_S128x2048_1_1_0_0_n_n 64 rfl rfl).symm k) = ix2 m k := funext fun a => Fin.ext (by
    match a with
    | ⟨0, _⟩ => exact dQK_rhs_n _ _
    | ⟨1, _⟩ => exact (dQK_rhs_c _ _).trans hk)
  rw [el, er]

theorem dPV_lhs_n (i : S128x64.Idx) (q : dot_S128x2048_S2048x64_S128x64_1_0_0_1_n_n.contr.Idx) :
    (dot_S128x2048_S2048x64_S128x64_1_0_0_1_n_n.lhsIdx i q 0).val = (i 0).val := by
  unfold DotDims.lhsIdx
  rw [dif_neg (show ¬(0 : Fin S128x2048.rank) ∈ dot_S128x2048_S2048x64_S128x64_1_0_0_1_n_n.lhsBatch by decide),
    dif_pos (show (0 : Fin S128x2048.rank) ∈ dot_S128x2048_S2048x64_S128x64_1_0_0_1_n_n.lhsNonContracting by decide)]
  rfl
theorem dPV_lhs_c (i : S128x64.Idx) (q : dot_S128x2048_S2048x64_S128x64_1_0_0_1_n_n.contr.Idx) :
    (dot_S128x2048_S2048x64_S128x64_1_0_0_1_n_n.lhsIdx i q 1).val = (q ⟨0, by decide⟩).val :=
  dot_S128x2048_S2048x64_S128x64_1_0_0_1_n_n.lhsIdx_val_of_single rfl i q
theorem dPV_rhs_n (i : S128x64.Idx) (q : dot_S128x2048_S2048x64_S128x64_1_0_0_1_n_n.contr.Idx) :
    (dot_S128x2048_S2048x64_S128x64_1_0_0_1_n_n.rhsIdx i q 1).val = (i 1).val := by
  unfold DotDims.rhsIdx
  rw [dif_neg (show ¬(1 : Fin S2048x64.rank) ∈ dot_S128x2048_S2048x64_S128x64_1_0_0_1_n_n.rhsBatch by decide),
    dif_pos (show (1 : Fin S2048x64.rank) ∈ dot_S128x2048_S2048x64_S128x64_1_0_0_1_n_n.rhsNonContracting by decide)]
  rfl
theorem dPV_rhs_c (i : S128x64.Idx) (q : dot_S128x2048_S2048x64_S128x64_1_0_0_1_n_n.contr.Idx) :
    (dot_S128x2048_S2048x64_S128x64_1_0_0_1_n_n.rhsIdx i q 0).val = (q ⟨0, by decide⟩).val :=
  dot_S128x2048_S2048x64_S128x64_1_0_0_1_n_n.rhsIdx_val_of_single rfl i q

/-- Rows of the first operand against columns of the second: entry (r, d) is the sum over the 2048 keys. -/
theorem mmPV_apply (A : FVec Ideal S128x2048 .bf16) (B : FVec Ideal S2048x64 .bf16) (r : Fin 128) (d : Fin 64) :
    matmul dot_S128x2048_S2048x64_S128x64_1_0_0_1_n_n none A B (constant S128x64 .f32 0x00000000#32) (ix2 r d)
      = ∑ m : Fin 2048, A (ix2 r m) * B (ix2 m d) := by
  refine (Ideal.matmul_constant_zero_apply dot_S128x2048_S2048x64_S128x64_1_0_0_1_n_n none A B (ix2 r d)).trans ?_
  rw [← Equiv.sum_comp (contrEquiv1 dot_S128x2048_S2048x64_S128x64_1_0_0_1_n_n 2048 rfl rfl).symm]
  refine Finset.sum_congr rfl fun k _ => ?_
  have hk := contrEquiv1_symm_val dot_S128x2048_S2048x64_S128x64_1_0_0_1_n_n 2048 rfl rfl k
  have el : dot_S128x2048_S2048x64_S128x64_1_0_0_1_n_n.lhsIdx (ix2 r d) ((contrEquiv1 dot_S128x2048_S2048x64_S128x64_1_0_0_1_n_n 2048 rfl rfl).symm k) = ix2 r k := funext fun a => Fin.ext (by
    match a with
    | ⟨0, _⟩ => exact dPV_lhs_n _ _
    | ⟨1, _⟩ => exact (dPV_lhs_c _ _).trans hk)
  have er : dot_S128x2048_S2048x64_S128x64_1_0_0_1_n_n.rhsIdx (ix2 r d) ((contrEquiv1 dot_S128x2048_S2048x64_S128x64_1_0_0_1_n_n 2048 rfl rfl).symm k) = ix2 k d := funext fun a => Fin.ext (by
    match a with
    | ⟨0, _⟩ => exact (dPV_rhs_c _ _).trans hk
    | ⟨1, _⟩ => exact dPV_rhs_n _ _)
  rw [el, er]

theorem dOW_lhs_n (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem dOW_lhs_c (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem dOW_rhs_n (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl
theorem dOW_rhs_c (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q

/-- The output projection: entry (r, j) is the sum over the 1024 accumulator columns. -/
theorem mmOW_apply (A : FVec Ideal S128x1024 .bf16) (B : FVec Ideal S1024x1024 .bf16) (r : Fin 128) (j : Fin 1024) :
    matmul dot_S128x1024_S1024x1024_S128x1024_1_0_0_1_n_n none A B (constant S128x1024 .f32 0x00000000#32) (ix2 r j)
      = ∑ c : Fin 1024, A (ix2 r c) * B (ix2 c j) := by
  refine (Ideal.matmul_constant_zero_apply dot_S128x1024_S1024x1024_S128x1024_1_0_0_1_n_n none A B (ix2 r j)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r j) ((contrEquiv1 dot_S128x1024_S1024x1024_S128x1024_1_0_0_1_n_n 1024 rfl rfl).symm k) = ix2 r k := funext fun a => Fin.ext (by
    match a with
    | ⟨0, _⟩ => exact dOW_lhs_n _ _
    | ⟨1, _⟩ => exact (dOW_lhs_c _ _).trans hk)
  have er : dot_S128x1024_S1024x1024_S128x1024_1_0_0_1_n_n.rhsIdx (ix2 r j) ((contrEquiv1 dot_S128x1024_S1024x1024_S128x1024_1_0_0_1_n_n 1024 rfl rfl).symm k) = ix2 k j := funext fun a => Fin.ext (by
    match a with
    | ⟨0, _⟩ => exact (dOW_rhs_c _ _).trans hk
    | ⟨1, _⟩ => exact dOW_rhs_n _ _)
  rw [el, er]

/-! ## The two row reductions and the scale, read at an index -/

/-- The word 0xFF800000 denotes -infinity. -/
theorem ofBits_ninf : Ideal.ofBits .f32 0xFF800000#32 = (⊥ : EReal) := by
  simp [Ideal.ofBits, Ideal.ieee]

/-- A row index with the dropped column coordinate put back. -/
theorem lift_row (h : S128x2048.Reduces [1] S128) (r : Fin 128) (k : Fin (S128x2048.size 1)) :
    h.lift (ix1 r) k = ix2 r (⟨k.val, k.isLt⟩ : Fin 2048) := by
  funext c; apply Fin.ext
  fin_cases c <;> rfl

/-- The maximum over a row, from -infinity. -/
theorem rowMax_apply (X : FVec Ideal S128x2048 .f32) (h : S128x2048.Reduces [1] S128) (r : Fin 128) :
    multiReduction .maximumf [1] S128 X 0xFF800000#32 h (.inl rfl) rfl (ix1 r)
      = (Finset.univ : Finset (Fin 2048)).fold max ⊥ (fun m => X (ix2 r m)) := by
  refine (Ideal.multiReduction_maximumf_single X 0xFF800000#32 h (.inl rfl) rfl (ix1 r)).trans ?_
  have hf : (X ∘ h.lift (ix1 r)) = fun m : Fin 2048 => X (ix2 r m) := funext fun m => congrArg X (lift_row h r m)
  refine (congrArg (fun f => Finset.fold max (Ideal.ofBits .f32 0xFF800000#32) f (Finset.univ : Finset (Fin 2048))) hf).trans ?_
  rw [ofBits_ninf]

/-- The sum over a row. -/
theorem rowSum_apply (X : FVec Ideal S128x2048 .f32) (h : S128x2048.Reduces [1] S128) (r : Fin 128) :
    multiReduction .add [1] S128 X 0x00000000#32 h (.inl rfl) rfl (ix1 r) = ∑ m : Fin 2048, X (ix2 r m) := by
  refine (Ideal.multiReduction_add_single X 0x00000000#32 h (.inl rfl) rfl (ix1 r)).trans ?_
  exact Finset.sum_congr rfl fun m _ => congrArg X (lift_row h r m)

/-! ## One head's computation, as one function of the three loaded blocks -/

/-- The scaled scores of the query rows against the key rows. -/
def scoreM (Q : FVec Ideal S128x64 .bf16) (K : FVec Ideal S2048x64 .bf16) : FVec Ideal S128x2048 .f32 :=
  mulf (matmul dot_S128x64_S2048x64_S128x2048_1_1_0_0_n_n none Q K (constant S128x2048 .f32 0x00000000#32))
    (broadcast S128x2048 (Scalar.ofBits .f32 0x3E000000#32))

/-- The exponentials of the scores less their row maximum. -/
def probM (S : FVec Ideal S128x2048 .f32) : FVec Ideal S128x2048 .f32 :=
  exp (subf S (broadcastTo S128x2048
    (shapeCast S128x1 (multiReduction .maximumf [1] S128 S 0xFF800000#32 reduces_S128x2048_S128 (.inl rfl) rfl) shapeCasts_S128_S128x1)
    broadcasts_S128x1_S128x2048))

/-- The weighted sum of the value rows, divided by the row sums of the weights. -/
def headCore (Q : FVec Ideal S128x64 .bf16) (K V : FVec Ideal S2048x64 .bf16) : FVec Ideal S128x64 .f32 :=
  divf (matmul dot_S128x2048_S2048x64_S128x64_1_0_0_1_n_n none (truncf .bf16 (probM (scoreM Q K)) bitsLt_bf16_f32) V (constant S128x64 .f32 0x00000000#32))
    (broadcastTo S128x64
      (shapeCast S128x1 (multiReduction .add [1] S128 (probM (scoreM Q K)) 0x00000000#32 reduces_S128x2048_S128 (.inl rfl) rfl) shapeCasts_S128_S128x1)
      broadcasts_S128x1_S128x64)

/-- What a head stores, from the three loaded blocks. -/
def headFn (q : Vec Ideal S1x128x64 .bf16) (k v : Vec Ideal S1x2048x64 .bf16) : FVec Ideal S128x64 .f32 :=
  shapeCast S128x64
    (headCore (shapeCast S128x64 q shapeCasts_S1x128x64_S128x64) (shapeCast S2048x64 k shapeCasts_S1x2048x64_S2048x64)
      (shapeCast S2048x64 v shapeCasts_S1x2048x64_S2048x64))
    shapeCasts_S128x64_S128x64

/-- One head's output entry from the query row's lanes, the key rows' lanes and one lane of the value rows. -/
def headVal (qr : Fin 64 → EReal) (kk : Fin 2048 → Fin 64 → EReal) (vv : Fin 2048 → EReal) : EReal :=
  Ideal.div
    (∑ m : Fin 2048,
      Ideal.exp ((∑ d' : Fin 64, qr d' * kk m d') * Cert.Spec.eighth
          - (Finset.univ : Finset (Fin 2048)).fold max ⊥ (fun m' => (∑ d' : Fin 64, qr d' * kk m' d') * Cert.Spec.eighth))
        * vv m)
    (∑ m : Fin 2048,
      Ideal.exp ((∑ d' : Fin 64, qr d' * kk m d') * Cert.Spec.eighth
          - (Finset.univ : Finset (Fin 2048)).fold max ⊥ (fun m' => (∑ d' : Fin 64, qr d' * kk m' d') * Cert.Spec.eighth)))

theorem scoreM_apply (q : Vec Ideal S1x128x64 .bf16) (k : Vec Ideal S1x2048x64 .bf16) (r : Fin 128) (m : Fin 2048) :
    scoreM (shapeCast S128x64 q shapeCasts_S1x128x64_S128x64) (shapeCast S2048x64 k shapeCasts_S1x2048x64_S2048x64) (ix2 r m)
      = (∑ d' : Fin 64, q (ix3 0 r d') * k (ix3 0 m d')) * Cert.Spec.eighth := by
  unfold scoreM
  refine (mulf_apply _ _ _).trans ?_
  refine congrArg₂ (· * ·) ?_ rfl
  refine (mmQK_apply _ _ r m).trans ?_
  refine Finset.sum_congr rfl fun d' _ => ?_
  exact congrArg₂ (· * ·) (shapeCast_1ab_ab_apply q _ r d') (shapeCast_1ab_ab_apply k _ m d')

theorem probM_apply (S : FVec Ideal S128x2048 .f32) (r : Fin 128) (m : Fin 2048) :
    probM S (ix2 r m) = Ideal.exp (S (ix2 r m) - (Finset.univ : Finset (Fin 2048)).fold max ⊥ (fun m' => S (ix2 r m'))) := by
  unfold probM
  show Ideal.exp (S (ix2 r m) - _) = _
  refine congrArg (fun t => Ideal.exp (S (ix2 r m) - t)) ?_
  refine (column_spread_apply _ _ _ r m).trans ?_
  exact rowMax_apply S _ r

theorem headFn_apply (q : Vec Ideal S1x128x64 .bf16) (k v : Vec Ideal S1x2048x64 .bf16) (r : Fin 128) (d : Fin 64) :
    headFn q k v (ix2 r d)
      = headVal (fun d' => q (ix3 0 r d')) (fun m d' => k (ix3 0 m d')) (fun m => v (ix3 0 m d)) := by
  unfold headFn
  refine (congrFun (shapeCast_self _ _) _).trans ?_
  unfold headCore headVal
  refine (divf_apply _ _ _).trans ?_
  have hP : ∀ m : Fin 2048,
      probM (scoreM (shapeCast S128x64 q shapeCasts_S1x128x64_S128x64) (shapeCast S2048x64 k shapeCasts_S1x2048x64_S2048x64)) (ix2 r m)
        = Ideal.exp ((∑ d' : Fin 64, q (ix3 0 r d') * k (ix3 0 m d')) * Cert.Spec.eighth
            - (Finset.univ : Finset (Fin 2048)).fold max ⊥ (fun m' => (∑ d' : Fin 64, q (ix3 0 r d') * k (ix3 0 m' d')) * Cert.Spec.eighth)) := by
    intro m
    refine (probM_apply _ r m).trans ?_
    rw [scoreM_apply q k r m]
    refine congrArg (fun f => Ideal.exp (_ - Finset.fold max ⊥ f Finset.univ)) ?_
    exact funext fun m' => scoreM_apply q k r m'
  refine congrArg₂ Ideal.div ?_ ?_
  · refine (mmPV_apply _ _ r d).trans ?_
    refine Finset.sum_congr rfl fun m _ => ?_
    exact congrArg₂ (· * ·) (hP m) (shapeCast_1ab_ab_apply v _ m d)
  · refine (column_spread_apply _ _ _ r d).trans ?_
    refine (rowSum_apply _ _ r).trans ?_
    exact Finset.sum_congr rfl fun m _ => hP m

/-! ## Each head is that one function of its three loads -/

theorem head0_eq (x0 : Vec Ideal S1x128x1024 .bf16) (x1 x2 : Vec Ideal S1x2048x1024 .bf16) :
    head0 (F := Ideal) x0 x1 x2 = headFn (View.ld x0 rq0) (View.ld x1 rk0) (View.ld x2 rk0) := by
  unfold head0 k1_pay2 headFn headCore probM scoreM
  rfl

theorem head1_eq (x0 : Vec Ideal S1x128x1024 .bf16) (x1 x2 : Vec Ideal S1x2048x1024 .bf16) :
    head1 (F := Ideal) x0 x1 x2 = headFn (View.ld x0 rq1) (View.ld x1 rk1) (View.ld x2 rk1) := by
  unfold head1 k1_pay5 k1_pay3 k1_pay4 headFn headCore probM scoreM
  rfl

theorem head2_eq (x0 : Vec Ideal S1x128x1024 .bf16) (x1 x2 : Vec Ideal S1x2048x1024 .bf16) :
    head2 (F := Ideal) x0 x1 x2 = headFn (View.ld x0 rq2) (View.ld x1 rk2) (View.ld x2 rk2) := by
  unfold head2 k1_pay7 k1_pay6 headFn headCore probM scoreM
  rfl

theorem head3_eq (x0 : Vec Ideal S1x128x1024 .bf16) (x1 x2 : Vec Ideal S1x2048x1024 .bf16) :
    head3 (F := Ideal) x0 x1 x2 = headFn (View.ld x0 rq3) (View.ld x1 rk3) (View.ld x2 rk3) := by
  unfold head3 k1_pay8 headFn headCore probM scoreM
  rfl

theorem head4_eq (x0 : Vec Ideal S1x128x1024 .bf16) (x1 x2 : Vec Ideal S1x2048x1024 .bf16) :
    head4 (F := Ideal) x0 x1 x2 = headFn (View.ld x0 rq4) (View.ld x1 rk4) (View.ld x2 rk4) := by
  unfold head4 k1_pay11 k1_pay9 k1_pay10 headFn headCore probM scoreM
  rfl

theorem head5_eq (x0 : Vec Ideal S1x128x1024 .bf16) (x1 x2 : Vec Ideal S1x2048x1024 .bf16) :
    head5 (F := Ideal) x0 x1 x2 = headFn (View.ld x0 rq5) (View.ld x1 rk5) (View.ld x2 rk5) := by
  unfold head5 k1_pay13 k1_pay12 headFn headCore probM scoreM
  rfl

theorem head6_eq (x0 : Vec Ideal S1x128x1024 .bf16) (x1 x2 : Vec Ideal S1x2048x1024 .bf16) :
    head6 (F := Ideal) x0 x1 x2 = headFn (View.ld x0 rq6) (View.ld x1 rk6) (View.ld x2 rk6) := by
  unfold head6 k1_pay14 headFn headCore probM scoreM
  rfl

theorem head7_eq (x0 : Vec Ideal S1x128x1024 .bf16) (x1 x2 : Vec Ideal S1x2048x1024 .bf16) :
    head7 (F := Ideal) x0 x1 x2 = headFn (View.ld x0 rq7) (View.ld x1 rk7) (View.ld x2 rk7) := by
  unfold head7 k1_pay17 k1_pay15 k1_pay16 headFn headCore probM scoreM
  rfl

theorem head8_eq (x0 : Vec Ideal S1x128x1024 .bf16) (x1 x2 : Vec Ideal S1x2048x1024 .bf16) :
    head8 (F := Ideal) x0 x1 x2 = headFn (View.ld x0 rq8) (View.ld x1 rk8) (View.ld x2 rk8) := by
  unfold head8 k1_pay19 k1_pay18 headFn headCore probM scoreM
  rfl

theorem head9_eq (x0 : Vec Ideal S1x128x1024 .bf16) (x1 x2 : Vec Ideal S1x2048x1024 .bf16) :
    head9 (F := Ideal) x0 x1 x2 = headFn (View.ld x0 rq9) (View.ld x1 rk9) (View.ld x2 rk9) := by
  unfold head9 k1_pay20 headFn headCore probM scoreM
  rfl

theorem head10_eq (x0 : Vec Ideal S1x128x1024 .bf16) (x1 x2 : Vec Ideal S1x2048x1024 .bf16) :
    head10 (F := Ideal) x0 x1 x2 = headFn (View.ld x0 rq10) (View.ld x1 rk10) (View.ld x2 rk10) := by
  unfold head10 k1_pay23 k1_pay21 k1_pay22 headFn headCore probM scoreM
  rfl

theorem head11_eq (x0 : Vec Ideal S1x128x1024 .bf16) (x1 x2 : Vec Ideal S1x2048x1024 .bf16) :
    head11 (F := Ideal) x0 x1 x2 = headFn (View.ld x0 rq11) (View.ld x1 rk11) (View.ld x2 rk11) := by
  unfold head11 k1_pay25 k1_pay24 headFn headCore probM scoreM
  rfl

theorem head12_eq (x0 : Vec Ideal S1x128x1024 .bf16) (x1 x2 : Vec Ideal S1x2048x1024 .bf16) :
    head12 (F := Ideal) x0 x1 x2 = headFn (View.ld x0 rq12) (View.ld x1 rk12) (View.ld x2 rk12) := by
  unfold head12 k1_pay26 headFn headCore probM scoreM
  rfl

theorem head13_eq (x0 : Vec Ideal S1x128x1024 .bf16) (x1 x2 : Vec Ideal S1x2048x1024 .bf16) :
    head13 (F := Ideal) x0 x1 x2 = headFn (View.ld x0 rq13) (View.ld x1 rk13) (View.ld x2 rk13) := by
  unfold head13 k1_pay29 k1_pay27 k1_pay28 headFn headCore probM scoreM
  rfl

theorem head14_eq (x0 : Vec Ideal S1x128x1024 .bf16) (x1 x2 : Vec Ideal S1x2048x1024 .bf16) :
    head14 (F := Ideal) x0 x1 x2 = headFn (View.ld x0 rq14) (View.ld x1 rk14) (View.ld x2 rk14) := by
  unfold head14 k1_pay31 k1_pay30 headFn headCore probM scoreM
  rfl

theorem head15_eq (x0 : Vec Ideal S1x128x1024 .bf16) (x1 x2 : Vec Ideal S1x2048x1024 .bf16) :
    head15 (F := Ideal) x0 x1 x2 = headFn (View.ld x0 rq15) (View.ld x1 rk15) (View.ld x2 rk15) := by
  unfold head15 k1_pay32 headFn headCore probM scoreM
  rfl

/-! ## The loads of one head's columns, and the accumulator as one function -/

/-- A load of 64 columns from column o of a [1, n, 1024] block reads, at (0, r, d), the block at (0, r, o + d). -/
theorem ldCols_apply {n : ℕ} (X : Vec Ideal ⟨3, ![1, n, 1024]⟩ .bf16) (o : ℕ)
    (inb : ∀ a, (![0, 0, o] : Fin 3 → ℕ) a + (![1, n, 64] : Fin 3 → ℕ) a ≤ (⟨3, ![1, n, 1024]⟩ : Shape).size a)
    (r : Fin n) (d : Fin 64) (c : Fin 1024) (hc : c.val = o + d.val) :
    View.ld X (Rect.unit (s := ⟨3, ![1, n, 1024]⟩) ![0, 0, o] ![1, n, 64] inb) (ix3 (0 : Fin 1) r d) = X (ix3 (0 : Fin 1) r c) := by
  refine congrArg X (funext fun a => Fin.ext ?_)
  match a with
  | ⟨0, _⟩ => show 0 + 1 * 0 = 0; rfl
  | ⟨1, _⟩ => show 0 + 1 * r.val = r.val; omega
  | ⟨2, _⟩ => show o + 1 * d.val = c.val; omega

/-- The row, head and lane of an accumulator index. -/
def rowOf (y : S128x1024.Idx) : Fin 128 := ⟨(y 0).val, (y 0).isLt⟩
def headOf (y : S128x1024.Idx) : Fin 16 := ⟨(y 1).val / 64, Nat.div_lt_of_lt_mul (y 1).isLt⟩
def laneOf (y : S128x1024.Idx) : Fin 64 := ⟨(y 1).val % 64, Nat.mod_lt _ (by decide)⟩

/-- The accumulator after the sixteen stores, as one function of its index. -/
def accG (x0 : Vec Ideal S1x128x1024 .bf16) (x1 x2 : Vec Ideal S1x2048x1024 .bf16) : S128x1024.Idx → EReal := fun y =>
  Cert.Spec.attRow (fun c => x0 (ix3 0 (rowOf y) c)) (fun m c => x1 (ix3 0 m c)) (fun m c => x2 (ix3 0 m c)) (headOf y) (laneOf y)

theorem accG_of (x0 : Vec Ideal S1x128x1024 .bf16) (x1 x2 : Vec Ideal S1x2048x1024 .bf16) (y : S128x1024.Idx)
    (r : Fin 128) (h : Fin 16) (d : Fin 64) (h0 : (y 0).val = r.val) (h1 : (y 1).val = 64 * h.val + d.val) :
    accG x0 x1 x2 y
      = Cert.Spec.attRow (fun c => x0 (ix3 0 r c)) (fun m c => x1 (ix3 0 m c)) (fun m c => x2 (ix3 0 m c)) h d := by
  have e0 : rowOf y = r := Fin.ext h0
  have e1 : headOf y = h := Fin.ext (by show (y 1).val / 64 = h.val; rw [h1]; omega)
  have e2 : laneOf y = d := Fin.ext (by show (y 1).val % 64 = d.val; rw [h1]; omega)
  unfold accG
  rw [e0, e1, e2]

/-- The specification's head output is the head value of the head's lanes. -/
theorem attRow_eq_headVal (qr : Fin 1024 → EReal) (Kb Vb : Fin 2048 → Fin 1024 → EReal) (h : Fin 16) (d : Fin 64) :
    Cert.Spec.attRow qr Kb Vb h d
      = headVal (fun d' => qr (Cert.Spec.hcol h d')) (fun m d' => Kb m (Cert.Spec.hcol h d')) (fun m => Vb m (Cert.Spec.hcol h d)) := rfl

/-- One head's stored block is the accumulator function on its 64 columns. -/
theorem piece_eq (x0 : Vec Ideal S1x128x1024 .bf16) (x1 x2 : Vec Ideal S1x2048x1024 .bf16) (o : ℕ) (h : Fin 16) (ho : o = 64 * h.val)
    (inbq : ∀ a, (![0, 0, o] : Fin S1x128x1024.rank → ℕ) a + S1x128x64.size a ≤ S1x128x1024.size a)
    (inbk : ∀ a, (![0, 0, o] : Fin S1x2048x1024.rank → ℕ) a + S1x2048x64.size a ≤ S1x2048x1024.size a)
    (inbs : ∀ a, (![0, o] : Fin S128x1024.rank → ℕ) a + S128x64.size a ≤ S128x1024.size a) (x : S128x64.Idx) :
    headFn (View.ld x0 (Rect.unit (s := S1x128x1024) ![0, 0, o] S1x128x64.size inbq))
        (View.ld x1 (Rect.unit (s := S1x2048x1024) ![0, 0, o] S1x2048x64.size inbk))
        (View.ld x2 (Rect.unit (s := S1x2048x1024) ![0, 0, o] S1x2048x64.size inbk)) x
      = accG x0 x1 x2 ((Rect.unit (s := S128x1024) ![0, o] S128x64.size inbs).emb x) := by
  obtain ⟨r, d, rfl⟩ : ∃ r d, x = ix2 r d := ⟨_, _, eq_ix2 x⟩
  refine (headFn_apply _ _ _ r d).trans ?_
  refine Eq.trans ?_ (accG_of x0 x1 x2 _ r h d (by show 0 + 1 * r.val = r.val; omega) (by show o + 1 * d.val = 64 * h.val + d.val; omega)).symm
  rw [attRow_eq_headVal]
  have hq : ∀ d' : Fin 64, View.ld x0 (Rect.unit (s := S1x128x1024) ![0, 0, o] S1x128x64.size inbq) (ix3 0 r d') = x0 (ix3 0 r (Cert.Spec.hcol h d')) :=
    fun d' => ldCols_apply x0 o inbq r d' _ (by show 64 * h.val + d'.val = o + d'.val; omega)
  have hk : ∀ (m : Fin 2048) (d' : Fin 64), View.ld x1 (Rect.unit (s := S1x2048x1024) ![0, 0, o] S1x2048x64.size inbk) (ix3 0 m d') = x1 (ix3 0 m (Cert.Spec.hcol h d')) :=
    fun m d' => ldCols_apply x1 o inbk m d' _ (by show 64 * h.val + d'.val = o + d'.val; omega)
  have hv : ∀ (m : Fin 2048), View.ld x2 (Rect.unit (s := S1x2048x1024) ![0, 0, o] S1x2048x64.size inbk) (ix3 0 m d) = x2 (ix3 0 m (Cert.Spec.hcol h d)) :=
    fun m => ldCols_apply x2 o inbk m d _ (by show 64 * h.val + d.val = o + d.val; omega)
  exact congr (congr (congrArg headVal (funext hq)) (funext fun m => funext fun d' => hk m d')) (funext hv)

/-! ## The sixteen stores tile the accumulator -/

theorem piece0 (x0 : Vec Ideal S1x128x1024 .bf16) (x1 x2 : Vec Ideal S1x2048x1024 .bf16) (x : S128x64.Idx) :
    head0 (F := Ideal) x0 x1 x2 x = accG x0 x1 x2 (rs0.emb x) :=
  (congrFun (head0_eq x0 x1 x2) x).trans (piece_eq x0 x1 x2 0 0 rfl _ _ _ x)

theorem piece1 (x0 : Vec Ideal S1x128x1024 .bf16) (x1 x2 : Vec Ideal S1x2048x1024 .bf16) (x : S128x64.Idx) :
    head1 (F := Ideal) x0 x1 x2 x = accG x0 x1 x2 (rs1.emb x) :=
  (congrFun (head1_eq x0 x1 x2) x).trans (piece_eq x0 x1 x2 64 1 rfl _ _ _ x)

theorem piece2 (x0 : Vec Ideal S1x128x1024 .bf16) (x1 x2 : Vec Ideal S1x2048x1024 .bf16) (x : S128x64.Idx) :
    head2 (F := Ideal) x0 x1 x2 x = accG x0 x1 x2 (rs2.emb x) :=
  (congrFun (head2_eq x0 x1 x2) x).trans (piece_eq x0 x1 x2 128 2 rfl _ _ _ x)

theorem piece3 (x0 : Vec Ideal S1x128x1024 .bf16) (x1 x2 : Vec Ideal S1x2048x1024 .bf16) (x : S128x64.Idx) :
    head3 (F := Ideal) x0 x1 x2 x = accG x0 x1 x2 (rs3.emb x) :=
  (congrFun (head3_eq x0 x1 x2) x).trans (piece_eq x0 x1 x2 192 3 rfl _ _ _ x)

theorem piece4 (x0 : Vec Ideal S1x128x1024 .bf16) (x1 x2 : Vec Ideal S1x2048x1024 .bf16) (x : S128x64.Idx) :
    head4 (F := Ideal) x0 x1 x2 x = accG x0 x1 x2 (rs4.emb x) :=
  (congrFun (head4_eq x0 x1 x2) x).trans (piece_eq x0 x1 x2 256 4 rfl _ _ _ x)

theorem piece5 (x0 : Vec Ideal S1x128x1024 .bf16) (x1 x2 : Vec Ideal S1x2048x1024 .bf16) (x : S128x64.Idx) :
    head5 (F := Ideal) x0 x1 x2 x = accG x0 x1 x2 (rs5.emb x) :=
  (congrFun (head5_eq x0 x1 x2) x).trans (piece_eq x0 x1 x2 320 5 rfl _ _ _ x)

theorem piece6 (x0 : Vec Ideal S1x128x1024 .bf16) (x1 x2 : Vec Ideal S1x2048x1024 .bf16) (x : S128x64.Idx) :
    head6 (F := Ideal) x0 x1 x2 x = accG x0 x1 x2 (rs6.emb x) :=
  (congrFun (head6_eq x0 x1 x2) x).trans (piece_eq x0 x1 x2 384 6 rfl _ _ _ x)

theorem piece7 (x0 : Vec Ideal S1x128x1024 .bf16) (x1 x2 : Vec Ideal S1x2048x1024 .bf16) (x : S128x64.Idx) :
    head7 (F := Ideal) x0 x1 x2 x = accG x0 x1 x2 (rs7.emb x) :=
  (congrFun (head7_eq x0 x1 x2) x).trans (piece_eq x0 x1 x2 448 7 rfl _ _ _ x)

theorem piece8 (x0 : Vec Ideal S1x128x1024 .bf16) (x1 x2 : Vec Ideal S1x2048x1024 .bf16) (x : S128x64.Idx) :
    head8 (F := Ideal) x0 x1 x2 x = accG x0 x1 x2 (rs8.emb x) :=
  (congrFun (head8_eq x0 x1 x2) x).trans (piece_eq x0 x1 x2 512 8 rfl _ _ _ x)

theorem piece9 (x0 : Vec Ideal S1x128x1024 .bf16) (x1 x2 : Vec Ideal S1x2048x1024 .bf16) (x : S128x64.Idx) :
    head9 (F := Ideal) x0 x1 x2 x = accG x0 x1 x2 (rs9.emb x) :=
  (congrFun (head9_eq x0 x1 x2) x).trans (piece_eq x0 x1 x2 576 9 rfl _ _ _ x)

theorem piece10 (x0 : Vec Ideal S1x128x1024 .bf16) (x1 x2 : Vec Ideal S1x2048x1024 .bf16) (x : S128x64.Idx) :
    head10 (F := Ideal) x0 x1 x2 x = accG x0 x1 x2 (rs10.emb x) :=
  (congrFun (head10_eq x0 x1 x2) x).trans (piece_eq x0 x1 x2 640 10 rfl _ _ _ x)

theorem piece11 (x0 : Vec Ideal S1x128x1024 .bf16) (x1 x2 : Vec Ideal S1x2048x1024 .bf16) (x : S128x64.Idx) :
    head11 (F := Ideal) x0 x1 x2 x = accG x0 x1 x2 (rs11.emb x) :=
  (congrFun (head11_eq x0 x1 x2) x).trans (piece_eq x0 x1 x2 704 11 rfl _ _ _ x)

theorem piece12 (x0 : Vec Ideal S1x128x1024 .bf16) (x1 x2 : Vec Ideal S1x2048x1024 .bf16) (x : S128x64.Idx) :
    head12 (F := Ideal) x0 x1 x2 x = accG x0 x1 x2 (rs12.emb x) :=
  (congrFun (head12_eq x0 x1 x2) x).trans (piece_eq x0 x1 x2 768 12 rfl _ _ _ x)

theorem piece13 (x0 : Vec Ideal S1x128x1024 .bf16) (x1 x2 : Vec Ideal S1x2048x1024 .bf16) (x : S128x64.Idx) :
    head13 (F := Ideal) x0 x1 x2 x = accG x0 x1 x2 (rs13.emb x) :=
  (congrFun (head13_eq x0 x1 x2) x).trans (piece_eq x0 x1 x2 832 13 rfl _ _ _ x)

theorem piece14 (x0 : Vec Ideal S1x128x1024 .bf16) (x1 x2 : Vec Ideal S1x2048x1024 .bf16) (x : S128x64.Idx) :
    head14 (F := Ideal) x0 x1 x2 x = accG x0 x1 x2 (rs14.emb x) :=
  (congrFun (head14_eq x0 x1 x2) x).trans (piece_eq x0 x1 x2 896 14 rfl _ _ _ x)

theorem piece15 (x0 : Vec Ideal S1x128x1024 .bf16) (x1 x2 : Vec Ideal S1x2048x1024 .bf16) (x : S128x64.Idx) :
    head15 (F := Ideal) x0 x1 x2 x = accG x0 x1 x2 (rs15.emb x) :=
  (congrFun (head15_eq x0 x1 x2) x).trans (piece_eq x0 x1 x2 960 15 rfl _ _ _ x)

/-- Every store's payload is the accumulator function on the store's columns. -/
theorem accPieces_eq (x0 : Vec Ideal S1x128x1024 .bf16) (x1 x2 : Vec Ideal S1x2048x1024 .bf16) :
    ∀ p ∈ accPieces (F := Ideal) x0 x1 x2, ∀ x : p.1.shape.Idx, p.2 x = accG x0 x1 x2 (p.1.emb x) := by
  unfold accPieces
  exact List.forall_mem_cons.2 ⟨piece15 x0 x1 x2, List.forall_mem_cons.2 ⟨piece14 x0 x1 x2, List.forall_mem_cons.2 ⟨piece13 x0 x1 x2, List.forall_mem_cons.2 ⟨piece12 x0 x1 x2, List.forall_mem_cons.2 ⟨piece11 x0 x1 x2, List.forall_mem_cons.2 ⟨piece10 x0 x1 x2, List.forall_mem_cons.2 ⟨piece9 x0 x1 x2, List.forall_mem_cons.2 ⟨piece8 x0 x1 x2, List.forall_mem_cons.2 ⟨piece7 x0 x1 x2, List.forall_mem_cons.2 ⟨piece6 x0 x1 x2, List.forall_mem_cons.2 ⟨piece5 x0 x1 x2, List.forall_mem_cons.2 ⟨piece4 x0 x1 x2, List.forall_mem_cons.2 ⟨piece3 x0 x1 x2, List.forall_mem_cons.2 ⟨piece2 x0 x1 x2, List.forall_mem_cons.2 ⟨piece1 x0 x1 x2, List.forall_mem_cons.2 ⟨piece0 x0 x1 x2, List.forall_mem_nil _⟩⟩⟩⟩⟩⟩⟩⟩⟩⟩⟩⟩⟩⟩⟩⟩

/-- The accumulator after the sixteen stores, read at (r, c): head c / 64, lane c % 64 of query row r. -/
theorem acc1_apply (x0 : Vec Ideal S1x128x1024 .bf16) (x1 x2 : Vec Ideal S1x2048x1024 .bf16) (r : Fin 128) (c : Fin 1024) :
    acc1 (F := Ideal) x0 x1 x2 (ix2 r c)
      = Cert.Spec.attRow (fun c' => x0 (ix3 0 r c')) (fun m c' => x1 (ix3 0 m c')) (fun m c' => x2 (ix3 0 m c'))
          ⟨c.val / 64, by omega⟩ ⟨c.val % 64, Nat.mod_lt _ (by decide)⟩ := by
  unfold acc1
  refine (View.canon_apply_of_pieces (accG x0 x1 x2) (accPieces x0 x1 x2) (accPieces_eq x0 x1 x2) (ix2 r c)
    (View.cover_of_tiledL (accPieces x0 x1 x2) S128x64.size (by sl_kernel_rfl) (ix2 r c))).trans ?_
  rfl

/-! ## The output block -/

/-- The projection of the accumulator rows plus the bias row, read at (r, j). -/
theorem pay33_apply (A : Vec Ideal S128x1024 .f32) (W : Vec Ideal S1024x1024 .bf16) (B : Vec Ideal S1x1024 .f32) (r : Fin 128) (j : Fin 1024) :
    k1_pay33 (F := Ideal) A W B (ix2 r j) = (∑ c : Fin 1024, A (ix2 r c) * W (ix2 c j)) + B (ix2 0 j) := by
  unfold k1_pay33
  refine (addf_apply _ _ _).trans ?_
  refine congrArg₂ (· + ·) ?_ ?_
  · refine (mmOW_apply _ _ r j).trans ?_
    refine Finset.sum_congr rfl fun c _ => ?_
    exact congrArg₂ (· * ·) rfl (congrFun (shapeCast_self W _) _)
  · refine (broadcastTo_1b_ab_apply _ _ r j).trans ?_
    exact congrFun (shapeCast_self B _) _

end V1

open V1

theorem out1_apply (x0 : Vec Ideal S1x128x1024 .bf16) (x1 x2 : Vec Ideal S1x2048x1024 .bf16) (x3 : Vec Ideal S1024x1024 .bf16) (x4 : Vec Ideal S1x1024 .f32)
    (r : Fin 128) (j : Fin 1024) :
    out1 (F := Ideal) x0 x1 x2 x3 x4 (ix3 0 r j)
      = Cert.Spec.outRow (fun c => x0 (ix3 0 r c)) (fun m c => x1 (ix3 0 m c)) (fun m c => x2 (ix3 0 m c)) x3 x4 j := by
  have hz3 : (![0, 0, 0] : Fin S1x128x1024.rank → Nat) = fun _ => 0 := funext fun a => by fin_cases a <;> rfl
  have hz2 : (![0, 0] : Fin S128x1024.rank → Nat) = fun _ => 0 := funext fun a => by fin_cases a <;> rfl
  have hzw : (![0, 0] : Fin S1024x1024.rank → Nat) = fun _ => 0 := funext fun a => by fin_cases a <;> rfl
  have hzb : (![0, 0] : Fin S1x1024.rank → Nat) = fun _ => 0 := funext fun a => by fin_cases a <;> rfl
  unfold out1
  rw [View.canon_unit_zero hz3, View.ld_unit_zero hz2, View.ld_unit_zero hzw, View.ld_unit_zero hzb]
  unfold k1_pay1
  refine (shapeCast_ab_1ab_apply _ _ 0 r j).trans ?_
  refine (pay33_apply _ _ _ r j).trans ?_
  unfold Cert.Spec.outRow
  refine congrArg₂ (· + ·) ?_ rfl
  refine Finset.sum_congr rfl fun c _ => ?_
  exact congrArg₂ (· * ·) (acc1_apply x0 x1 x2 r c) rfl

end Cert.KernelIdeal.Fr

end
-- ==== Proof.KI.Arr1.lean ====
/-
  From blocks to the array, region 1: after its thirty-two grid points the result array holds, at every index, the
  output row function of the q | k | v array, the transposed projection and the bias row the region was entered with.
  Grid point t = 16 b + i writes back the block of rows 128 i … 128 i + 127 of batch entry b; the blocks cover the array.
-/
import proofs.«401440_j23210003267797_3_alg».proof.Proof.KI.Dat
import proofs.«401440_j23210003267797_3_alg».proof.Proof.KI.Val1
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The block indices at grid point t, decided over the thirty-two points: the output block and the query block sit at
    (t / 16, t % 16, 0), the key block at (t / 16, 0, 1), the value block at (t / 16, 0, 2); the projection and the bias
    are one block each, at index zero. -/
theorem blockIdx1 : ∀ t : Fin cfg1.N,
    win1_5.index t (0 : Fin 3) = t.val / 16 ∧ win1_5.index t (1 : Fin 3) = t.val % 16 ∧ win1_5.index t (2 : Fin 3) = 0
  ∧ win1_0.index t (0 : Fin 3) = t.val / 16 ∧ win1_0.index t (1 : Fin 3) = t.val % 16 ∧ win1_0.index t (2 : Fin 3) = 0
  ∧ win1_1.index t (0 : Fin 3) = t.val / 16 ∧ win1_1.index t (1 : Fin 3) = 0 ∧ win1_1.index t (2 : Fin 3) = 1
  ∧ win1_2.index t (0 : Fin 3) = t.val / 16 ∧ win1_2.index t (1 : Fin 3) = 0 ∧ win1_2.index t (2 : Fin 3) = 2
  ∧ win1_3.index t (0 : Fin 2) = 0 ∧ win1_3.index t (1 : Fin 2) = 0
  ∧ win1_4.index t (0 : Fin 2) = 0 ∧ win1_4.index t (1 : Fin 2) = 0 :=
  (by decide +kernel : ∀ t : Fin grid1.N, _)

/-- One stored element against one element of the result array: when the query block is rows n0 … n0 + 127 of batch
    entry b of A (columns 0 … 1023), the key block all rows of that entry at columns 1024 … 2047 and the value block all
    rows at columns 2048 … 3071, row r, column j of what the body stores is the result array at (b, n0 + r, j). -/
theorem out1_eq_G1 (A : Cert.Spec.Arr3 2 2048 3072)
    (x0 : Vec Ideal S1x128x1024 .bf16) (x1 x2 : Vec Ideal S1x2048x1024 .bf16) (x3 : Vec Ideal S1024x1024 .bf16) (x4 : Vec Ideal S1x1024 .f32)
    (b : Fin 2) (n0 : Nat) (hn0 : n0 + 128 ≤ 2048)
    (h0 : ∀ (r : Fin 128) (cc : Fin 1024), x0 (ix3 0 r cc) = A (ix3 b ⟨n0 + r.val, by omega⟩ ⟨cc.val, by omega⟩))
    (h1 : ∀ (m : Fin 2048) (cc : Fin 1024), x1 (ix3 0 m cc) = A (ix3 b m ⟨1024 + cc.val, by omega⟩))
    (h2 : ∀ (m : Fin 2048) (cc : Fin 1024), x2 (ix3 0 m cc) = A (ix3 b m ⟨2048 + cc.val, by omega⟩))
    (r : Fin 128) (j : Fin 1024) :
    out1 (F := Ideal) x0 x1 x2 x3 x4 (ix3 0 r j) = Cert.Spec.G1 A x3 x4 (ix3 b ⟨n0 + r.val, by omega⟩ j) := by
  rw [out1_apply]
  have e0 : (fun c => x0 (ix3 0 r c)) = fun c : Fin 1024 => A (ix3 b ⟨n0 + r.val, by omega⟩ ⟨c.val, by omega⟩) := funext fun c => h0 r c
  have e1 : (fun m c => x1 (ix3 0 m c)) = fun (m : Fin 2048) (c : Fin 1024) => A (ix3 b m ⟨1024 + c.val, by omega⟩) := funext fun m => funext fun c => h1 m c
  have e2 : (fun m c => x2 (ix3 0 m c)) = fun (m : Fin 2048) (c : Fin 1024) => A (ix3 b m ⟨2048 + c.val, by omega⟩) := funext fun m => funext fun c => h2 m c
  rw [e0, e1, e2]
  rfl

/-- The region has thirty-two grid points. -/
theorem pt1_lt (t : Fin cfg1.N) : t.val < 32 := lt_of_lt_of_eq t.isLt Gen.N_1

variable (V : (c : Dev nD) → (b : Ref sig .tc) → Buf (Elt Ideal) ((c : Thread nD τ).loc b))

/-- The query block at point t is rows 128 (t % 16) … of batch entry t / 16, columns 0 … 1023. -/
theorem iblk1_0_apply (c : Dev nD) (t : Fin cfg1.N) (r : Fin 128) (cc : Fin 1024) :
    iblk1 (F := Ideal) V c 0 t (ix3 0 r cc) = V c main_v10 (ix3 ⟨t.val / 16, by have := pt1_lt t; omega⟩ ⟨128 * (t.val % 16) + r.val, by omega⟩ ⟨cc.val, by omega⟩) := by
  obtain ⟨-, -, -, e0, e1, e2, -⟩ := blockIdx1 t
  show V c main_v10 (((cfg1.win 0).blk t).view.emb (ix3 0 r cc)) = V c main_v10 _
  congr 1
  funext a
  apply Fin.ext
  match a with
  | ⟨0, _⟩ => show win1_0.index t (0 : Fin 3) * 1 + 1 * 0 = t.val / 16; omega
  | ⟨1, _⟩ => show win1_0.index t (1 : Fin 3) * 128 + 1 * r.val = 128 * (t.val % 16) + r.val; omega
  | ⟨2, _⟩ => show win1_0.index t (2 : Fin 3) * 1024 + 1 * cc.val = cc.val; omega

/-- The key block at point t is every row of batch entry t / 16, columns 1024 … 2047. -/
theorem iblk1_1_apply (c : Dev nD) (t : Fin cfg1.N) (m : Fin 2048) (cc : Fin 1024) :
    iblk1 (F := Ideal) V c 1 t (ix3 0 m cc) = V c main_v10 (ix3 ⟨t.val / 16, by have := pt1_lt t; omega⟩ m ⟨1024 + cc.val, by omega⟩) := by
  obtain ⟨-, -, -, -, -, -, e0, e1, e2, -⟩ := blockIdx1 t
  show V c main_v10 (((cfg1.win 1).blk t).view.emb (ix3 0 m cc)) = V c main_v10 _
  congr 1
  funext a
  apply Fin.ext
  match a with
  | ⟨0, _⟩ => show win1_1.index t (0 : Fin 3) * 1 + 1 * 0 = t.val / 16; omega
  | ⟨1, _⟩ => show win1_1.index t (1 : Fin 3) * 2048 + 1 * m.val = m.val; omega
  | ⟨2, _⟩ => show win1_1.index t (2 : Fin 3) * 1024 + 1 * cc.val = 1024 + cc.val; omega

/-- The value block at point t is every row of batch entry t / 16, columns 2048 … 3071. -/
theorem iblk1_2_apply (c : Dev nD) (t : Fin cfg1.N) (m : Fin 2048) (cc : Fin 1024) :
    iblk1 (F := Ideal) V c 2 t (ix3 0 m cc) = V c main_v10 (ix3 ⟨t.val / 16, by have := pt1_lt t; omega⟩ m ⟨2048 + cc.val, by omega⟩) := by
  obtain ⟨-, -, -, -, -, -, -, -, -, e0, e1, e2, -⟩ := blockIdx1 t
  show V c main_v10 (((cfg1.win 2).blk t).view.emb (ix3 0 m cc)) = V c main_v10 _
  congr 1
  funext a
  apply Fin.ext
  match a with
  | ⟨0, _⟩ => show win1_2.index t (0 : Fin 3) * 1 + 1 * 0 = t.val / 16; omega
  | ⟨1, _⟩ => show win1_2.index t (1 : Fin 3) * 2048 + 1 * m.val = m.val; omega
  | ⟨2, _⟩ => show win1_2.index t (2 : Fin 3) * 1024 + 1 * cc.val = 2048 + cc.val; omega

/-- The transposed projection is read whole at every point. -/
theorem iblk1_3_eq (c : Dev nD) (t : Fin cfg1.N) : iblk1 (F := Ideal) V c 3 t = V c main_v5 := by
  obtain ⟨-, -, -, -, -, -, -, -, -, -, -, -, e0, e1, -⟩ := blockIdx1 t
  funext y
  show V c main_v5 (((cfg1.win 3).blk t).view.emb y) = V c main_v5 y
  congr 1
  funext a
  apply Fin.ext
  match a with
  | ⟨0, _⟩ => show win1_3.index t (0 : Fin 2) * 1024 + 1 * (y 0).val = (y 0).val; omega
  | ⟨1, _⟩ => show win1_3.index t (1 : Fin 2) * 1024 + 1 * (y 1).val = (y 1).val; omega

/-- The bias row is read whole at every point. -/
theorem iblk1_4_eq (c : Dev nD) (t : Fin cfg1.N) : iblk1 (F := Ideal) V c 4 t = V c main_v9 := by
  obtain ⟨-, -, -, -, -, -, -, -, -, -, -, -, -, -, e0, e1⟩ := blockIdx1 t
  funext y
  show V c main_v9 (((cfg1.win 4).blk t).view.emb y) = V c main_v9 y
  congr 1
  funext a
  apply Fin.ext
  match a with
  | ⟨0, _⟩ => show win1_4.index t (0 : Fin 2) * 1 + 1 * (y 0).val = (y 0).val; omega
  | ⟨1, _⟩ => show win1_4.index t (1 : Fin 2) * 1024 + 1 * (y 1).val = (y 1).val; omega

/-- What point t writes back is block t of the result array of the arrays the region was entered with. -/
theorem flushed1_eq (c : Dev nD) (t : Fin cfg1.N) :
    (dat1 (F := Ideal) V c).flushed 5 t
      = ((cfg1.win 5).blk t).view.read (Elt Ideal) (Cert.Spec.G1 (V c main_v10) (V c main_v5) (V c main_v9)) := by
  show (cfg1.win 5).cut (grid1.coords t) ((dat1 V c).after 5 t) = _
  rw [after1_5, iblk1_3_eq, iblk1_4_eq]
  obtain ⟨e0, e1, e2, -⟩ := blockIdx1 t
  have ht := pt1_lt t
  funext y
  have hy0 : (y 0).val < 1 := (y 0).isLt
  have hy1 : (y 1).val < 128 := (y 1).isLt
  have hy2 : (y 2).val < 1024 := (y 2).isLt
  show out1 (F := Ideal) (iblk1 V c 0 t) (iblk1 V c 1 t) (iblk1 V c 2 t) (V c main_v5) (V c main_v9) ((cfg1.win 5).xinj (grid1.coords t) y)
    = Cert.Spec.G1 (V c main_v10) (V c main_v5) (V c main_v9) (((cfg1.win 5).blk t).view.emb y)
  have hL : (cfg1.win 5).xinj (grid1.coords t) y = ix3 (0 : Fin 1) (⟨(y 1).val, hy1⟩ : Fin 128) (⟨(y 2).val, hy2⟩ : Fin 1024) := by
    funext a
    apply Fin.ext
    match a with
    | ⟨0, _⟩ => show (y 0).val = 0; omega
    | ⟨1, _⟩ => rfl
    | ⟨2, _⟩ => rfl
  have hR : ((cfg1.win 5).blk t).view.emb y
      = ix3 (⟨t.val / 16, by omega⟩ : Fin 2) (⟨128 * (t.val % 16) + (y 1).val, by omega⟩ : Fin 2048) (⟨(y 2).val, hy2⟩ : Fin 1024) := by
    funext a
    apply Fin.ext
    match a with
    | ⟨0, _⟩ => show win1_5.index t (0 : Fin 3) * 1 + 1 * (y 0).val = t.val / 16; omega
    | ⟨1, _⟩ => show win1_5.index t (1 : Fin 3) * 128 + 1 * (y 1).val = 128 * (t.val % 16) + (y 1).val; omega
    | ⟨2, _⟩ => show win1_5.index t (2 : Fin 3) * 1024 + 1 * (y 2).val = (y 2).val; omega
  rw [hL, hR]
  exact out1_eq_G1 (V c main_v10) (iblk1 V c 0 t) (iblk1 V c 1 t) (iblk1 V c 2 t) (V c main_v5) (V c main_v9)
    ⟨t.val / 16, by omega⟩ (128 * (t.val % 16)) (by omega)
    (fun r cc => iblk1_0_apply V c t r cc) (fun m cc => iblk1_1_apply V c t m cc) (fun m cc => iblk1_2_apply V c t m cc)
    ⟨(y 1).val, hy1⟩ ⟨(y 2).val, hy2⟩

/-- An index of the array is in point t's block iff each coordinate is in the block's range on its axis. -/
theorem mem_blk1 (t : Fin cfg1.N) (i : S2x2048x1024.Idx) :
    i ∈ ((cfg1.win 5).blk t).view.set ↔ ∀ a : Fin 3, win1_5.index t a * S1x128x1024.size a ≤ (i a).val ∧ (i a).val < win1_5.index t a * S1x128x1024.size a + S1x128x1024.size a := by
  show i ∈ ((View.whole main_v11).slice (win1_5.rect t)).set ↔ _
  rw [View.set_slice_whole, Rect.mem_set_unit]
  exact Iff.rfl

/-- Every index (b, n, j) of the array is in the block of point 16 b + n / 128. -/
theorem covered1 (i : S2x2048x1024.Idx) : ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  have ht : 16 * (i 0).val + (i 1).val / 128 < cfg1.N := by rw [show cfg1.N = 32 from Gen.N_1]; omega
  obtain ⟨T, hT⟩ : ∃ T : Fin cfg1.N, T.val = 16 * (i 0).val + (i 1).val / 128 := ⟨⟨_, ht⟩, rfl⟩
  refine ⟨T, flush1_5 T, ?_⟩
  rw [mem_blk1]
  obtain ⟨e0, e1, e2, -⟩ := blockIdx1 T
  intro a
  match a with
  | ⟨0, _⟩ => show win1_5.index T (0 : Fin 3) * 1 ≤ (i 0).val ∧ (i 0).val < win1_5.index T (0 : Fin 3) * 1 + 1; omega
  | ⟨1, _⟩ => show win1_5.index T (1 : Fin 3) * 128 ≤ (i 1).val ∧ (i 1).val < win1_5.index T (1 : Fin 3) * 128 + 128; omega
  | ⟨2, _⟩ => show win1_5.index T (2 : Fin 3) * 1024 ≤ (i 2).val ∧ (i 2).val < win1_5.index T (2 : Fin 3) * 1024 + 1024; omega

/-- The array after the last point: every block is the result array's, and the blocks cover it. -/
theorem final1 (c : Dev nD) :
    (dat1 (F := Ideal) V c).arrAt 5 cfg1.N
      = Cert.Spec.G1 (V c main_v10) (V c main_v5) (V c main_v9) :=
  (dat1 (F := Ideal) V c).arrAt_eq_of_cover 5 (Cert.Spec.G1 (V c main_v10) (V c main_v5) (V c main_v9))
    (fun t _ => flushed1_eq V c t) covered1

end Cert.KernelIdeal.Fr

end
-- ==== Proof.KI.Host.lean ====
/-
  What the host operations before the first region leave: the three weight matrices transposed (their change of
  float format the identity over the extended reals), the four vectors reshaped to one-row matrices, x untouched.
-/
import proofs.«401440_j23210003267797_3_alg».proof.Proof.Gen.KernelIdeal.Regions
import proofs.«401440_j23210003267797_3_alg».proof.Proof.SpecK
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem V1_arg0 (c : Dev nD) : Gen.V1 m c main_arg0 = m ((c : Thread nD τ).loc main_arg0) := by
  exact (Gen.V1_of m c main_arg0 (by decide)).trans rfl
theorem V1_v1 (c : Dev nD) : Gen.V1 m c main_v1 = Cert.Spec.tr (m ((c : Thread nD τ).loc main_arg2)) := by
  show StableHlo.after hostOps0 _ (Proc.devRef .tc main_v1) = _
  after_results
  funext i
  obtain ⟨a, b, rfl⟩ : ∃ (a : Fin 1024) (b : Fin 1024), i = ix2 a b := ⟨i 0, i 1, eq_ix2 i⟩
  rw [truncf_apply]
  refine (transpose_apply [1, 0] _ transposes_S1024x1024_S1024x1024_1_0 (ix2 a b) (ix2 b a) (fun k => ?_)).trans rfl
  match k with
  | ⟨0, _⟩ => rfl
  | ⟨1, _⟩ => rfl
theorem V1_v3 (c : Dev nD) : Gen.V1 m c main_v3 = Cert.Spec.tr (m ((c : Thread nD τ).loc main_arg4)) := by
  show StableHlo.after hostOps0 _ (Proc.devRef .tc main_v3) = _
  after_results
  funext i
  obtain ⟨a, b, rfl⟩ : ∃ (a : Fin 1024) (b : Fin 3072), i = ix2 a b := ⟨i 0, i 1, eq_ix2 i⟩
  rw [truncf_apply]
  refine (transpose_apply [1, 0] _ transposes_S3072x1024_S1024x3072_1_0 (ix2 a b) (ix2 b a) (fun k => ?_)).trans rfl
  match k with
  | ⟨0, _⟩ => rfl
  | ⟨1, _⟩ => rfl
theorem V1_v5 (c : Dev nD) : Gen.V1 m c main_v5 = Cert.Spec.tr (m ((c : Thread nD τ).loc main_arg6)) := by
  show StableHlo.after hostOps0 _ (Proc.devRef .tc main_v5) = _
  after_results
  funext i
  obtain ⟨a, b, rfl⟩ : ∃ (a : Fin 1024) (b : Fin 1024), i = ix2 a b := ⟨i 0, i 1, eq_ix2 i⟩
  rw [truncf_apply]
  refine (transpose_apply [1, 0] _ transposes_S1024x1024_S1024x1024_1_0 (ix2 a b) (ix2 b a) (fun k => ?_)).trans rfl
  match k with
  | ⟨0, _⟩ => rfl
  | ⟨1, _⟩ => rfl
theorem V1_v6 (c : Dev nD) : Gen.V1 m c main_v6 = Cert.Spec.asRow (m ((c : Thread nD τ).loc main_arg1)) := by
  show StableHlo.after hostOps0 _ (Proc.devRef .tc main_v6) = _
  after_results
  funext i
  obtain ⟨u, a, rfl⟩ : ∃ (u : Fin 1) (a : Fin 1024), i = ix2 u a := ⟨i 0, i 1, eq_ix2 i⟩
  exact (shapeCast_a_1a_apply (V0 m c (Proc.devRef .tc main_arg1)) shapeCasts_S1024_S1x1024 u a).trans rfl
theorem V1_v7 (c : Dev nD) : Gen.V1 m c main_v7 = Cert.Spec.asRow (m ((c : Thread nD τ).loc main_arg3)) := by
  show StableHlo.after hostOps0 _ (Proc.devRef .tc main_v7) = _
  after_results
  funext i
  obtain ⟨u, a, rfl⟩ : ∃ (u : Fin 1) (a : Fin 1024), i = ix2 u a := ⟨i 0, i 1, eq_ix2 i⟩
  exact (shapeCast_a_1a_apply (V0 m c (Proc.devRef .tc main_arg3)) shapeCasts_S1024_S1x1024 u a).trans rfl
theorem V1_v8 (c : Dev nD) : Gen.V1 m c main_v8 = Cert.Spec.asRow (m ((c : Thread nD τ).loc main_arg5)) := by
  show StableHlo.after hostOps0 _ (Proc.devRef .tc main_v8) = _
  after_results
  funext i
  obtain ⟨u, a, rfl⟩ : ∃ (u : Fin 1) (a : Fin 3072), i = ix2 u a := ⟨i 0, i 1, eq_ix2 i⟩
  exact (shapeCast_a_1a_apply (V0 m c (Proc.devRef .tc main_arg5)) shapeCasts_S3072_S1x3072 u a).trans rfl
theorem V1_v9 (c : Dev nD) : Gen.V1 m c main_v9 = Cert.Spec.asRow (m ((c : Thread nD τ).loc main_arg7)) := by
  show StableHlo.after hostOps0 _ (Proc.devRef .tc main_v9) = _
  after_results
  funext i
  obtain ⟨u, a, rfl⟩ : ∃ (u : Fin 1) (a : Fin 1024), i = ix2 u a := ⟨i 0, i 1, eq_ix2 i⟩
  exact (shapeCast_a_1a_apply (V0 m c (Proc.devRef .tc main_arg7)) shapeCasts_S1024_S1x1024 u a).trans rfl

end Cert.KernelIdeal.Fr

end
-- ==== Proof.KI.Value.lean ====
/-
  The idealized kernel's result as one function of the argument arrays: what the second region's write-backs leave is
  the kernel-order result of the specification, the first region's q | k | v array in between.
-/
import proofs.«401440_j23210003267797_3_alg».proof.Proof.KI.RunV
import proofs.«401440_j23210003267797_3_alg».proof.Proof.KI.Arr0
import proofs.«401440_j23210003267797_3_alg».proof.Proof.KI.Arr1
import proofs.«401440_j23210003267797_3_alg».proof.Proof.KI.Host

set_option maxRecDepth 16384

noncomputable section

namespace Cert.KernelIdeal.Fr

open Cert.KernelIdeal Cert.KernelIdeal.Gen
open Idealize.ShloMosaic Idealize.ShloMosaic.TcCoe
open Idealize.SL Idealize.SL.Sem

variable (m : (ℓ : Loc nD τ sig) → Buf (Elt Ideal) ℓ)

/-- What the first region leaves in the q | k | v array. -/
theorem A0_eq (c : Dev nD) :
    A0 (F := Ideal) m c = Cert.Spec.qkvArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold A0
  rw [final0 (E1 m) c]
  show Cert.Spec.G0 (Gen.V1 m c main_arg0) (Gen.V1 m c main_v6) (Gen.V1 m c main_v1) (Gen.V1 m c main_v7) (Gen.V1 m c main_v3) (Gen.V1 m c main_v8) = _
  rw [V1_arg0, V1_v6, V1_v1, V1_v7, V1_v3, V1_v8]
  exact Cert.Spec.G0_eq _ _ _ _ _ _

/-- What the second region leaves in the result array. -/
theorem A1_eq (c : Dev nD) :
    A1 (F := Ideal) m c = Cert.Spec.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold A1
  rw [final1 (E2 m) c, E2_v10, E2_of_ne m c main_v5 (by decide), E2_of_ne m c main_v9 (by decide), A0_eq]
  show Cert.Spec.G1 _ (Gen.V1 m c main_v5) (Gen.V1 m c main_v9) = _
  rw [V1_v5, V1_v9, Cert.Spec.G1_eq]
  rfl

end Cert.KernelIdeal.Fr

end
-- ==== Proof.RefValue.lean ====
/-
  The reference program, read one stage at a time at an index, is the specification's result in the reference's
  order of normalisation.

  From x : [2,2048,1024] and the weights the reference forms the gauge-mixed input g, the fused projection
  Q = g · Wqkvᵀ + bqkv : [2,2048,3072], splits its 3072 columns as part × head × lane (column 1024 p + 64 h + d),
  takes the scaled scores s = (q · kᵀ) / sqrt 64 per head, the row maximum, the shifted exponentials e and their row
  sums L, the weights e / L, the weighted sum of the value part, lays the sixteen heads side by side again
  (column c is head c / 64, lane c % 64) and applies the output projection. Each lemma below reads one of these stages
  at coordinates and identifies it with the specification's function of the same name.
-/
import proofs.«401440_j23210003267797_3_alg».proof.Proof.Gen.ReferenceIdeal.Read
import proofs.«401440_j23210003267797_3_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- The gauge-mixed input, read at (b, n, c). -/
theorem gauge_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (b : Fin 2) (n : Fin 2048) (c : Fin 1024) :
    val_main_v9 (F := Ideal) x0 x1 x2 x3 (ix3 b n c) = Cert.Spec.gauge x0 x1 x2 x3 b n c := by
  have e0 : ∀ k : Fin 1024, lidx_main_v0 (ix3 b n c) k = ix3 b n k := fun k =>
    funext fun a => Fin.ext (by match a with | ⟨0, _⟩ => rfl | ⟨1, _⟩ => rfl | ⟨2, _⟩ => rfl)
  have e1 : ∀ k : Fin 1024, ridx_main_v0 (ix3 b n c) k = ix2 c k := fun k =>
    funext fun a => Fin.ext (by match a with | ⟨0, _⟩ => rfl | ⟨1, _⟩ => rfl)
  have e2 : idx_main_v1 (idx_main_v2 (ix3 b n c)) = ix1 c :=
    funext fun a => Fin.ext (by match a with | ⟨0, _⟩ => rfl)
  have e3 : idx_main_v4 (idx_main_v5 (ix3 b n c)) = ix1 c :=
    funext fun a => Fin.ext (by match a with | ⟨0, _⟩ => rfl)
  rw [val_main_v9_apply, val_main_v8_apply, val_main_v7_apply, val_main_cst_apply, val_main_v6_apply, val_main_v3_apply,
    val_main_v0_apply, val_main_v2_apply, val_main_v1_apply, val_main_v5_apply, val_main_v4_apply, e2, e3]
  simp only [e0, e1, Ideal.addf_def, Ideal.mulf_def, Ideal.ofBits_def]
  rfl

/-- The fused q | k | v projection, read at (b, n, j). -/
theorem qkv_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (n : Fin 2048) (j : Fin 3072) :
    val_main_v13 (F := Ideal) x0 x1 x2 x3 x4 x5 (ix3 b n j) = Cert.Spec.qkv x0 x1 x2 x3 x4 x5 b n j := by
  have e0 : ∀ k : Fin 1024, lidx_main_v10 (ix3 b n j) k = ix3 b n k := fun k =>
    funext fun a => Fin.ext (by match a with | ⟨0, _⟩ => rfl | ⟨1, _⟩ => rfl | ⟨2, _⟩ => rfl)
  have e1 : ∀ k : Fin 1024, ridx_main_v10 (ix3 b n j) k = ix2 j k := fun k =>
    funext fun a => Fin.ext (by match a with | ⟨0, _⟩ => rfl | ⟨1, _⟩ => rfl)
  have e2 : idx_main_v11 (idx_main_v12 (ix3 b n j)) = ix1 j :=
    funext fun a => Fin.ext (by match a with | ⟨0, _⟩ => rfl)
  rw [val_main_v13_apply, val_main_v10_apply, val_main_v12_apply, val_main_v11_apply, e2]
  simp only [e0, e1, gauge_eq, Ideal.addf_def]
  rfl

/-- The scale: one over the square root of sixty-four is the word of one eighth. -/
theorem scale_eq (i : S_.Idx) : val_main_v23 (F := Ideal) i = Cert.Spec.eighth := by
  rw [val_main_v23_apply, val_main_cst_1_apply, val_main_v22_apply, val_main_cst_0_apply]
  simp only [Ideal.hostDivf_def, Ideal.hostUnary_sqrt_def, Ideal.ofBits_def]
  have h64 : Ideal.ofBits .f32 0x42800000#32 = ((64 : ℝ) : EReal) := by
    simp [Ideal.ofBits, Ideal.ieee]
    rw [← EReal.coe_mul]
    norm_num
  have h1 : Ideal.ofBits .f32 0x3F800000#32 = ((1 : ℝ) : EReal) := by
    simp [Ideal.ofBits, Ideal.ieee]
    rw [← EReal.coe_mul]
    norm_num
  have h8 : Cert.Spec.eighth = (((8 : ℝ)⁻¹ : ℝ) : EReal) := by
    unfold Cert.Spec.eighth
    simp [Ideal.ofBits, Ideal.ieee]
    rw [← EReal.coe_mul]
    norm_num
  have hs : Real.sqrt 64 = 8 := by
    rw [show (64 : ℝ) = 8 ^ 2 by norm_num]
    exact Real.sqrt_sq (by norm_num)
  rw [h64, h1, h8, Ideal.sqrt_coe, if_neg (by norm_num), hs]
  unfold Ideal.div
  rw [if_neg (by norm_num), ← EReal.coe_inv, ← EReal.coe_mul, one_mul]

/-- The q | k | v array split into parts and heads: part p, batch b, head h, row n, lane d is column 1024 p + 64 h + d. -/
theorem heads_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (p : Fin 3) (b : Fin 2) (h : Fin 16) (n : Fin 2048) (d : Fin 64) :
    val_main_v15 (F := Ideal) x0 x1 x2 x3 x4 x5 (ix5 p b h n d)
      = Cert.Spec.qkv x0 x1 x2 x3 x4 x5 b n (Cert.Spec.col p h d) := by
  have e0 : idx_main_v14 (idx_main_v15 (ix5 p b h n d)) = ix3 b n (Cert.Spec.col p h d) := by
    funext a
    apply Fin.ext
    have hp := p.isLt; have hb := b.isLt; have hh := h.isLt; have hn := n.isLt; have hd := d.isLt
    match a with
    | ⟨0, _⟩ => exact (by omega : ((((b.val * 2048 + n.val) * 3 + p.val) * 16 + h.val) * 64 + d.val) / 6291456 = b.val)
    | ⟨1, _⟩ => exact (by omega : ((((b.val * 2048 + n.val) * 3 + p.val) * 16 + h.val) * 64 + d.val) / 3072 % 2048 = n.val)
    | ⟨2, _⟩ => exact (by omega : ((((b.val * 2048 + n.val) * 3 + p.val) * 16 + h.val) * 64 + d.val) % 3072 = 1024 * p.val + 64 * h.val + d.val)
  rw [val_main_v15_apply, val_main_v14_apply, e0, qkv_eq]

/-- A [2,16,2048,64] index read through the unit axis a slice leaves in front. -/
theorem unit_front (b : Fin 2) (h : Fin 16) (n : Fin 2048) (d : Fin 64) :
    idx_main_v17 (ix4 b h n d) = ix5 (0 : Fin 1) b h n d := by
  funext a
  apply Fin.ext
  have hb := b.isLt; have hh := h.isLt; have hn := n.isLt; have hd := d.isLt
  match a with
  | ⟨0, _⟩ => rfl
  | ⟨1, _⟩ => exact (by omega : (((b.val * 16 + h.val) * 2048 + n.val) * 64 + d.val) / 2097152 % 2 = b.val)
  | ⟨2, _⟩ => exact (by omega : (((b.val * 16 + h.val) * 2048 + n.val) * 64 + d.val) / 131072 % 16 = h.val)
  | ⟨3, _⟩ => exact (by omega : (((b.val * 16 + h.val) * 2048 + n.val) * 64 + d.val) / 64 % 2048 = n.val)
  | ⟨4, _⟩ => exact (by omega : (((b.val * 16 + h.val) * 2048 + n.val) * 64 + d.val) % 64 = d.val)

/-- The query part at (b, h, n, d). -/
theorem q_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) (d : Fin 64) :
    val_main_v17 (F := Ideal) x0 x1 x2 x3 x4 x5 (ix4 b h n d)
      = Cert.Spec.qkv x0 x1 x2 x3 x4 x5 b n (Cert.Spec.col 0 h d) := by
  have e : idx_main_v16 (ix5 (0 : Fin 1) b h n d) = ix5 (0 : Fin 3) b h n d :=
    funext fun a => Fin.ext (by match a with | ⟨0, _⟩ => rfl | ⟨1, _⟩ => rfl | ⟨2, _⟩ => rfl | ⟨3, _⟩ => rfl | ⟨4, _⟩ => rfl)
  rw [val_main_v17_apply, val_main_v16_apply, unit_front, e, heads_eq]

/-- The key part at (b, h, n, d). -/
theorem k_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) (d : Fin 64) :
    val_main_v19 (F := Ideal) x0 x1 x2 x3 x4 x5 (ix4 b h n d)
      = Cert.Spec.qkv x0 x1 x2 x3 x4 x5 b n (Cert.Spec.col 1 h d) := by
  have e : idx_main_v18 (ix5 (0 : Fin 1) b h n d) = ix5 (1 : Fin 3) b h n d :=
    funext fun a => Fin.ext (by match a with | ⟨0, _⟩ => rfl | ⟨1, _⟩ => rfl | ⟨2, _⟩ => rfl | ⟨3, _⟩ => rfl | ⟨4, _⟩ => rfl)
  rw [val_main_v19_apply, val_main_v18_apply, show idx_main_v19 (ix4 b h n d) = ix5 (0 : Fin 1) b h n d from unit_front b h n d, e, heads_eq]

/-- The value part at (b, h, n, d). -/
theorem v_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) (d : Fin 64) :
    val_main_v21 (F := Ideal) x0 x1 x2 x3 x4 x5 (ix4 b h n d)
      = Cert.Spec.qkv x0 x1 x2 x3 x4 x5 b n (Cert.Spec.col 2 h d) := by
  have e : idx_main_v20 (ix5 (0 : Fin 1) b h n d) = ix5 (2 : Fin 3) b h n d :=
    funext fun a => Fin.ext (by match a with | ⟨0, _⟩ => rfl | ⟨1, _⟩ => rfl | ⟨2, _⟩ => rfl | ⟨3, _⟩ => rfl | ⟨4, _⟩ => rfl)
  rw [val_main_v21_apply, val_main_v20_apply, show idx_main_v21 (ix4 b h n d) = ix5 (0 : Fin 1) b h n d from unit_front b h n d, e, heads_eq]

/-- The scaled scores at (b, h, n, m). -/
theorem score_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n m : Fin 2048) :
    val_main_v26 (F := Ideal) x0 x1 x2 x3 x4 x5 (ix4 b h n m)
      = Cert.Spec.score (Cert.Spec.qkv x0 x1 x2 x3 x4 x5) b h n m := by
  have e0 : ∀ k : Fin 64, lidx_main_v24 (ix4 b h n m) k = ix4 b h n k := fun k =>
    funext fun a => Fin.ext (by match a with | ⟨0, _⟩ => rfl | ⟨1, _⟩ => rfl | ⟨2, _⟩ => rfl | ⟨3, _⟩ => rfl)
  have e1 : ∀ k : Fin 64, ridx_main_v24 (ix4 b h n m) k = ix4 b h m k := fun k =>
    funext fun a => Fin.ext (by match a with | ⟨0, _⟩ => rfl | ⟨1, _⟩ => rfl | ⟨2, _⟩ => rfl | ⟨3, _⟩ => rfl)
  rw [val_main_v26_apply, val_main_v24_apply, val_main_v25_apply, scale_eq]
  simp only [e0, e1, q_eq, k_eq, Ideal.mulf_def]
  rfl

/-- The word of minus infinity is the bottom of the extended reals. -/
theorem negInf_eq : Ideal.ofBits .f32 0xFF800000#32 = (⊥ : EReal) := by
  simp [Ideal.ofBits, Ideal.ieee]

/-- The reduced index (b, h, n) with m put back on the last axis is (b, h, n, m). -/
theorem lift_last (hr : S2x16x2048x2048.Reduces [3] S2x16x2048) (b : Fin 2) (h : Fin 16) (n : Fin 2048)
    (m : Fin (S2x16x2048x2048.size 3)) : hr.lift (ix3 b h n) m = ix4 b h n (⟨m.val, m.isLt⟩ : Fin 2048) := by
  funext c
  apply Fin.ext
  match c with
  | ⟨0, _⟩ => rfl
  | ⟨1, _⟩ => rfl
  | ⟨2, _⟩ => rfl
  | ⟨3, _⟩ => rfl

/-- The row maximum at (b, h, n). -/
theorem rowmax_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) :
    val_main_v29 (F := Ideal) x0 x1 x2 x3 x4 x5 (ix3 b h n)
      = Cert.Spec.rowmax (Cert.Spec.qkv x0 x1 x2 x3 x4 x5) b h n := by
  have hr : S2x16x2048x2048.Reduces [3] S2x16x2048 := by decide
  have hf : (val_main_v26 (F := Ideal) x0 x1 x2 x3 x4 x5 ∘ hr.lift (ix3 b h n))
      = fun m : Fin 2048 => Cert.Spec.score (Cert.Spec.qkv x0 x1 x2 x3 x4 x5) b h n m := by
    funext m
    show val_main_v26 (F := Ideal) x0 x1 x2 x3 x4 x5 (hr.lift (ix3 b h n) m) = _
    rw [lift_last hr b h n m, score_eq]
    rfl
  have h27 : val_main_v27 (F := Ideal) x0 x1 x2 x3 x4 x5 (ix3 b h n)
      = Cert.Spec.rowmax (Cert.Spec.qkv x0 x1 x2 x3 x4 x5) b h n := by
    unfold val_main_v27
    refine (Host.reduce_eq_fold_single FloatOps.maximumf _ _ reducesTo_S2x16x2048x2048_S2x16x2048_d3 hr h_S_ (ix3 b h n)).trans ?_
    rw [hf, val_main_cst_2_apply, Ideal.ofBits_def, negInf_eq]
    rfl
  rw [val_main_v29_apply, val_main_v28_apply, val_main_cst_3_apply, h27, Ideal.ofBits_def, negInf_eq, Ideal.maximumf_def]
  exact max_bot_left _

/-- The shifted exponentials at (b, h, n, m). -/
theorem ex_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n m : Fin 2048) :
    val_main_v33 (F := Ideal) x0 x1 x2 x3 x4 x5 (ix4 b h n m)
      = Cert.Spec.ex (Cert.Spec.qkv x0 x1 x2 x3 x4 x5) b h n m := by
  have e : idx_main_v30 (idx_main_v31 (ix4 b h n m)) = ix3 b h n :=
    funext fun a => Fin.ext (by match a with | ⟨0, _⟩ => rfl | ⟨1, _⟩ => rfl | ⟨2, _⟩ => rfl)
  rw [val_main_v33_apply, val_main_v32_apply, val_main_v31_apply, val_main_v30_apply, e, rowmax_eq, score_eq,
    Ideal.hostUnary_exp_def, Ideal.subf_def]
  rfl

/-- The row sums of the exponentials at (b, h, n). -/
theorem den_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) :
    val_main_v34 (F := Ideal) x0 x1 x2 x3 x4 x5 (ix3 b h n)
      = Cert.Spec.den (Cert.Spec.qkv x0 x1 x2 x3 x4 x5) b h n := by
  have e : ∀ k : Fin 2048, idx_main_v34 (ix3 b h n) k = ix4 b h n k := fun k =>
    funext fun a => Fin.ext (by match a with | ⟨0, _⟩ => rfl | ⟨1, _⟩ => rfl | ⟨2, _⟩ => rfl | ⟨3, _⟩ => rfl)
  rw [val_main_v34_apply, val_main_cst_4_apply, Ideal.ofBits_def, Ideal.ofBits_zero_f32, zero_add]
  simp only [e, ex_eq]
  rfl

/-- The normalised weights at (b, h, n, m). -/
theorem weight_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n m : Fin 2048) :
    val_main_v37 (F := Ideal) x0 x1 x2 x3 x4 x5 (ix4 b h n m)
      = Ideal.div (Cert.Spec.ex (Cert.Spec.qkv x0 x1 x2 x3 x4 x5) b h n m)
          (Cert.Spec.den (Cert.Spec.qkv x0 x1 x2 x3 x4 x5) b h n) := by
  have e : idx_main_v35 (idx_main_v36 (ix4 b h n m)) = ix3 b h n :=
    funext fun a => Fin.ext (by match a with | ⟨0, _⟩ => rfl | ⟨1, _⟩ => rfl | ⟨2, _⟩ => rfl)
  rw [val_main_v37_apply, val_main_v36_apply, val_main_v35_apply, e, den_eq, ex_eq, Ideal.hostDivf_def]

/-- The attention output at (b, h, n, d), normalised before the weighted sum. -/
theorem att_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (h : Fin 16) (n : Fin 2048) (d : Fin 64) :
    val_main_v38 (F := Ideal) x0 x1 x2 x3 x4 x5 (ix4 b h n d)
      = Cert.Spec.attR (Cert.Spec.qkv x0 x1 x2 x3 x4 x5) b n h d := by
  have e0 : ∀ k : Fin 2048, lidx_main_v38 (ix4 b h n d) k = ix4 b h n k := fun k =>
    funext fun a => Fin.ext (by match a with | ⟨0, _⟩ => rfl | ⟨1, _⟩ => rfl | ⟨2, _⟩ => rfl | ⟨3, _⟩ => rfl)
  have e1 : ∀ k : Fin 2048, ridx_main_v38 (ix4 b h n d) k = ix4 b h k d := fun k =>
    funext fun a => Fin.ext (by match a with | ⟨0, _⟩ => rfl | ⟨1, _⟩ => rfl | ⟨2, _⟩ => rfl | ⟨3, _⟩ => rfl)
  rw [val_main_v38_apply]
  simp only [e0, e1, weight_eq, v_eq]
  rfl

/-- The heads laid side by side: column c of row (b, n) is head c / 64, lane c % 64. -/
theorem merged_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (b : Fin 2) (n : Fin 2048) (c : Fin 1024) :
    val_main_v40 (F := Ideal) x0 x1 x2 x3 x4 x5 (ix3 b n c)
      = Cert.Spec.attR (Cert.Spec.qkv x0 x1 x2 x3 x4 x5) b n ⟨c.val / 64, by omega⟩ ⟨c.val % 64, Nat.mod_lt _ (by decide)⟩ := by
  have e : idx_main_v39 (idx_main_v40 (ix3 b n c))
      = ix4 b (⟨c.val / 64, by omega⟩ : Fin 16) n (⟨c.val % 64, Nat.mod_lt _ (by decide)⟩ : Fin 64) := by
    funext a
    apply Fin.ext
    have hb := b.isLt; have hn := n.isLt; have hc := c.isLt
    match a with
    | ⟨0, _⟩ => exact (by omega : ((b.val * 2048 + n.val) * 1024 + c.val) / 2097152 = b.val)
    | ⟨1, _⟩ => exact (by omega : ((b.val * 2048 + n.val) * 1024 + c.val) / 64 % 16 = c.val / 64)
    | ⟨2, _⟩ => exact (by omega : ((b.val * 2048 + n.val) * 1024 + c.val) / 1024 % 2048 = n.val)
    | ⟨3, _⟩ => exact (by omega : ((b.val * 2048 + n.val) * 1024 + c.val) % 64 = c.val % 64)
  rw [val_main_v40_apply, val_main_v39_apply, e, att_eq]

/-- The output projection at (b, n, j). -/
theorem out_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (x6 : (⟨S1024x1024, .f32⟩ : BufTy).Contents (Elt Ideal)) (x7 : (⟨S1024, .f32⟩ : BufTy).Contents (Elt Ideal)) (b : Fin 2) (n : Fin 2048) (j : Fin 1024) :
    val_main_v44 (F := Ideal) x0 x1 x2 x3 x4 x5 x6 x7 (ix3 b n j)
      = Cert.Spec.proj (Cert.Spec.attR (Cert.Spec.qkv x0 x1 x2 x3 x4 x5)) x6 x7 b n j := by
  have e0 : ∀ k : Fin 1024, lidx_main_v41 (ix3 b n j) k = ix3 b n k := fun k =>
    funext fun a => Fin.ext (by match a with | ⟨0, _⟩ => rfl | ⟨1, _⟩ => rfl | ⟨2, _⟩ => rfl)
  have e1 : ∀ k : Fin 1024, ridx_main_v41 (ix3 b n j) k = ix2 j k := fun k =>
    funext fun a => Fin.ext (by match a with | ⟨0, _⟩ => rfl | ⟨1, _⟩ => rfl)
  have e2 : idx_main_v42 (idx_main_v43 (ix3 b n j)) = ix1 j :=
    funext fun a => Fin.ext (by match a with | ⟨0, _⟩ => rfl)
  rw [val_main_v44_apply, val_main_v41_apply, val_main_v43_apply, val_main_v42_apply, e2]
  simp only [e0, e1, merged_eq, Ideal.addf_def]
  rfl

/-- The reference's result is the specification's, the reference's order of normalisation. -/
theorem ref_eq (x0 : (⟨S2x2048x1024, .f32⟩ : BufTy).Contents (Elt Ideal)) (x1 : (⟨S1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) (x6 : (⟨S1024x1024, .f32⟩ : BufTy).Contents (Elt Ideal)) (x7 : (⟨S1024, .f32⟩ : BufTy).Contents (Elt Ideal)) :
    Cert.ReferenceIdeal.Read.val_main_v44 (F := Ideal) x0 x1 x2 x3 x4 x5 x6 x7 = Cert.Spec.outR x0 x1 x2 x3 x4 x5 x6 x7 := by
  funext i
  obtain ⟨b, n, j, rfl⟩ : ∃ (b : Fin 2) (n : Fin 2048) (j : Fin 1024), i = ix3 b n j := ⟨i 0, i 1, i 2, eq_ix3 i⟩
  exact out_eq x0 x1 x2 x3 x4 x5 x6 x7 b n j

end Cert.RefValue

end
-- ==== Proof.SpecAlg.lean ====
/-
  The two orders of normalising the attention weights agree on real inputs.

  Every entry built from real numbers by sums and products is a real number. For a row of real scores the row
  maximum is a real number, so each shifted score is real, its exponential is a positive real, and the row's
  denominator L is a positive real. Dividing by L is then multiplying by the real 1 / L, and
      (sum_m e_m * v_m) * (1 / L) = sum_m (e_m * (1 / L)) * v_m
  is distributivity in the real numbers.
-/
import proofs.«401440_j23210003267797_3_alg».proof.Proof.Spec
import Mathlib.Data.EReal.Operations
import Mathlib.Data.Finset.Fold
import Mathlib.Algebra.Order.BigOperators.Group.Finset
import Mathlib.Analysis.SpecialFunctions.Exp

noncomputable section

open scoped BigOperators

namespace Cert.Spec

open Idealize.ShloMosaic Idealize.ShloMosaic.ValueIdx

/-! ### Real numbers are closed under the operations used -/

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The inclusion of the reals commutes with finite sums. -/
theorem coe_sum {ι : Type} (s : Finset ι) (g : ι → ℝ) :
    ∑ i ∈ s, (g i : EReal) = ((∑ i ∈ s, g i : ℝ) : EReal) := by
  classical
  refine Finset.induction_on s (by simp) ?_
  intro a s ha ih
  rw [Finset.sum_insert ha, Finset.sum_insert ha, ih, EReal.coe_add]

theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by simp_rw [hg]; exact coe_sum s g⟩

/-- A maximum over a finite family of reals, started at the bottom, is the bottom or a real. -/
theorem fold_max_real {ι : Type} (s : Finset ι) (f : ι → EReal) (hf : ∀ i, ∃ r : ℝ, f i = (r : EReal)) :
    s.fold max ⊥ f = ⊥ ∨ ∃ r : ℝ, s.fold max ⊥ f = (r : EReal) := by
  classical
  refine Finset.induction_on s (Or.inl Finset.fold_empty) ?_
  intro a s ha ih
  right
  rw [Finset.fold_insert ha]
  obtain ⟨r, hr⟩ := hf a
  rcases ih with h0 | ⟨r', hr'⟩
  · rw [h0, hr]
    exact ⟨r, max_bot_right _⟩
  · rw [hr, hr']
    exact ⟨max r r', (EReal.coe_strictMono.monotone.map_max).symm⟩

/-! ### The two constants -/

theorem eighth_eq : eighth = ((1 / 8 : ℝ) : EReal) := by
  simp [eighth, Ideal.ofBits, Ideal.ieee]
  rw [← EReal.coe_mul]
  norm_num

theorem eighth_real : ∃ r : ℝ, eighth = (r : EReal) := ⟨_, eighth_eq⟩

theorem tenth_real : ∃ r : ℝ, tenth = (r : EReal) := by
  unfold tenth Ideal.ofBits Ideal.ieee
  simp only []
  rw [if_neg (by decide), if_neg (by decide)]
  exact ⟨_, rfl⟩

/-! ### The q | k | v projection of real inputs is real -/

theorem gauge_real {x : Arr3 2 2048 1024} {th : Arr1 1024} {Wg : Arr2 1024 1024} {bg : Arr1 1024}
    (hx : IsReal x) (hth : IsReal th) (hWg : IsReal Wg) (hbg : IsReal bg) (b : Fin 2) (n : Fin 2048) (c : Fin 1024) :
    ∃ r : ℝ, gauge x th Wg bg b n c = (r : EReal) :=
  real_add (hx _)
    (real_mul tenth_real
      (real_mul (real_add (real_sum _ _ fun k => real_mul (hx _) (hWg _)) (hbg _)) (hth _)))

theorem qkv_real {x : Arr3 2 2048 1024} {th : Arr1 1024} {Wg : Arr2 1024 1024} {bg : Arr1 1024}
    {Wq : Arr2 3072 1024} {bq : Arr1 3072}
    (hx : IsReal x) (hth : IsReal th) (hWg : IsReal Wg) (hbg : IsReal bg) (hWq : IsReal Wq) (hbq : IsReal bq)
    (b : Fin 2) (n : Fin 2048) (j : Fin 3072) :
    ∃ r : ℝ, qkv x th Wg bg Wq bq b n j = (r : EReal) :=
  real_add (real_sum _ _ fun c => real_mul (gauge_real hx hth hWg hbg b n c) (hWq _)) (hbq _)

/-! ### Attention over a real q | k | v array -/

section Attention

variable (Q : Fin 2 → Fin 2048 → Fin 3072 → EReal) (hQ : ∀ b n j, ∃ r : ℝ, Q b n j = (r : EReal))

include hQ

theorem score_real (b : Fin 2) (h : Fin 16) (n m : Fin 2048) : ∃ r : ℝ, score Q b h n m = (r : EReal) :=
  real_mul (real_sum _ _ fun d => real_mul (hQ _ _ _) (hQ _ _ _)) eighth_real

/-- The row maximum dominates the row's first score, so it is not the bottom. -/
theorem rowmax_real (b : Fin 2) (h : Fin 16) (n : Fin 2048) : ∃ r : ℝ, rowmax Q b h n = (r : EReal) := by
  rcases fold_max_real Finset.univ (fun m => score Q b h n m) (score_real Q hQ b h n) with h0 | hr
  · exfalso
    obtain ⟨r, hr⟩ := score_real Q hQ b h n ⟨0, by norm_num⟩
    have hle : score Q b h n ⟨0, by norm_num⟩ ≤ Finset.univ.fold max ⊥ (fun m => score Q b h n m) :=
      (Finset.le_fold_max _).2 (Or.inr ⟨_, Finset.mem_univ _, le_rfl⟩)
    rw [h0, hr] at hle
    exact absurd hle (not_le.2 (EReal.bot_lt_coe r))
  · exact hr

/-- Each weight is the exponential of a real number. -/
theorem ex_real (b : Fin 2) (h : Fin 16) (n m : Fin 2048) :
    ∃ t : ℝ, ex Q b h n m = ((Real.exp t : ℝ) : EReal) := by
  obtain ⟨r, hr⟩ := score_real Q hQ b h n m
  obtain ⟨s, hs⟩ := rowmax_real Q hQ b h n
  refine ⟨r - s, ?_⟩
  rw [ex, hr, hs, ← EReal.coe_sub, Ideal.exp_coe]

theorem att_eq (b : Fin 2) (n : Fin 2048) (h : Fin 16) (d : Fin 64) :
    attK Q b n h d = attR Q b n h d := by
  choose q hq using hQ
  choose t ht using fun m => ex_real Q (fun b n j => ⟨q b n j, hq b n j⟩) b h n m
  have hden : den Q b h n = ((∑ m : Fin 2048, Real.exp (t m) : ℝ) : EReal) := by
    unfold den
    simp_rw [ht]
    exact coe_sum _ _
  have hpos : (∑ m : Fin 2048, Real.exp (t m)) ≠ 0 :=
    (Finset.sum_pos (fun m _ => Real.exp_pos (t m)) ⟨⟨0, by norm_num⟩, Finset.mem_univ _⟩).ne'
  unfold attK attR
  rw [hden, Ideal.div_coe hpos]
  simp_rw [Ideal.div_coe hpos, ht, hq, ← EReal.coe_mul, coe_sum, ← EReal.coe_mul]
  congr 1
  rw [Finset.sum_mul]
  refine Finset.sum_congr rfl fun m _ => ?_
  ring

end Attention

/-! ### The whole result -/

theorem ofArr_qkvArr (x : Arr3 2 2048 1024) (th : Arr1 1024) (Wg : Arr2 1024 1024) (bg : Arr1 1024)
    (Wq : Arr2 3072 1024) (bq : Arr1 3072) :
    ofArr (qkvArr x th Wg bg Wq bq) = qkv x th Wg bg Wq bq := by
  funext b n j
  rfl

theorem outK_eq_outR {x : Arr3 2 2048 1024} {th : Arr1 1024} {Wg : Arr2 1024 1024} {bg : Arr1 1024}
    {Wq : Arr2 3072 1024} {bq : Arr1 3072} {Wp : Arr2 1024 1024} {bp : Arr1 1024}
    (hx : IsReal x) (hth : IsReal th) (hWg : IsReal Wg) (hbg : IsReal bg) (hWq : IsReal Wq) (hbq : IsReal bq) :
    outK x th Wg bg Wq bq Wp bp = outR x th Wg bg Wq bq Wp bp := by
  have hatt : attK (qkv x th Wg bg Wq bq) = attR (qkv x th Wg bg Wq bq) := by
    funext b n h d
    exact att_eq _ (fun b n j => qkv_real hx hth hWg hbg hWq hbq b n j) b n h d
  unfold outK outR attnOutK
  rw [ofArr_qkvArr, hatt]

end Cert.Spec

end
-- ==== Proof.PreReal.lean ====
/-
  The precondition read back: when the conjunction of the eight tests "every entry has absolute value below +infinity"
  comes out 1, every entry of every argument is a real number.

  An extended real a has max a (-a) < +infinity only when a is neither -infinity nor +infinity: at either of the
  two, max a (-a) is +infinity itself.
-/
import proofs.«401440_j23210003267797_3_alg».proof.Defs
import proofs.«401440_j23210003267797_3_alg».proof.Proof.Gen.Pre_finite_inputs
import proofs.«401440_j23210003267797_3_alg».proof.Proof.Spec
import Idealize.ShloMosaic.Lib.ReduceAll

noncomputable section

namespace Cert.PreReal

open Idealize.ShloMosaic Idealize.ShloMosaic.ValueIdx

/-- The word 0x7F800000 denotes +infinity. -/
theorem ofBits_inf : Ideal.ofBits .f32 0x7F800000#32 = (⊤ : EReal) := by
  simp [Ideal.ofBits, Ideal.ieee]

/-- An extended real whose absolute value is below +infinity is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

instance : Subsingleton Cert.Pre_finite_inputs.S_.Idx := ⟨fun a b => funext fun d => d.elim0⟩

/-- One array's test: the all-axes reduction by "and" of "|x| < +infinity" being 1 makes every entry of x real. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) :
    Cert.Spec.IsReal x := by
  intro i
  have h := Host.reduce_andi_all _ _ hr hu ix0 e i
  have hc : Ideal.cmp .olt (max (x i) (-(x i))) (⊤ : EReal) = 1#1 := by
    rw [← ofBits_inf]; exact h
  refine real_of_abs_lt_top (x i) ?_
  by_contra hn
  simp [Ideal.cmp, hn] at hc

/-- The precondition's function being 1 makes every entry of every argument a real number. -/
theorem real_of_fn [Cert.Pre_finite_inputs.Facts] (a0 : FVec Ideal Cert.Pre_finite_inputs.S2x2048x1024 .f32)
    (a1 : FVec Ideal Cert.Pre_finite_inputs.S1024 .f32) (a2 : FVec Ideal Cert.Pre_finite_inputs.S1024x1024 .f32)
    (a3 : FVec Ideal Cert.Pre_finite_inputs.S1024 .f32) (a4 : FVec Ideal Cert.Pre_finite_inputs.S3072x1024 .f32)
    (a5 : FVec Ideal Cert.Pre_finite_inputs.S3072 .f32) (a6 : FVec Ideal Cert.Pre_finite_inputs.S1024x1024 .f32)
    (a7 : FVec Ideal Cert.Pre_finite_inputs.S1024 .f32)
    (h : Cert.Pre_finite_inputs.fn (F := Ideal) a0 a1 a2 a3 a4 a5 a6 a7 = (fun _ => 1#1)) :
    Cert.Spec.IsReal a0 ∧ Cert.Spec.IsReal a1 ∧ Cert.Spec.IsReal a2 ∧ Cert.Spec.IsReal a3 ∧ Cert.Spec.IsReal a4
      ∧ Cert.Spec.IsReal a5 ∧ Cert.Spec.IsReal a6 ∧ Cert.Spec.IsReal a7 := by
  have h0 := congrFun h ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ a0 e0, isReal_of_all _ _ _ a1 e1, isReal_of_all _ _ _ a2 e2, isReal_of_all _ _ _ a3 e3,
    isReal_of_all _ _ _ a4 e4, isReal_of_all _ _ _ a5 e5, isReal_of_all _ _ _ a6 e6, isReal_of_all _ _ _ a7 e7⟩

/-- The certificate's precondition makes every entry of every argument buffer a real number, on every device. -/
theorem real_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg0))
      ∧ Cert.Spec.IsReal (m ((c.tc : Thread Cert.KernelIdeal.nD Cert.KernelIdeal.τ).loc Cert.KernelIdeal.main_arg1))
      ∧ Cert.Spec.IsReal (m ((c.tc : Thread Cert.KernelIdeal.nD Cert.KernelIdeal.τ).loc Cert.KernelIdeal.main_arg2))
      ∧ Cert.Spec.IsReal (m ((c.tc : Thread Cert.KernelIdeal.nD Cert.KernelIdeal.τ).loc Cert.KernelIdeal.main_arg3))
      ∧ Cert.Spec.IsReal (m ((c.tc : Thread Cert.KernelIdeal.nD Cert.KernelIdeal.τ).loc Cert.KernelIdeal.main_arg4))
      ∧ Cert.Spec.IsReal (m ((c.tc : Thread Cert.KernelIdeal.nD Cert.KernelIdeal.τ).loc Cert.KernelIdeal.main_arg5))
      ∧ Cert.Spec.IsReal (m ((c.tc : Thread Cert.KernelIdeal.nD Cert.KernelIdeal.τ).loc Cert.KernelIdeal.main_arg6))
      ∧ Cert.Spec.IsReal (m ((c.tc : Thread Cert.KernelIdeal.nD Cert.KernelIdeal.τ).loc Cert.KernelIdeal.main_arg7)) :=
  real_of_fn _ _ _ _ _ _ _ _ (h c)

end Cert.PreReal

end
-- ==== Proof.lean ====
/-
  The certificate: the fused attention kernel (a gauge mix and q | k | v projection, then per-head attention with the
  output projection) against its jnp reference, over the extended reals.

  Both programs compute, index by index, the specification's result: the kernel normalises each head's weighted sum of
  values after summing, the reference before; with every input finite the row sums of the exponentials are positive
  reals and the two orders agree. The kernel's scale 1/8 is the reference's 1 / sqrt 64. The frames: the kernel runs as
  host operations, a first region, a second region whose query, key and value windows read one array in three shares;
  the reference is a straight line of host operations.
-/
import proofs.«401440_j23210003267797_3_alg».proof.Defs
import proofs.«401440_j23210003267797_3_alg».proof.Proof.Gen.Kernel
import proofs.«401440_j23210003267797_3_alg».proof.Proof.Gen.KernelIdeal
import proofs.«401440_j23210003267797_3_alg».proof.Proof.Gen.ReferenceIdeal
import proofs.«401440_j23210003267797_3_alg».proof.Proof.Gen.ReferenceIdeal.Run
import proofs.«401440_j23210003267797_3_alg».proof.Proof.Gen.ReferenceIdeal.Read
import proofs.«401440_j23210003267797_3_alg».proof.Proof.Gen.Pre_finite_inputs
import proofs.«401440_j23210003267797_3_alg».proof.Proof.K.Run
import proofs.«401440_j23210003267797_3_alg».proof.Proof.KI.Value
import proofs.«401440_j23210003267797_3_alg».proof.Proof.RefValue
import proofs.«401440_j23210003267797_3_alg».proof.Proof.SpecAlg
import proofs.«401440_j23210003267797_3_alg».proof.Proof.PreReal
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments the two idealized programs end with the same result array: the kernel's
    is the specification's kernel-order result, the reference's its reference-order result, equal on finite inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Fr.A1 m c, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := Cert.PreReal.real_of_pre m hpre c
  show Cert.ReferenceIdeal.Value.res_main_v44 m' c = Cert.KernelIdeal.Fr.A1 m c
  rw [Cert.ReferenceIdeal.Read.val_main_v44_eq, Cert.RefValue.ref_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.KernelIdeal.Fr.A1_eq, Cert.Spec.outK_eq_outR h0 h1 h2 h3 h4 h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
